-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.named_const.Statement Cert.KernelIdeal.κ "inv_keep" .f32 0x3FA00000#32 ((16777216 / 13421773 : ℝ) : EReal)
  ∧ IdealRules.named_const.Statement Cert.KernelIdeal.κ "inv_keep" .f32 0x3FA00000#32 ((16777216 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x500000 : Shape := ⟨2, ![2, 500000]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩
abbrev S1x500000 : Shape := ⟨2, ![1, 500000]⟩
abbrev S500000 : Shape := ⟨1, ![500000]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  reducesTo_S500000_S_d0 : S500000.ReducesTo [0] S_

variable [Facts]

def fn_part4 {F : FTy → Type} [FloatOps F] (main_v64 : IVec S_ 1) (main_v68 : IVec S500000 1) : IVec S_ 1 :=
  let main_c_25 : IVec S_ 1 := constantI S_ 1 1#1
  let main_v69 : IVec S_ 1 := (fun x v => Host.reduce IntOp.andi x v reducesTo_S500000_S_d0 h_S_) main_v68 main_c_25
  let main_v70 : IVec S_ 1 := andi main_v64 main_v69
  main_v70

def fn_part3 {F : FTy → Type} [FloatOps F] (main_arg1 : IVec S2x500000 32) (main_arg12 : FVec F S128x256 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x256 .f32 := Host.absf main_arg12
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : IVec S1x500000 32 := (extractStridedSlice S1x500000 ![0, 0] · slices_S2x500000_S1x500000_0_0) main_arg1
  let main_v60 : IVec S500000 32 := shapeCast S500000 main_v59 shapeCasts_S1x500000_S500000
  let main_c_22 : IVec S_ 32 := constantI S_ 32 0#32
  let main_v61 : IVec S500000 32 := broadcastInDim S500000 ![] bcast_S_S500000 main_c_22
  let main_v62 : IVec S500000 1 := cmpi .sge main_v60 main_v61
  let main_c_23 : IVec S_ 1 := constantI S_ 1 1#1
  let main_v63 : IVec S_ 1 := (fun x v => Host.reduce IntOp.andi x v reducesTo_S500000_S_d0 h_S_) main_v62 main_c_23
  let main_v64 : IVec S_ 1 := andi main_v58 main_v63
  let main_v65 : IVec S1x500000 32 := (extractStridedSlice S1x500000 ![0, 0] · slices_S2x500000_S1x500000_0_0) main_arg1
  let main_v66 : IVec S500000 32 := shapeCast S500000 main_v65 shapeCasts_S1x500000_S500000
  let main_c_24 : IVec S_ 32 := constantI S_ 32 50000#32
  let main_v67 : IVec S500000 32 := broadcastInDim S500000 ![] bcast_S_S500000 main_c_24
  let main_v68 : IVec S500000 1 := cmpi .slt main_v66 main_v67
  fn_part4 (F := F) main_v64 main_v68

def fn_part2 {F : FTy → Type} [FloatOps F] (main_arg1 : IVec S2x500000 32) (main_arg8 : FVec F S256 .f32) (main_arg9 : FVec F S256x256 .f32) (main_arg10 : FVec F S128x256 .f32) (main_arg11 : FVec F S128 .f32) (main_arg12 : FVec F S128x256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S128x256 .f32 := Host.absf main_arg10
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg12 main_v48 main_v49 main_v50

def fn_part1 {F : FTy → Type} [FloatOps F] (main_arg1 : IVec S2x500000 32) (main_arg5 : FVec F S256 .f32) (main_arg6 : FVec F S256x256 .f32) (main_arg7 : FVec F S256x256 .f32) (main_arg8 : FVec F S256 .f32) (main_arg9 : FVec F S256x256 .f32) (main_arg10 : FVec F S128x256 .f32) (main_arg11 : FVec F S128 .f32) (main_arg12 : FVec F S128x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S50000x256 .f32) (main_arg1 : IVec S2x500000 32) (main_arg2 : FVec F S50000x256 .f32) (main_arg3 : FVec F S50000x256 .f32) (main_arg4 : FVec F S256x256 .f32) (main_arg5 : FVec F S256 .f32) (main_arg6 : FVec F S256x256 .f32) (main_arg7 : FVec F S256x256 .f32) (main_arg8 : FVec F S256 .f32) (main_arg9 : FVec F S256x256 .f32) (main_arg10 : FVec F S128x256 .f32) (main_arg11 : FVec F S128 .f32) (main_arg12 : FVec F S128x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x256 .f32 := Host.absf main_arg2
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S50000x256 .f32 := Host.absf main_arg3
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg5 main_arg6 main_arg7 main_arg8 main_arg9 main_arg10 main_arg11 main_arg12 main_v13 main_v16
-- ==== Kernel.lean ====
abbrev S50000x256 : Shape := ⟨2, ![50000, 256]⟩
abbrev S2x500000 : Shape := ⟨2, ![2, 500000]⟩
abbrev S256x256 : Shape := ⟨2, ![256, 256]⟩
abbrev S256 : Shape := ⟨1, ![256]⟩
abbrev S128x256 : Shape := ⟨2, ![128, 256]⟩
abbrev S128 : Shape := ⟨1, ![128]⟩
abbrev S1x500000 : Shape := ⟨2, ![1, 500000]⟩
abbrev S500000 : Shape := ⟨1, ![500000]⟩
abbrev S_ : Shape := ⟨0, ![]⟩
abbrev S50000 : Shape := ⟨1, ![50000]⟩
abbrev S500000x1 : Shape := ⟨2, ![500000, 1]⟩
abbrev S50000x1 : Shape := ⟨2, ![50000, 1]⟩
abbrev S1x256 : Shape := ⟨2, ![1, 256]⟩
abbrev S1x128 : Shape := ⟨2, ![1, 128]⟩
abbrev S1 : Shape := ⟨1, ![1]⟩
abbrev S1x1 : Shape := ⟨2, ![1, 1]⟩
abbrev S500000x256 : Shape := ⟨2, ![500000, 256]⟩
abbrev S1000x256 : Shape := ⟨2, ![1000, 256]⟩
abbrev S1000x1 : Shape := ⟨2, ![1000, 1]⟩
abbrev S50000x128 : Shape := ⟨2, ![50000, 128]⟩
abbrev S1000x128 : Shape := ⟨2, ![1000, 128]⟩
abbrev S256x128 : Shape := ⟨2, ![256, 128]⟩
abbrev S500000x128 : Shape := ⟨2, ![500000, 128]⟩

abbrev nBuf : Space → Nat
  | .hbm => 124
  | .vmem => 39
  | .smem => 0
  | _ => 0

abbrev bufTy : (tb : Table) → Fin (tcTables nBuf tb) → BufTy
  | .hbm, ⟨0, _⟩ => ⟨S50000x256, .f32⟩
  | .hbm, ⟨1, _⟩ => ⟨S2x500000, .i32⟩
  | .hbm, ⟨2, _⟩ => ⟨S50000x256, .f32⟩
  | .hbm, ⟨3, _⟩ => ⟨S50000x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S128x256, .f32⟩
  | .hbm, ⟨11, _⟩ => ⟨S128, .f32⟩
  | .hbm, ⟨12, _⟩ => ⟨S128x256, .f32⟩
  | .hbm, ⟨13, _⟩ => ⟨S1x500000, .i32⟩
  | .hbm, ⟨14, _⟩ => ⟨S500000, .i32⟩
  | .hbm, ⟨15, _⟩ => ⟨S1x500000, .i32⟩
  | .hbm, ⟨16, _⟩ => ⟨S500000, .i32⟩
  | .hbm, ⟨17, _⟩ => ⟨S_, .f32⟩
  | .hbm, ⟨18, _⟩ => ⟨S500000, .f32⟩
  | .hbm, ⟨19, _⟩ => ⟨S_, .f32⟩
  | .hbm, ⟨20, _⟩ => ⟨S50000, .f32⟩
  | .hbm, ⟨21, _⟩ => ⟨S500000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S256x256, .bf16⟩
  | .hbm, ⟨31, _⟩ => ⟨S256x256, .bf16⟩
  | .hbm, ⟨32, _⟩ => ⟨S256x256, .bf16⟩
  | .hbm, ⟨33, _⟩ => ⟨S256x256, .bf16⟩
  | .hbm, ⟨34, _⟩ => ⟨S128x256, .bf16⟩
  | .hbm, ⟨35, _⟩ => ⟨S128x256, .bf16⟩
  | .hbm, ⟨36, _⟩ => ⟨S1x256, .f32⟩
  | .hbm, ⟨37, _⟩ => ⟨S1x256, .f32⟩
  | .hbm, ⟨38, _⟩ => ⟨S1x128, .f32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S1, .i32⟩
  | .hbm, ⟨48, _⟩ => ⟨S_, .i32⟩
  | .hbm, ⟨49, _⟩ => ⟨S500000x1, .i32⟩
  | .hbm, ⟨50, _⟩ => ⟨S500000x1, .i1⟩
  | .hbm, ⟨51, _⟩ => ⟨S1x1, .i32⟩
  | .hbm, ⟨52, _⟩ => ⟨S500000x1, .i32⟩
  | .hbm, ⟨53, _⟩ => ⟨S500000x1, .i1⟩
  | .hbm, ⟨54, _⟩ => ⟨S500000x1, .i1⟩
  | .hbm, ⟨55, _⟩ => ⟨S_, .i1⟩
  | .hbm, ⟨56, _⟩ => ⟨S500000, .i1⟩
  | .hbm, ⟨57, _⟩ => ⟨S500000x256, .f32⟩
  | .hbm, ⟨58, _⟩ => ⟨S500000x256, .i1⟩
  | .hbm, ⟨59, _⟩ => ⟨S_, .f32⟩
  | .hbm, ⟨60, _⟩ => ⟨S500000x256, .f32⟩
  | .hbm, ⟨61, _⟩ => ⟨S500000x256, .f32⟩
  | .hbm, ⟨62, _⟩ => ⟨S_, .f32⟩
  | .hbm, ⟨63, _⟩ => ⟨S50000x256, .f32⟩
  | .hbm, ⟨64, _⟩ => ⟨S500000x1, .i32⟩
  | .hbm, ⟨65, _⟩ => ⟨S50000x256, .f32⟩
  | .hbm, ⟨66, _⟩ => ⟨S50000x256, .f32⟩
  | .hbm, ⟨67, _⟩ => ⟨S_, .i32⟩
  | .hbm, ⟨68, _⟩ => ⟨S500000, .i32⟩
  | .hbm, ⟨69, _⟩ => ⟨S500000, .i1⟩
  | .hbm, ⟨70, _⟩ => ⟨S_, .i32⟩
  | .hbm, ⟨71, _⟩ => ⟨S500000, .i32⟩
  | .hbm, ⟨72, _⟩ => ⟨S500000, .i32⟩
  | .hbm, ⟨73, _⟩ => ⟨S500000, .i32⟩
  | .hbm, ⟨74, _⟩ => ⟨S500000x1, .i32⟩
  | .hbm, ⟨75, _⟩ => ⟨S1, .i32⟩
  | .hbm, ⟨76, _⟩ => ⟨S_, .i32⟩
  | .hbm, ⟨77, _⟩ => ⟨S500000x1, .i32⟩
  | .hbm, ⟨78, _⟩ => ⟨S500000x1, .i1⟩
  | .hbm, ⟨79, _⟩ => ⟨S1x1, .i32⟩
  | .hbm, ⟨80, _⟩ => ⟨S500000x1, .i32⟩
  | .hbm, ⟨81, _⟩ => ⟨S500000x1, .i1⟩
  | .hbm, ⟨82, _⟩ => ⟨S500000x1, .i1⟩
  | .hbm, ⟨83, _⟩ => ⟨S_, .i1⟩
  | .hbm, ⟨84, _⟩ => ⟨S500000, .i1⟩
  | .hbm, ⟨85, _⟩ => ⟨S500000x256, .f32⟩
  | .hbm, ⟨86, _⟩ => ⟨S500000x256, .i1⟩
  | .hbm, ⟨87, _⟩ => ⟨S_, .f32⟩
  | .hbm, ⟨88, _⟩ => ⟨S500000x256, .f32⟩
  | .hbm, ⟨89, _⟩ => ⟨S500000x256, .f32⟩
  | .hbm, ⟨90, _⟩ => ⟨S_, .f32⟩
  | .hbm, ⟨91, _⟩ => ⟨S50000x256, .f32⟩
  | .hbm, ⟨92, _⟩ => ⟨S500000x1, .i32⟩
  | .hbm, ⟨93, _⟩ => ⟨S50000x256, .f32⟩
  | .hbm, ⟨94, _⟩ => ⟨S50000x128, .f32⟩
  | .hbm, ⟨95, _⟩ => ⟨S50000x128, .f32⟩
  | .hbm, ⟨96, _⟩ => ⟨S_, .i32⟩
  | .hbm, ⟨97, _⟩ => ⟨S500000, .i32⟩
  | .hbm, ⟨98, _⟩ => ⟨S500000, .i1⟩
  | .hbm, ⟨99, _⟩ => ⟨S_, .i32⟩
  | .hbm, ⟨100, _⟩ => ⟨S500000, .i32⟩
  | .hbm, ⟨101, _⟩ => ⟨S500000, .i32⟩
  | .hbm, ⟨102, _⟩ => ⟨S500000, .i32⟩
  | .hbm, ⟨103, _⟩ => ⟨S500000x1, .i32⟩
  | .hbm, ⟨104, _⟩ => ⟨S1, .i32⟩
  | .hbm, ⟨105, _⟩ => ⟨S_, .i32⟩
  | .hbm, ⟨106, _⟩ => ⟨S500000x1, .i32⟩
  | .hbm, ⟨107, _⟩ => ⟨S500000x1, .i1⟩
  | .hbm, ⟨108, _⟩ => ⟨S1x1, .i32⟩
  | .hbm, ⟨109, _⟩ => ⟨S500000x1, .i32⟩
  | .hbm, ⟨110, _⟩ => ⟨S500000x1, .i1⟩
  | .hbm, ⟨111, _⟩ => ⟨S500000x1, .i1⟩
  | .hbm, ⟨112, _⟩ => ⟨S_, .i1⟩
  | .hbm, ⟨113, _⟩ => ⟨S500000, .i1⟩
  | .hbm, ⟨114, _⟩ => ⟨S500000x128, .f32⟩
  | .hbm, ⟨115, _⟩ => ⟨S500000x128, .i1⟩
  | .hbm, ⟨116, _⟩ => ⟨S_, .f32⟩
  | .hbm, ⟨117, _⟩ => ⟨S500000x128, .f32⟩
  | .hbm, ⟨118, _⟩ => ⟨S500000x128, .f32⟩
  | .hbm, ⟨119, _⟩ => ⟨S_, .f32⟩
  | .hbm, ⟨120, _⟩ => ⟨S50000x128, .f32⟩
  | .hbm, ⟨121, _⟩ => ⟨S500000x1, .i32⟩
  | .hbm, ⟨122, _⟩ => ⟨S50000x128, .f32⟩
  | .hbm, ⟨123, _⟩ => ⟨S50000x128, .f32⟩
  | .local _ .vmem, ⟨0, _⟩ => ⟨S1000x256, .f32⟩
  | .local _ .vmem, ⟨1, _⟩ => ⟨S1000x256, .f32⟩
  | .local _ .vmem, ⟨2, _⟩ => ⟨S1000x1, .f32⟩
  | .local _ .vmem, ⟨3, _⟩ => ⟨S1000x1, .f32⟩
  | .local _ .vmem, ⟨4, _⟩ => ⟨S1000x256, .f32⟩
  | .local _ .vmem, ⟨5, _⟩ => ⟨S1000x256, .f32⟩
  | .local _ .vmem, ⟨6, _⟩ => ⟨S256x256, .bf16⟩
  | .local _ .vmem, ⟨7, _⟩ => ⟨S1x256, .f32⟩
  | .local _ .vmem, ⟨8, _⟩ => ⟨S256x256, .bf16⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S1000x256, .f32⟩
  | .local _ .vmem, ⟨14, _⟩ => ⟨S1000x256, .f32⟩
  | .local _ .vmem, ⟨15, _⟩ => ⟨S1000x1, .f32⟩
  | .local _ .vmem, ⟨16, _⟩ => ⟨S1000x1, .f32⟩
  | .local _ .vmem, ⟨17, _⟩ => ⟨S1000x256, .f32⟩
  | .local _ .vmem, ⟨18, _⟩ => ⟨S1000x256, .f32⟩
  | .local _ .vmem, ⟨19, _⟩ => ⟨S256x256, .bf16⟩
  | .local _ .vmem, ⟨20, _⟩ => ⟨S1x256, .f32⟩
  | .local _ .vmem, ⟨21, _⟩ => ⟨S256x256, .bf16⟩
  | .local _ .vmem, ⟨22, _⟩ => ⟨S1000x256, .f32⟩
  | .local _ .vmem, ⟨23, _⟩ => ⟨S1000x256, .f32⟩
  | .local _ .vmem, ⟨24, _⟩ => ⟨S128x256, .bf16⟩
  | .local _ .vmem, ⟨25, _⟩ => ⟨S128x256, .bf16⟩
  | .local _ .vmem, ⟨26, _⟩ => ⟨S1000x128, .f32⟩
  | .local _ .vmem, ⟨27, _⟩ => ⟨S1000x128, .f32⟩
  | .local _ .vmem, ⟨28, _⟩ => ⟨S1000x128, .f32⟩
  | .local _ .vmem, ⟨29, _⟩ => ⟨S1000x128, .f32⟩
  | .local _ .vmem, ⟨30, _⟩ => ⟨S1000x128, .f32⟩
  | .local _ .vmem, ⟨31, _⟩ => ⟨S1000x128, .f32⟩
  | .local _ .vmem, ⟨32, _⟩ => ⟨S1000x1, .f32⟩
  | .local _ .vmem, ⟨33, _⟩ => ⟨S1000x1, .f32⟩
  | .local _ .vmem, ⟨34, _⟩ => ⟨S1000x128, .f32⟩
  | .local _ .vmem, ⟨35, _⟩ => ⟨S1000x128, .f32⟩
  | .local _ .vmem, ⟨36, _⟩ => ⟨S1x128, .f32⟩
  | .local _ .vmem, ⟨37, _⟩ => ⟨S1000x128, .f32⟩
  | .local _ .vmem, ⟨38, _⟩ => ⟨S1000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call0_c : Ref sig .tc := ⟨.hbm, 39, rfl⟩
abbrev main_call0_v0 : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_c_1 : Ref sig .tc := ⟨.hbm, 47, rfl⟩
abbrev main_call0_c_2 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_3 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_cst : Ref sig .tc := ⟨.hbm, 59, rfl⟩
abbrev main_call0_v15 : Ref sig .tc := ⟨.hbm, 60, rfl⟩
abbrev main_v22 : Ref sig .tc := ⟨.hbm, 61, rfl⟩
abbrev main_cst_3 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_call1_c : Ref sig .tc := ⟨.hbm, 67, rfl⟩
abbrev main_call1_v0 : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_c_1 : Ref sig .tc := ⟨.hbm, 75, rfl⟩
abbrev main_call1_c_2 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_c_3 : Ref sig .tc := ⟨.hbm, 83, rfl⟩
abbrev main_call1_v12 : Ref sig .tc := ⟨.hbm, 84, rfl⟩
abbrev main_call1_v13 : Ref sig .tc := ⟨.hbm, 85, rfl⟩
abbrev main_call1_v14 : Ref sig .tc := ⟨.hbm, 86, rfl⟩
abbrev main_call1_cst : Ref sig .tc := ⟨.hbm, 87, rfl⟩
abbrev main_call1_v15 : Ref sig .tc := ⟨.hbm, 88, rfl⟩
abbrev main_v27 : Ref sig .tc := ⟨.hbm, 89, rfl⟩
abbrev main_cst_4 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31_0 : Ref sig .tc := ⟨.hbm, 94, rfl⟩
abbrev main_v31_1 : Ref sig .tc := ⟨.hbm, 95, rfl⟩
abbrev main_call2_c : Ref sig .tc := ⟨.hbm, 96, rfl⟩
abbrev main_call2_v0 : Ref sig .tc := ⟨.hbm, 97, rfl⟩
abbrev main_call2_v1 : Ref sig .tc := ⟨.hbm, 98, rfl⟩
abbrev main_call2_c_0 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_c_1 : Ref sig .tc := ⟨.hbm, 104, rfl⟩
abbrev main_call2_c_2 : Ref sig .tc := ⟨.hbm, 105, rfl⟩
abbrev main_call2_v6 : Ref sig .tc := ⟨.hbm, 106, rfl⟩
abbrev main_call2_v7 : Ref sig .tc := ⟨.hbm, 107, rfl⟩
abbrev main_call2_v8 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_c_3 : Ref sig .tc := ⟨.hbm, 112, rfl⟩
abbrev main_call2_v12 : Ref sig .tc := ⟨.hbm, 113, rfl⟩
abbrev main_call2_v13 : Ref sig .tc := ⟨.hbm, 114, rfl⟩
abbrev main_call2_v14 : Ref sig .tc := ⟨.hbm, 115, rfl⟩
abbrev main_call2_cst : Ref sig .tc := ⟨.hbm, 116, rfl⟩
abbrev main_call2_v15 : Ref sig .tc := ⟨.hbm, 117, rfl⟩
abbrev main_v32 : Ref sig .tc := ⟨.hbm, 118, rfl⟩
abbrev main_cst_5 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev main_v36 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg4_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem8_0 : DmaSem sig := 25
abbrev cc1_sem9_0 : DmaSem sig := 26
abbrev cc1_sem9_1 : DmaSem sig := 27
abbrev cc1_sem10_0 : DmaSem sig := 28
abbrev cc1_sem10_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem4_0 : DmaSem sig := 37
abbrev cc2_sem4_1 : DmaSem sig := 38

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S128x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x256 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  shapeCasts_S50000_S50000x1 : S50000.ShapeCasts S50000x1
  bitsLt_bf16_f32 : FTy.bits .bf16 < FTy.bits .f32
  shapeCasts_S256_S1x256 : S256.ShapeCasts S1x256
  shapeCasts_S128_S1x128 : S128.ShapeCasts S1x128
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x256_0 : S500000.BroadcastsInDim S500000x256 (![0] : Fin 1 → Fin S500000x256.rank)
  bcast_S_S500000x256 : S_.BroadcastsInDim S500000x256 (![] : Fin 0 → Fin S500000x256.rank)
  bcast_S_S50000x256 : S_.BroadcastsInDim S50000x256 (![] : Fin 0 → Fin S50000x256.rank)
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x256 : S1000x1.Broadcasts S1000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  transposes_S256x256_p1_0_S256x256 : S256x256.Transposes [1, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  natLt_1_32 : 1 < 32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  transposes_S128x256_p1_0_S256x128 : S128x256.Transposes [1, 0] S256x128
  inb_S1000x128_S1000x128_0_0 : ∀ a, (![0, 0] : Fin 2 → Nat) a + S1000x128.size a ≤ S1000x128.size a
  h_S1000x128 : 0 < S1000x128.numel
  bcast_S500000_S500000x128_0 : S500000.BroadcastsInDim S500000x128 (![0] : Fin 1 → Fin S500000x128.rank)
  bcast_S_S500000x128 : S_.BroadcastsInDim S500000x128 (![] : Fin 0 → Fin S500000x128.rank)
  bcast_S_S50000x128 : S_.BroadcastsInDim S50000x128 (![] : Fin 0 → Fin S50000x128.rank)
  shapeCasts_S1000x128_S1000x128 : S1000x128.ShapeCasts S1000x128
  broadcasts_S1000x1_S1000x128 : S1000x1.Broadcasts S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  scatter_S50000_S500000x1_S500000_n_0_0_1_wf : ScatterDims.WF S50000 S500000x1 S500000 [] [0] [0] 1
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  dot_S1000x256_S256x256_S1000x256_1_0_0_1_n_n_wf : DotDims.WF S1000x256 S256x256 S1000x256 [1] [0] [0] [1] [] []
  dot_S1000x256_S256x128_S1000x128_1_0_0_1_n_n_wf : DotDims.WF S1000x256 S256x128 S1000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S50000x1.size a
  hwx0_1 : ∀ i : grid0.Coords, EltTy.bits .f32 = 32 ∨ (Rect.block (s := S50000x1) S1000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S50000x256.size a
  hwx0_2 : ∀ i : grid0.Coords, EltTy.bits .f32 = 32 ∨ (Rect.block (s := S50000x256) S1000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x256.size a ≤ S50000x256.size a
  hwx0_6 : ∀ i : grid0.Coords, EltTy.bits .f32 = 32 ∨ (Rect.block (s := S50000x256) S1000x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x256.size a ≤ S50000x256.size a
  hwx0_7 : ∀ i : grid0.Coords, EltTy.bits .f32 = 32 ∨ (Rect.block (s := S50000x256) S1000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S50000x1.size a
  hwx1_1 : ∀ i : grid1.Coords, EltTy.bits .f32 = 32 ∨ (Rect.block (s := S50000x1) S1000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S50000x256.size a
  hwx1_2 : ∀ i : grid1.Coords, EltTy.bits .f32 = 32 ∨ (Rect.block (s := S50000x256) S1000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x256.size a ≤ S50000x256.size a
  hwx1_6 : ∀ i : grid1.Coords, EltTy.bits .f32 = 32 ∨ (Rect.block (s := S50000x256) S1000x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x256.size a ≤ S128x256.size a
  hwx1_7 : ∀ i : grid1.Coords, EltTy.bits .bf16 = 32 ∨ (Rect.block (s := S128x256) S128x256.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x256.size a ≤ S128x256.size a
  hwx1_8 : ∀ i : grid1.Coords, EltTy.bits .bf16 = 32 ∨ (Rect.block (s := S128x256) S128x256.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1000x128.size a ≤ S50000x128.size a
  hwx1_9 : ∀ i : grid1.Coords, EltTy.bits .f32 = 32 ∨ (Rect.block (s := S50000x128) S1000x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1000x128.size a ≤ S50000x128.size a
  hwx1_10 : ∀ i : grid1.Coords, EltTy.bits .f32 = 32 ∨ (Rect.block (s := S50000x128) S1000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S50000x1.size a
  hwx2_1 : ∀ i : grid2.Coords, EltTy.bits .f32 = 32 ∨ (Rect.block (s := S50000x1) S1000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S50000x128.size a
  hwx2_2 : ∀ i : grid2.Coords, EltTy.bits .f32 = 32 ∨ (Rect.block (s := S50000x128) S1000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x128.size a ≤ S50000x128.size a
  hwx2_4 : ∀ i : grid2.Coords, EltTy.bits .f32 = 32 ∨ (Rect.block (s := S50000x128) S1000x128.size (cc2_transform_4 i) (hinb2_4 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

abbrev win0_0 : Pipeline.Window sig grid0 :=
  Pipeline.Window.ofSpec (Memref.whole main_v25) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S1000x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v30) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg3) S1000x256.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v17) S128x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v18) S128x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v31_0) S1000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v31_1) S1000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v35) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31_1) S1000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S1000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x500000 : Shape := ⟨2, ![2, 500000]⟩
abbrev S256x256 : Shape := ⟨2, ![256, 256]⟩
abbrev S256 : Shape := ⟨1, ![256]⟩
abbrev S128x256 : Shape := ⟨2, ![128, 256]⟩
abbrev S128 : Shape := ⟨1, ![128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x256 : Shape := ⟨2, ![500000, 256]⟩
abbrev S50000 : Shape := ⟨1, ![50000]⟩
abbrev S50000x1 : Shape := ⟨2, ![50000, 1]⟩
abbrev S1x256 : Shape := ⟨2, ![1, 256]⟩
abbrev S256x128 : Shape := ⟨2, ![256, 128]⟩
abbrev S50000x128 : Shape := ⟨2, ![50000, 128]⟩
abbrev S1x128 : Shape := ⟨2, ![1, 128]⟩

abbrev nBuf : Space → Nat
  | .hbm => 135
  | .vmem => 0
  | .smem => 0
  | _ => 0

abbrev hbmTy0_0 (i : Nat) : BufTy := match i % 128 with
  | 0 => ⟨S50000x256, .f32⟩
  | 1 => ⟨S2x500000, .i32⟩
  | 2 => ⟨S50000x256, .f32⟩
  | 3 => ⟨S50000x256, .f32⟩
  | 4 => ⟨S256x256, .f32⟩
  | 5 => ⟨S256, .f32⟩
  | 6 => ⟨S256x256, .f32⟩
  | 7 => ⟨S256x256, .f32⟩
  | 8 => ⟨S256, .f32⟩
  | 9 => ⟨S256x256, .f32⟩
  | 10 => ⟨S128x256, .f32⟩
  | 11 => ⟨S128, .f32⟩
  | 12 => ⟨S128x256, .f32⟩
  | 13 => ⟨S1x500000, .i32⟩
  | 14 => ⟨S500000, .i32⟩
  | 15 => ⟨S1x500000, .i32⟩
  | 16 => ⟨S500000, .i32⟩
  | 17 => ⟨S_, .i32⟩
  | 18 => ⟨S500000, .i32⟩
  | 19 => ⟨S500000, .i1⟩
  | 20 => ⟨S_, .i32⟩
  | 21 => ⟨S500000, .i32⟩
  | 22 => ⟨S500000, .i32⟩
  | 23 => ⟨S500000, .i32⟩
  | 24 => ⟨S500000x1, .i32⟩
  | 25 => ⟨S500000x256, .f32⟩
  | 26 => ⟨S_, .f32⟩
  | 27 => ⟨S50000x256, .f32⟩
  | 28 => ⟨S500000x1, .i32⟩
  | 29 => ⟨S50000x256, .f32⟩
  | 30 => ⟨S_, .f32⟩
  | 31 => ⟨S500000, .f32⟩
  | 32 => ⟨S_, .f32⟩
  | 33 => ⟨S50000, .f32⟩
  | 34 => ⟨S500000x1, .i32⟩
  | 35 => ⟨S50000, .f32⟩
  | 36 => ⟨S_, .f32⟩
  | 37 => ⟨S50000, .f32⟩
  | 38 => ⟨S50000, .f32⟩
  | 39 => ⟨S50000x1, .f32⟩
  | 40 => ⟨S50000x256, .f32⟩
  | 41 => ⟨S50000x256, .f32⟩
  | 42 => ⟨S256x256, .f32⟩
  | 43 => ⟨S50000x256, .f32⟩
  | 44 => ⟨S1x256, .f32⟩
  | 45 => ⟨S50000x256, .f32⟩
  | 46 => ⟨S50000x256, .f32⟩
  | 47 => ⟨S256x256, .f32⟩
  | 48 => ⟨S50000x256, .f32⟩
  | 49 => ⟨S50000x256, .f32⟩
  | 50 => ⟨S50000x256, .f32⟩
  | 51 => ⟨S_, .f32⟩
  | 52 => ⟨S50000x256, .f32⟩
  | 53 => ⟨S50000x256, .i1⟩
  | 54 => ⟨S50000x256, .f32⟩
  | 55 => ⟨S50000x256, .f32⟩
  | 56 => ⟨S_, .f32⟩
  | 57 => ⟨S50000x256, .f32⟩
  | 58 => ⟨S50000x256, .f32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S500000x1, .i32⟩
  | 67 => ⟨S500000x256, .f32⟩
  | 68 => ⟨S_, .f32⟩
  | 69 => ⟨S50000x256, .f32⟩
  | 70 => ⟨S500000x1, .i32⟩
  | 71 => ⟨S50000x256, .f32⟩
  | 72 => ⟨S_, .f32⟩
  | 73 => ⟨S500000, .f32⟩
  | 74 => ⟨S_, .f32⟩
  | 75 => ⟨S50000, .f32⟩
  | 76 => ⟨S500000x1, .i32⟩
  | 77 => ⟨S50000, .f32⟩
  | 78 => ⟨S_, .f32⟩
  | 79 => ⟨S50000, .f32⟩
  | 80 => ⟨S50000, .f32⟩
  | 81 => ⟨S50000x1, .f32⟩
  | 82 => ⟨S50000x256, .f32⟩
  | 83 => ⟨S50000x256, .f32⟩
  | 84 => ⟨S256x256, .f32⟩
  | 85 => ⟨S50000x256, .f32⟩
  | 86 => ⟨S1x256, .f32⟩
  | 87 => ⟨S50000x256, .f32⟩
  | 88 => ⟨S50000x256, .f32⟩
  | 89 => ⟨S256x256, .f32⟩
  | 90 => ⟨S50000x256, .f32⟩
  | 91 => ⟨S50000x256, .f32⟩
  | 92 => ⟨S50000x256, .f32⟩
  | 93 => ⟨S_, .f32⟩
  | 94 => ⟨S50000x256, .f32⟩
  | 95 => ⟨S50000x256, .i1⟩
  | 96 => ⟨S50000x256, .f32⟩
  | 97 => ⟨S50000x256, .f32⟩
  | 98 => ⟨S_, .f32⟩
  | 99 => ⟨S50000x256, .f32⟩
  | 100 => ⟨S50000x256, .f32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000x256, .f32⟩
  | 110 => ⟨S_, .f32⟩
  | 111 => ⟨S50000x256, .f32⟩
  | 112 => ⟨S500000x1, .i32⟩
  | 113 => ⟨S50000x256, .f32⟩
  | 114 => ⟨S_, .f32⟩
  | 115 => ⟨S500000, .f32⟩
  | 116 => ⟨S_, .f32⟩
  | 117 => ⟨S50000, .f32⟩
  | 118 => ⟨S500000x1, .i32⟩
  | 119 => ⟨S50000, .f32⟩
  | 120 => ⟨S_, .f32⟩
  | 121 => ⟨S50000, .f32⟩
  | 122 => ⟨S50000, .f32⟩
  | 123 => ⟨S50000x1, .f32⟩
  | 124 => ⟨S50000x256, .f32⟩
  | 125 => ⟨S50000x256, .f32⟩
  | 126 => ⟨S256x128, .f32⟩
  | 127 => ⟨S50000x128, .f32⟩
  | _ => ⟨S50000x256, .f32⟩

abbrev hbmTy0_1 (i : Nat) : BufTy := match i % 128 with
  | 0 => ⟨S1x128, .f32⟩
  | 1 => ⟨S50000x128, .f32⟩
  | 2 => ⟨S50000x128, .f32⟩
  | 3 => ⟨S256x128, .f32⟩
  | 4 => ⟨S50000x128, .f32⟩
  | 5 => ⟨S50000x128, .f32⟩
  | 6 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_c_6 : Ref sig .tc := ⟨.hbm, 59, rfl⟩
abbrev main_v38 : Ref sig .tc := ⟨.hbm, 60, rfl⟩
abbrev main_v39 : Ref sig .tc := ⟨.hbm, 61, rfl⟩
abbrev main_c_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_13 : Ref sig .tc := ⟨.hbm, 98, rfl⟩
abbrev main_v70 : Ref sig .tc := ⟨.hbm, 99, rfl⟩
abbrev main_v71 : Ref sig .tc := ⟨.hbm, 100, rfl⟩
abbrev main_c_14 : Ref sig .tc := ⟨.hbm, 101, rfl⟩
abbrev main_v72 : Ref sig .tc := ⟨.hbm, 102, rfl⟩
abbrev main_v73 : Ref sig .tc := ⟨.hbm, 103, rfl⟩
abbrev main_c_15 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_cst_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_19 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  scatter_S50000_S500000x1_S500000_n_0_0_1_wf : ScatterDims.WF S50000 S500000x1 S500000 [] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KDefs.lean ====
/-
  The host-side terms of the kernel program, named: the edge columns, the in-range mask of a row take, the masked row take, the neighbour sum, the in-degree and its stored reciprocal. Each is the printed operations' composite, a function of the edge list (and a feature table).
-/
import proofs.«419730_j49735721288419_2_alg».proof.Proof.Gen.KernelIdeal

set_option maxRecDepth 16384

noncomputable section

open scoped BigOperators

namespace Cert.KernelIdeal.KDefs

open Idealize.ShloMosaic Idealize.ShloMosaic.TcCoe
open Cert.KernelIdeal Cert.KernelIdeal.Facts₀ Cert.KernelIdeal.Facts

variable (EI : IVec S2x500000 32)

/-- The source words (row 0 of the edge list) and the destination words (row 1). -/
def srcWord : IVec S500000 32 := shapeCast _ (extractStridedSlice S1x500000 ![0, 0] EI slices_S2x500000_S1x500000_0_0) shapeCasts_S1x500000_S500000
def dstWord : IVec S500000 32 := shapeCast _ (extractStridedSlice S1x500000 ![1, 0] EI slices_S2x500000_S1x500000_1_0) shapeCasts_S1x500000_S500000

/-- The destination words as the column a scatter is handed. -/
def dstCol : IVec S500000x1 32 := broadcastInDim S500000x1 ![0] bcast_S500000_S500000x1_0 (dstWord EI)

/-- The source words with a negative word wrapped once by the number of nodes, as the column a gather is handed. -/
def srcWrapped : IVec S500000 32 :=
  select (cmpi .slt (srcWord EI) (broadcastInDim S500000 ![] bcast_S_S500000 (constantI S_ 32 0#32)))
    (addi (srcWord EI) (broadcastInDim S500000 ![] bcast_S_S500000 (constantI S_ 32 50000#32))) (srcWord EI)
def srcCol : IVec S500000x1 32 := broadcastInDim S500000x1 ![0] bcast_S500000_S500000x1_0 (srcWrapped EI)

/-- Per edge: is the wrapped source word a row of the table, 0 ≤ word ≤ 49999 (signed)? -/
def inRange : IVec S500000 1 :=
  Host.reduce IntOp.andi
    (andi (cmpi .sge (srcCol EI) (broadcastInDim S500000x1 ![] bcast_S_S500000x1 (constantI S_ 32 0#32)))
      (cmpi .sle (srcCol EI) (broadcastInDim S500000x1 ![0, 1] bcast_S1x1_S500000x1_0_1
        (broadcastInDim S1x1 ![1] bcast_S1_S1x1_1 (constantI S1 32 49999#32)))))
    (constantI S_ 1 1#1) reducesTo_S500000x1_S500000_d1 h_S_

/-- The masked row take of a 256-column table: the gathered row where the word is in range, the junk pattern
    elsewhere. -/
def take256 (feat : FVec Ideal S50000x256 .f32) : FVec Ideal S500000x256 .f32 :=
  select (broadcastInDim S500000x256 ![0] bcast_S500000_S500000x256_0 (inRange EI))
    (Host.gather gather_S50000x256_S500000x1_S500000x256_1_0_n_n_0_1_1256 feat (srcCol EI))
    (broadcastInDim S500000x256 ![] bcast_S_S500000x256 (constant S_ .f32 0x7FC00000#32))
def take128 (feat : FVec Ideal S50000x128 .f32) : FVec Ideal S500000x128 .f32 :=
  select (broadcastInDim S500000x128 ![0] bcast_S500000_S500000x128_0 (inRange EI))
    (Host.gather gather_S50000x128_S500000x1_S500000x128_1_0_n_n_0_1_1128 feat (srcCol EI))
    (broadcastInDim S500000x128 ![] bcast_S_S500000x128 (constant S_ .f32 0x7FC00000#32))

/-- The neighbour sum: the taken rows added at their destination rows, into zeros. -/
def agg256 (feat : FVec Ideal S50000x256 .f32) : FVec Ideal S50000x256 .f32 :=
  Host.scatterAdd scatter_S50000x256_S500000x1_S500000x256_1_0_0_1
    (broadcastInDim S50000x256 ![] bcast_S_S50000x256 (constant S_ .f32 0x00000000#32)) (dstCol EI) (take256 EI feat)
def agg128 (feat : FVec Ideal S50000x128 .f32) : FVec Ideal S50000x128 .f32 :=
  Host.scatterAdd scatter_S50000x128_S500000x1_S500000x128_1_0_0_1
    (broadcastInDim S50000x128 ![] bcast_S_S50000x128 (constant S_ .f32 0x00000000#32)) (dstCol EI) (take128 EI feat)

/-- The in-degree (a one added per edge at its destination), clamped below at one, and its reciprocal stored as a
    column. -/
def degree : FVec Ideal S50000 .f32 :=
  maximumf
    (Host.scatterAdd scatter_S50000_S500000x1_S500000_n_0_0_1
      (broadcastInDim S50000 ![] bcast_S_S50000 (constant S_ .f32 0x00000000#32)) (dstCol EI)
      (broadcastInDim S500000 ![] bcast_S_S500000 (constant S_ .f32 0x3F800000#32)))
    (broadcastInDim S50000 ![] bcast_S_S50000 (constant S_ .f32 0x3F800000#32))
def invDegree : FVec Ideal S50000x1 .f32 :=
  shapeCast _ (Host.divf (broadcastInDim S50000 ![] bcast_S_S50000 (constant S_ .f32 0x3F800000#32)) (degree EI)) shapeCasts_S50000_S50000x1

end Cert.KernelIdeal.KDefs

end
-- ==== Proof.Entry.lean ====
/-
  The arrays each of the three regions finds when it is entered, traced back through the host stretches and the earlier regions' write-backs to the program's arguments.
-/
import proofs.«419730_j49735721288419_2_alg».proof.Proof.Gen.KernelIdeal.Frame
import proofs.«419730_j49735721288419_2_alg».proof.Proof.KDefs
import Idealize.ShloMosaic.Lib.StableHlo.Run

set_option maxRecDepth 16384

noncomputable section

open scoped BigOperators

namespace Cert.KernelIdeal.Entry

open Idealize.ShloMosaic Idealize.ShloMosaic.TcCoe Idealize.SL.Sem
open Cert.KernelIdeal Cert.KernelIdeal.Gen Cert.KernelIdeal.Facts₀ Cert.KernelIdeal.Facts

variable (m : (ℓ : Loc nD τ sig) → Buf (Elt Ideal) ℓ) (ρ : Dev nD → PrngReg)

/-- The program's arguments, each at its literal type. -/
abbrev aX (c : Dev nD) : FVec Ideal S50000x256 .f32 := m ((c.tc : Thread nD τ).loc main_arg0)
abbrev aEI (c : Dev nD) : IVec S2x500000 32 := m ((c.tc : Thread nD τ).loc main_arg1)
abbrev aM1 (c : Dev nD) : FVec Ideal S50000x256 .f32 := m ((c.tc : Thread nD τ).loc main_arg2)
abbrev aM2 (c : Dev nD) : FVec Ideal S50000x256 .f32 := m ((c.tc : Thread nD τ).loc main_arg3)
abbrev aW1l (c : Dev nD) : FVec Ideal S256x256 .f32 := m ((c.tc : Thread nD τ).loc main_arg4)
abbrev aB1 (c : Dev nD) : FVec Ideal S256 .f32 := m ((c.tc : Thread nD τ).loc main_arg5)
abbrev aW1r (c : Dev nD) : FVec Ideal S256x256 .f32 := m ((c.tc : Thread nD τ).loc main_arg6)
abbrev aW2l (c : Dev nD) : FVec Ideal S256x256 .f32 := m ((c.tc : Thread nD τ).loc main_arg7)
abbrev aB2 (c : Dev nD) : FVec Ideal S256 .f32 := m ((c.tc : Thread nD τ).loc main_arg8)
abbrev aW2r (c : Dev nD) : FVec Ideal S256x256 .f32 := m ((c.tc : Thread nD τ).loc main_arg9)
abbrev aW3l (c : Dev nD) : FVec Ideal S128x256 .f32 := m ((c.tc : Thread nD τ).loc main_arg10)
abbrev aB3 (c : Dev nD) : FVec Ideal S128 .f32 := m ((c.tc : Thread nD τ).loc main_arg11)
abbrev aW3r (c : Dev nD) : FVec Ideal S128x256 .f32 := m ((c.tc : Thread nD τ).loc main_arg12)

/-- What the first two regions' write-backs leave: the first layer's rows, and the two projected tables. -/
abbrev rows1 (c : Dev nD) : FVec Ideal S50000x256 .f32 := (dat0 (F := Ideal) (V3 m ρ) c).arrAt 7 cfg0.N
abbrev projL (c : Dev nD) : FVec Ideal S50000x128 .f32 := (dat1 (F := Ideal) (V6 m ρ) c).arrAt 9 cfg1.N
abbrev projR (c : Dev nD) : FVec Ideal S50000x128 .f32 := (dat1 (F := Ideal) (V6 m ρ) c).arrAt 10 cfg1.N

/-- The references written by the first host stretch (edge columns, degree, weight converts, bias reshapes). -/
def wr0 : List (Ref sig .tc) :=
  [main_v0, main_v1, main_v2, main_v3, main_cst, main_v4, main_cst_0, main_v5, main_v6, main_v7, main_cst_1, main_v8, main_v9,
   main_cst_2, main_v10, main_v11, main_v12, main_v13, main_v14, main_v15, main_v16, main_v17, main_v18, main_v19, main_v20, main_v21]
theorem hostOps0_wr : (hostOps0 (F := Ideal)).Forall fun op => op.writes ⊆ (wr0.map (Proc.devRef (τ := τ) .tc)).toFinset := by
  simp only [hostOps0, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset, List.mem_map]
  repeat' apply And.intro
  all_goals exact ⟨_, by decide, rfl⟩
/-- A reference outside that list holds after the stretch what it held before. -/
theorem W1_keep (c : Dev nD) (b : Ref sig .tc) (hb : b ∉ wr0) :
    W1 (F := Ideal) m ρ c (Proc.devRef .tc b) = W0 m ρ c (Proc.devRef .tc b) :=
  StableHlo.after_of_writes_sub _ _ hostOps0_wr hb

/-- The references written by the first row take. -/
def wr0_1 : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v22]
theorem hostOps0_1_wr : (hostOps0_1 (F := Ideal)).Forall fun op => op.writes ⊆ (wr0_1.map (Proc.devRef (τ := τ) .tc)).toFinset := by
  simp only [hostOps0_1, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset, List.mem_map]
  repeat' apply And.intro
  all_goals exact ⟨_, by decide, rfl⟩
/-- A reference outside that list holds after the stretch what it held before. -/
theorem W2_keep (c : Dev nD) (b : Ref sig .tc) (hb : b ∉ wr0_1) :
    W2 (F := Ideal) m ρ c (Proc.devRef .tc b) = W1 m ρ c (Proc.devRef .tc b) :=
  StableHlo.after_of_writes_sub _ _ hostOps0_1_wr hb

/-- The references written by the first scatter-add. -/
def wr0_2 : List (Ref sig .tc) :=
  [main_cst_3, main_v23, main_v24, main_v25]
theorem hostOps0_2_wr : (hostOps0_2 (F := Ideal)).Forall fun op => op.writes ⊆ (wr0_2.map (Proc.devRef (τ := τ) .tc)).toFinset := by
  simp only [hostOps0_2, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset, List.mem_map]
  repeat' apply And.intro
  all_goals exact ⟨_, by decide, rfl⟩
/-- A reference outside that list holds after the stretch what it held before. -/
theorem W3_keep (c : Dev nD) (b : Ref sig .tc) (hb : b ∉ wr0_2) :
    W3 (F := Ideal) m ρ c (Proc.devRef .tc b) = W2 m ρ c (Proc.devRef .tc b) :=
  StableHlo.after_of_writes_sub _ _ hostOps0_2_wr hb

/-- The references written by the second row take. -/
def wr1 : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_v14, main_call1_cst, main_call1_v15, main_v27]
theorem hostOps1_wr : (hostOps1 (F := Ideal)).Forall fun op => op.writes ⊆ (wr1.map (Proc.devRef (τ := τ) .tc)).toFinset := by
  simp only [hostOps1, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset, List.mem_map]
  repeat' apply And.intro
  all_goals exact ⟨_, by decide, rfl⟩
/-- A reference outside that list holds after the stretch what it held before. -/
theorem W5_keep (c : Dev nD) (b : Ref sig .tc) (hb : b ∉ wr1) :
    W5 (F := Ideal) m ρ c (Proc.devRef .tc b) = W4 m ρ c (Proc.devRef .tc b) :=
  StableHlo.after_of_writes_sub _ _ hostOps1_wr hb

/-- The references written by the second scatter-add. -/
def wr1_1 : List (Ref sig .tc) :=
  [main_cst_4, main_v28, main_v29, main_v30]
theorem hostOps1_1_wr : (hostOps1_1 (F := Ideal)).Forall fun op => op.writes ⊆ (wr1_1.map (Proc.devRef (τ := τ) .tc)).toFinset := by
  simp only [hostOps1_1, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset, List.mem_map]
  repeat' apply And.intro
  all_goals exact ⟨_, by decide, rfl⟩
/-- A reference outside that list holds after the stretch what it held before. -/
theorem W6_keep (c : Dev nD) (b : Ref sig .tc) (hb : b ∉ wr1_1) :
    W6 (F := Ideal) m ρ c (Proc.devRef .tc b) = W5 m ρ c (Proc.devRef .tc b) :=
  StableHlo.after_of_writes_sub _ _ hostOps1_1_wr hb

/-- The references written by the third row take. -/
def wr2 : List (Ref sig .tc) :=
  [main_call2_c, main_call2_v0, main_call2_v1, main_call2_c_0, main_call2_v2, main_call2_v3, main_call2_v4, main_call2_v5,
   main_call2_c_1, main_call2_c_2, main_call2_v6, main_call2_v7, main_call2_v8, main_call2_v9, main_call2_v10, main_call2_v11,
   main_call2_c_3, main_call2_v12, main_call2_v13, main_call2_v14, main_call2_cst, main_call2_v15, main_v32]
theorem hostOps2_wr : (hostOps2 (F := Ideal)).Forall fun op => op.writes ⊆ (wr2.map (Proc.devRef (τ := τ) .tc)).toFinset := by
  simp only [hostOps2, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset, List.mem_map]
  repeat' apply And.intro
  all_goals exact ⟨_, by decide, rfl⟩
/-- A reference outside that list holds after the stretch what it held before. -/
theorem W8_keep (c : Dev nD) (b : Ref sig .tc) (hb : b ∉ wr2) :
    W8 (F := Ideal) m ρ c (Proc.devRef .tc b) = W7 m ρ c (Proc.devRef .tc b) :=
  StableHlo.after_of_writes_sub _ _ hostOps2_wr hb

/-- The references written by the third scatter-add. -/
def wr2_1 : List (Ref sig .tc) :=
  [main_cst_5, main_v33, main_v34, main_v35]
theorem hostOps2_1_wr : (hostOps2_1 (F := Ideal)).Forall fun op => op.writes ⊆ (wr2_1.map (Proc.devRef (τ := τ) .tc)).toFinset := by
  simp only [hostOps2_1, List.Forall, StableHlo.nullary_writes, StableHlo.unary_writes, StableHlo.binary_writes, StableHlo.ternary_writes,
    StableHlo.quaternary_writes, StableHlo.reshape_writes, StableHlo.binaryIndexed_writes, Finset.singleton_subset_iff, List.mem_toFinset, List.mem_map]
  repeat' apply And.intro
  all_goals exact ⟨_, by decide, rfl⟩
/-- A reference outside that list holds after the stretch what it held before. -/
theorem W9_keep (c : Dev nD) (b : Ref sig .tc) (hb : b ∉ wr2_1) :
    W9 (F := Ideal) m ρ c (Proc.devRef .tc b) = W8 m ρ c (Proc.devRef .tc b) :=
  StableHlo.after_of_writes_sub _ _ hostOps2_1_wr hb

/-- A value carried to a reference's own contents type and back is itself. -/
theorem ofBuf_toBuf {T : BufTy} (x : StableHlo.TRef sig T) (v : T.Contents (Elt Ideal)) : x.ofBuf (x.toBuf v) = v := by
  unfold StableHlo.TRef.ofBuf StableHlo.TRef.toBuf
  rw [cast_cast]; exact cast_eq _ _

/-! ## What one stretch computes, from any contents before it -/

section Stretch
variable (V : Valuation τ sig (Elt Ideal)) (EI : IVec S2x500000 32)

/-- The first stretch: the edge columns, the reciprocal column, the converted weights and the reshaped biases. -/
theorem src_of : (StableHlo.after hostOps0 V (Proc.devRef .tc main_v1) : IVec S500000 32) = KDefs.srcWord (V (Proc.devRef .tc main_arg1)) := by
  after_results_simp <;> rfl
theorem dst_of : (StableHlo.after hostOps0 V (Proc.devRef .tc main_v3) : IVec S500000 32) = KDefs.dstWord (V (Proc.devRef .tc main_arg1)) := by
  after_results_simp <;> rfl
theorem inv_of : (StableHlo.after hostOps0 V (Proc.devRef .tc main_v12) : FVec Ideal S50000x1 .f32) = KDefs.invDegree (V (Proc.devRef .tc main_arg1)) := by
  after_results_simp <;> rfl
theorem w1l_of : (StableHlo.after hostOps0 V (Proc.devRef .tc main_v13) : FVec Ideal S256x256 .bf16) = truncf (F := Ideal) (s := S256x256) (φ := .f32) .bf16 (V (Proc.devRef .tc main_arg4)) Facts₀.bitsLt_bf16_f32 := by
  after_results_simp <;> rfl
theorem w1r_of : (StableHlo.after hostOps0 V (Proc.devRef .tc main_v14) : FVec Ideal S256x256 .bf16) = truncf (F := Ideal) (s := S256x256) (φ := .f32) .bf16 (V (Proc.devRef .tc main_arg6)) Facts₀.bitsLt_bf16_f32 := by
  after_results_simp <;> rfl
theorem w2l_of : (StableHlo.after hostOps0 V (Proc.devRef .tc main_v15) : FVec Ideal S256x256 .bf16) = truncf (F := Ideal) (s := S256x256) (φ := .f32) .bf16 (V (Proc.devRef .tc main_arg7)) Facts₀.bitsLt_bf16_f32 := by
  after_results_simp <;> rfl
theorem w2r_of : (StableHlo.after hostOps0 V (Proc.devRef .tc main_v16) : FVec Ideal S256x256 .bf16) = truncf (F := Ideal) (s := S256x256) (φ := .f32) .bf16 (V (Proc.devRef .tc main_arg9)) Facts₀.bitsLt_bf16_f32 := by
  after_results_simp <;> rfl
theorem w3l_of : (StableHlo.after hostOps0 V (Proc.devRef .tc main_v17) : FVec Ideal S128x256 .bf16) = truncf (F := Ideal) (s := S128x256) (φ := .f32) .bf16 (V (Proc.devRef .tc main_arg10)) Facts₀.bitsLt_bf16_f32 := by
  after_results_simp <;> rfl
theorem w3r_of : (StableHlo.after hostOps0 V (Proc.devRef .tc main_v18) : FVec Ideal S128x256 .bf16) = truncf (F := Ideal) (s := S128x256) (φ := .f32) .bf16 (V (Proc.devRef .tc main_arg12)) Facts₀.bitsLt_bf16_f32 := by
  after_results_simp <;> rfl
theorem b1_of : (StableHlo.after hostOps0 V (Proc.devRef .tc main_v19) : FVec Ideal S1x256 .f32) = shapeCast _ (V (Proc.devRef .tc main_arg5) : FVec Ideal S256 .f32) Facts₀.shapeCasts_S256_S1x256 := by
  after_results_simp <;> rfl
theorem b2_of : (StableHlo.after hostOps0 V (Proc.devRef .tc main_v20) : FVec Ideal S1x256 .f32) = shapeCast _ (V (Proc.devRef .tc main_arg8) : FVec Ideal S256 .f32) Facts₀.shapeCasts_S256_S1x256 := by
  after_results_simp <;> rfl
theorem b3_of : (StableHlo.after hostOps0 V (Proc.devRef .tc main_v21) : FVec Ideal S1x128 .f32) = shapeCast _ (V (Proc.devRef .tc main_arg11) : FVec Ideal S128 .f32) Facts₀.shapeCasts_S128_S1x128 := by
  after_results_simp <;> rfl

/-- A row take: from the source words, the masked take of the table it reads. -/
theorem take0_of (hs : (V (Proc.devRef .tc main_v1) : IVec S500000 32) = KDefs.srcWord EI) :
    (StableHlo.after hostOps0_1 V (Proc.devRef .tc main_v22) : FVec Ideal S500000x256 .f32)
      = KDefs.take256 EI (V (Proc.devRef .tc main_arg0)) := by
  unfold KDefs.take256 KDefs.inRange KDefs.srcCol KDefs.srcWrapped
  rw [← hs]
  after_results_simp
  simp only [ofBuf_toBuf]
  simp only [StableHlo.TRef.toBuf, StableHlo.TRef.ofBuf]
  repeat erw [cast_eq]
  all_goals rfl
theorem take1_of (hs : (V (Proc.devRef .tc main_v1) : IVec S500000 32) = KDefs.srcWord EI) :
    (StableHlo.after hostOps1 V (Proc.devRef .tc main_v27) : FVec Ideal S500000x256 .f32)
      = KDefs.take256 EI (V (Proc.devRef .tc main_v26)) := by
  unfold KDefs.take256 KDefs.inRange KDefs.srcCol KDefs.srcWrapped
  rw [← hs]
  after_results_simp
  simp only [ofBuf_toBuf]
  simp only [StableHlo.TRef.toBuf, StableHlo.TRef.ofBuf]
  repeat erw [cast_eq]
  all_goals rfl
theorem take2_of (hs : (V (Proc.devRef .tc main_v1) : IVec S500000 32) = KDefs.srcWord EI) :
    (StableHlo.after hostOps2 V (Proc.devRef .tc main_v32) : FVec Ideal S500000x128 .f32)
      = KDefs.take128 EI (V (Proc.devRef .tc main_v31_0)) := by
  unfold KDefs.take128 KDefs.inRange KDefs.srcCol KDefs.srcWrapped
  rw [← hs]
  after_results_simp
  simp only [ofBuf_toBuf]
  simp only [StableHlo.TRef.toBuf, StableHlo.TRef.ofBuf]
  repeat erw [cast_eq]
  all_goals rfl

/-- A scatter-add: from the destination words and the taken rows, the neighbour sum. -/
theorem agg0_of (feat : FVec Ideal S50000x256 .f32) (hd : (V (Proc.devRef .tc main_v3) : IVec S500000 32) = KDefs.dstWord EI)
    (ht : (V (Proc.devRef .tc main_v22) : FVec Ideal S500000x256 .f32) = KDefs.take256 EI feat) :
    (StableHlo.after hostOps0_2 V (Proc.devRef .tc main_v25) : FVec Ideal S50000x256 .f32) = KDefs.agg256 EI feat := by
  unfold KDefs.agg256 KDefs.dstCol
  rw [← hd, ← ht]
  after_results_simp <;> rfl
theorem agg1_of (feat : FVec Ideal S50000x256 .f32) (hd : (V (Proc.devRef .tc main_v3) : IVec S500000 32) = KDefs.dstWord EI)
    (ht : (V (Proc.devRef .tc main_v27) : FVec Ideal S500000x256 .f32) = KDefs.take256 EI feat) :
    (StableHlo.after hostOps1_1 V (Proc.devRef .tc main_v30) : FVec Ideal S50000x256 .f32) = KDefs.agg256 EI feat := by
  unfold KDefs.agg256 KDefs.dstCol
  rw [← hd, ← ht]
  after_results_simp <;> rfl
theorem agg2_of (feat : FVec Ideal S50000x128 .f32) (hd : (V (Proc.devRef .tc main_v3) : IVec S500000 32) = KDefs.dstWord EI)
    (ht : (V (Proc.devRef .tc main_v32) : FVec Ideal S500000x128 .f32) = KDefs.take128 EI feat) :
    (StableHlo.after hostOps2_1 V (Proc.devRef .tc main_v35) : FVec Ideal S50000x128 .f32) = KDefs.agg128 EI feat := by
  unfold KDefs.agg128 KDefs.dstCol
  rw [← hd, ← ht]
  after_results_simp <;> rfl

end Stretch

/-! ## Region 0's entry -/

/-- After the first stretch: the edge columns and the reciprocal column, of the launched edge list. -/
theorem w1_src (c : Dev nD) : (W1 (F := Ideal) m ρ c (Proc.devRef .tc main_v1) : IVec S500000 32) = KDefs.srcWord (aEI m c) := src_of _
theorem w1_dst (c : Dev nD) : (W1 (F := Ideal) m ρ c (Proc.devRef .tc main_v3) : IVec S500000 32) = KDefs.dstWord (aEI m c) := dst_of _
theorem w1_inv (c : Dev nD) : (W1 (F := Ideal) m ρ c (Proc.devRef .tc main_v12) : FVec Ideal S50000x1 .f32) = KDefs.invDegree (aEI m c) := inv_of _

/-- A reference no stretch before region 0 writes after the first one holds at region 0's entry what the first stretch left. -/
theorem W3_W1 (c : Dev nD) (b : Ref sig .tc) (h1 : b ∉ wr0_1) (h2 : b ∉ wr0_2) :
    W3 (F := Ideal) m ρ c (Proc.devRef .tc b) = W1 m ρ c (Proc.devRef .tc b) :=
  (W3_keep m ρ c b h2).trans (W2_keep m ρ c b h1)
/-- An argument holds at region 0's entry what was launched. -/
theorem W3_W0 (c : Dev nD) (b : Ref sig .tc) (h0 : b ∉ wr0) (h1 : b ∉ wr0_1) (h2 : b ∉ wr0_2) :
    W3 (F := Ideal) m ρ c (Proc.devRef .tc b) = W0 m ρ c (Proc.devRef .tc b) :=
  (W3_W1 m ρ c b h1 h2).trans (W1_keep m ρ c b h0)

theorem w2_take (c : Dev nD) : (W2 (F := Ideal) m ρ c (Proc.devRef .tc main_v22) : FVec Ideal S500000x256 .f32) = KDefs.take256 (aEI m c) (aX m c) :=
  (take0_of (W1 m ρ c) (aEI m c) (w1_src m ρ c)).trans (congrArg (KDefs.take256 (aEI m c)) (W1_keep m ρ c main_arg0 (by decide)))

theorem e3_sum (c : Dev nD) : (V3 (F := Ideal) m ρ c main_v25 : FVec Ideal S50000x256 .f32) = KDefs.agg256 (aEI m c) (aX m c) :=
  agg0_of (W2 m ρ c) (aEI m c) (aX m c) ((W2_keep m ρ c main_v3 (by decide)).trans (w1_dst m ρ c)) (w2_take m ρ c)
theorem e3_inv (c : Dev nD) : (V3 (F := Ideal) m ρ c main_v12 : FVec Ideal S50000x1 .f32) = KDefs.invDegree (aEI m c) :=
  (W3_W1 m ρ c main_v12 (by decide) (by decide)).trans (w1_inv m ρ c)
theorem e3_x (c : Dev nD) : (V3 (F := Ideal) m ρ c main_arg0 : FVec Ideal S50000x256 .f32) = aX m c :=
  W3_W0 m ρ c main_arg0 (by decide) (by decide) (by decide)
theorem e3_wl (c : Dev nD) : (V3 (F := Ideal) m ρ c main_v13 : FVec Ideal S256x256 .bf16) = truncf .bf16 (aW1l m c) Facts₀.bitsLt_bf16_f32 :=
  (W3_W1 m ρ c main_v13 (by decide) (by decide)).trans (w1l_of _)
theorem e3_b (c : Dev nD) : (V3 (F := Ideal) m ρ c main_v19 : FVec Ideal S1x256 .f32) = shapeCast _ (aB1 m c) Facts₀.shapeCasts_S256_S1x256 :=
  (W3_W1 m ρ c main_v19 (by decide) (by decide)).trans (b1_of _)
theorem e3_wr (c : Dev nD) : (V3 (F := Ideal) m ρ c main_v14 : FVec Ideal S256x256 .bf16) = truncf .bf16 (aW1r m c) Facts₀.bitsLt_bf16_f32 :=
  (W3_W1 m ρ c main_v14 (by decide) (by decide)).trans (w1r_of _)
theorem e3_m (c : Dev nD) : (V3 (F := Ideal) m ρ c main_arg2 : FVec Ideal S50000x256 .f32) = aM1 m c :=
  W3_W0 m ρ c main_arg2 (by decide) (by decide) (by decide)

/-! ## Region 1's entry -/

/-- Across region 0: the reciprocal column is one of its input windows, left as entered; its output window holds the first
    layer's rows. -/
theorem W4_v12 (c : Dev nD) : W4 (F := Ideal) m ρ c (Proc.devRef .tc main_v12) = W3 m ρ c (Proc.devRef .tc main_v12) :=
  (W4_arr m ρ c 1).trans (((dat0 (V3 m ρ) c).arrAt_in 1 rfl _).trans (A_eq0 (V3 m ρ) c 1))
theorem W4_v26 (c : Dev nD) : (W4 (F := Ideal) m ρ c (Proc.devRef .tc main_v26) : FVec Ideal S50000x256 .f32) = rows1 m ρ c :=
  W4_arr m ρ c 7

/-- A reference that is no window of region 0 and that the second take and scatter-add do not write holds at region 1's
    entry what it held at region 0's. -/
theorem W6_W4 (c : Dev nD) (b : Ref sig .tc) (h1 : b ∉ wr1) (h2 : b ∉ wr1_1) :
    W6 (F := Ideal) m ρ c (Proc.devRef .tc b) = W4 m ρ c (Proc.devRef .tc b) :=
  (W6_keep m ρ c b h2).trans (W5_keep m ρ c b h1)
theorem W6_W3 (c : Dev nD) (b : Ref sig .tc) (h1 : b ∉ wr1) (h2 : b ∉ wr1_1) (hw : ∀ w, Pipeline.arrRef spec0 w ≠ b) :
    W6 (F := Ideal) m ρ c (Proc.devRef .tc b) = W3 m ρ c (Proc.devRef .tc b) :=
  (W6_W4 m ρ c b h1 h2).trans (W4_of_ne m ρ c b hw)

/-- The edge columns at region 0's exit. -/
theorem w4_src (c : Dev nD) : (W4 (F := Ideal) m ρ c (Proc.devRef .tc main_v1) : IVec S500000 32) = KDefs.srcWord (aEI m c) :=
  (W4_of_ne m ρ c main_v1 (by decide)).trans ((W3_W1 m ρ c main_v1 (by decide) (by decide)).trans (w1_src m ρ c))
theorem w4_dst (c : Dev nD) : (W4 (F := Ideal) m ρ c (Proc.devRef .tc main_v3) : IVec S500000 32) = KDefs.dstWord (aEI m c) :=
  (W4_of_ne m ρ c main_v3 (by decide)).trans ((W3_W1 m ρ c main_v3 (by decide) (by decide)).trans (w1_dst m ρ c))

theorem w5_take (c : Dev nD) : (W5 (F := Ideal) m ρ c (Proc.devRef .tc main_v27) : FVec Ideal S500000x256 .f32) = KDefs.take256 (aEI m c) (rows1 m ρ c) :=
  (take1_of (W4 m ρ c) (aEI m c) (w4_src m ρ c)).trans (congrArg (KDefs.take256 (aEI m c)) (W4_v26 m ρ c))

theorem e6_sum (c : Dev nD) : (V6 (F := Ideal) m ρ c main_v30 : FVec Ideal S50000x256 .f32) = KDefs.agg256 (aEI m c) (rows1 m ρ c) :=
  agg1_of (W5 m ρ c) (aEI m c) (rows1 m ρ c) ((W5_keep m ρ c main_v3 (by decide)).trans (w4_dst m ρ c)) (w5_take m ρ c)
theorem e6_inv (c : Dev nD) : (V6 (F := Ideal) m ρ c main_v12 : FVec Ideal S50000x1 .f32) = KDefs.invDegree (aEI m c) :=
  (W6_W4 m ρ c main_v12 (by decide) (by decide)).trans ((W4_v12 m ρ c).trans (e3_inv m ρ c))
theorem e6_h (c : Dev nD) : (V6 (F := Ideal) m ρ c main_v26 : FVec Ideal S50000x256 .f32) = rows1 m ρ c :=
  (W6_W4 m ρ c main_v26 (by decide) (by decide)).trans (W4_v26 m ρ c)
theorem e6_wl (c : Dev nD) : (V6 (F := Ideal) m ρ c main_v15 : FVec Ideal S256x256 .bf16) = truncf .bf16 (aW2l m c) Facts₀.bitsLt_bf16_f32 :=
  (W6_W3 m ρ c main_v15 (by decide) (by decide) (by decide)).trans ((W3_W1 m ρ c main_v15 (by decide) (by decide)).trans (w2l_of _))
theorem e6_b (c : Dev nD) : (V6 (F := Ideal) m ρ c main_v20 : FVec Ideal S1x256 .f32) = shapeCast _ (aB2 m c) Facts₀.shapeCasts_S256_S1x256 :=
  (W6_W3 m ρ c main_v20 (by decide) (by decide) (by decide)).trans ((W3_W1 m ρ c main_v20 (by decide) (by decide)).trans (b2_of _))
theorem e6_wr (c : Dev nD) : (V6 (F := Ideal) m ρ c main_v16 : FVec Ideal S256x256 .bf16) = truncf .bf16 (aW2r m c) Facts₀.bitsLt_bf16_f32 :=
  (W6_W3 m ρ c main_v16 (by decide) (by decide) (by decide)).trans ((W3_W1 m ρ c main_v16 (by decide) (by decide)).trans (w2r_of _))
theorem e6_m (c : Dev nD) : (V6 (F := Ideal) m ρ c main_arg3 : FVec Ideal S50000x256 .f32) = aM2 m c :=
  (W6_W3 m ρ c main_arg3 (by decide) (by decide) (by decide)).trans (W3_W0 m ρ c main_arg3 (by decide) (by decide) (by decide))
theorem e6_w3l (c : Dev nD) : (V6 (F := Ideal) m ρ c main_v17 : FVec Ideal S128x256 .bf16) = truncf .bf16 (aW3l m c) Facts₀.bitsLt_bf16_f32 :=
  (W6_W3 m ρ c main_v17 (by decide) (by decide) (by decide)).trans ((W3_W1 m ρ c main_v17 (by decide) (by decide)).trans (w3l_of _))
theorem e6_w3r (c : Dev nD) : (V6 (F := Ideal) m ρ c main_v18 : FVec Ideal S128x256 .bf16) = truncf .bf16 (aW3r m c) Facts₀.bitsLt_bf16_f32 :=
  (W6_W3 m ρ c main_v18 (by decide) (by decide) (by decide)).trans ((W3_W1 m ρ c main_v18 (by decide) (by decide)).trans (w3r_of _))

/-! ## Region 2's entry, and the result -/

/-- Across region 1: the reciprocal column is one of its input windows, left as entered; its two output windows hold the
    two projected tables. -/
theorem W7_v12 (c : Dev nD) : W7 (F := Ideal) m ρ c (Proc.devRef .tc main_v12) = W6 m ρ c (Proc.devRef .tc main_v12) :=
  (W7_arr m ρ c 1).trans (((dat1 (V6 m ρ) c).arrAt_in 1 rfl _).trans (A_eq1 (V6 m ρ) c 1))
theorem W7_v31_0 (c : Dev nD) : (W7 (F := Ideal) m ρ c (Proc.devRef .tc main_v31_0) : FVec Ideal S50000x128 .f32) = projL m ρ c :=
  W7_arr m ρ c 9
theorem W7_v31_1 (c : Dev nD) : (W7 (F := Ideal) m ρ c (Proc.devRef .tc main_v31_1) : FVec Ideal S50000x128 .f32) = projR m ρ c :=
  W7_arr m ρ c 10

/-- A reference the third take and scatter-add do not write holds at region 2's entry what it held at region 1's exit. -/
theorem W9_W7 (c : Dev nD) (b : Ref sig .tc) (h1 : b ∉ wr2) (h2 : b ∉ wr2_1) :
    W9 (F := Ideal) m ρ c (Proc.devRef .tc b) = W7 m ρ c (Proc.devRef .tc b) :=
  (W9_keep m ρ c b h2).trans (W8_keep m ρ c b h1)

/-- The edge columns at region 1's exit. -/
theorem w7_src (c : Dev nD) : (W7 (F := Ideal) m ρ c (Proc.devRef .tc main_v1) : IVec S500000 32) = KDefs.srcWord (aEI m c) :=
  (W7_of_ne m ρ c main_v1 (by decide)).trans ((W6_W4 m ρ c main_v1 (by decide) (by decide)).trans (w4_src m ρ c))
theorem w7_dst (c : Dev nD) : (W7 (F := Ideal) m ρ c (Proc.devRef .tc main_v3) : IVec S500000 32) = KDefs.dstWord (aEI m c) :=
  (W7_of_ne m ρ c main_v3 (by decide)).trans ((W6_W4 m ρ c main_v3 (by decide) (by decide)).trans (w4_dst m ρ c))

theorem w8_take (c : Dev nD) : (W8 (F := Ideal) m ρ c (Proc.devRef .tc main_v32) : FVec Ideal S500000x128 .f32) = KDefs.take128 (aEI m c) (projL m ρ c) :=
  (take2_of (W7 m ρ c) (aEI m c) (w7_src m ρ c)).trans (congrArg (KDefs.take128 (aEI m c)) (W7_v31_0 m ρ c))

theorem e9_sum (c : Dev nD) : (V9 (F := Ideal) m ρ c main_v35 : FVec Ideal S50000x128 .f32) = KDefs.agg128 (aEI m c) (projL m ρ c) :=
  agg2_of (W8 m ρ c) (aEI m c) (projL m ρ c) ((W8_keep m ρ c main_v3 (by decide)).trans (w7_dst m ρ c)) (w8_take m ρ c)
theorem e9_inv (c : Dev nD) : (V9 (F := Ideal) m ρ c main_v12 : FVec Ideal S50000x1 .f32) = KDefs.invDegree (aEI m c) :=
  (W9_W7 m ρ c main_v12 (by decide) (by decide)).trans ((W7_v12 m ρ c).trans (e6_inv m ρ c))
theorem e9_pr (c : Dev nD) : (V9 (F := Ideal) m ρ c main_v31_1 : FVec Ideal S50000x128 .f32) = projR m ρ c :=
  (W9_W7 m ρ c main_v31_1 (by decide) (by decide)).trans (W7_v31_1 m ρ c)
theorem e9_b (c : Dev nD) : (V9 (F := Ideal) m ρ c main_v21 : FVec Ideal S1x128 .f32) = shapeCast _ (aB3 m c) Facts₀.shapeCasts_S128_S1x128 :=
  (W9_W7 m ρ c main_v21 (by decide) (by decide)).trans ((W7_of_ne m ρ c main_v21 (by decide)).trans
    ((W6_W3 m ρ c main_v21 (by decide) (by decide) (by decide)).trans ((W3_W1 m ρ c main_v21 (by decide) (by decide)).trans (b3_of _))))
theorem result_eq (c : Dev nD) :
    (W10 (F := Ideal) m ρ c (Proc.devRef .tc main_v36) : FVec Ideal S50000x128 .f32) = (dat2 (F := Ideal) (V9 m ρ) c).arrAt 4 cfg2.N :=
  W10_arr m ρ c 4

end Cert.KernelIdeal.Entry

end
-- ==== Proof.Spec.lean ====
/-
  A three-layer neighbour-mean network on a graph of 50000 nodes and 500000 directed edges, written once over the
  extended reals.  An edge e carries a source row and a destination row; the neighbour sum of a feature table at
  node n is the sum, over the edges whose destination reads n, of the feature row of the edge's source.  A layer
  divides that sum by the node's in-degree (at least one), applies two linear maps (one to the mean, one to the
  node's own row), adds a bias, takes tanh, and drops entries whose mask value is not above 1/5, scaling the kept
  ones by the reciprocal of the keep probability.  Two ways of arranging the same arithmetic are stated here:
  the one that multiplies by a stored reciprocal and scales by a named reciprocal constant, and the one that
  divides.  The third layer is also stated in the form that projects every node's row first and sums the projected
  rows afterwards.
-/
import Idealize.ShloMosaic.PureOps.Ideal
import Idealize.ShloMosaic.Lib.ValueIdx

noncomputable section

open scoped BigOperators

namespace Cert.Sage

open Idealize.ShloMosaic Idealize.ShloMosaic.ValueIdx

/-- The column of edge indices a gather or scatter is handed: one 32-bit word per edge. -/
abbrev EdgeCol : Type := IVec (⟨2, ![500000, 1]⟩ : Shape) 32

/-- A table with one row per node. -/
abbrev Tab (C : Nat) : Type := Fin 50000 → Fin C → EReal

/-- The keep indicator of dropout: 1 where the mask value is above the threshold word (the float nearest 1/5),
    0 elsewhere. -/
def keep (u : EReal) : EReal := (((Ideal.cmp .ogt u (Ideal.ofBits .f32 0x3E4CCCCD#32)).toNat : ℝ) : EReal)

/-- The float nearest 4/5, the keep probability the dividing form divides by. -/
def keepProb : EReal := Ideal.ofBits .f32 0x3F4CCCCD#32

/-- The reciprocal of that float, as an exact rational. -/
def invKeepProb : EReal := ((16777216 / 13421773 : ℝ) : EReal)

/-- The float 1. -/
def one : EReal := Ideal.ofBits .f32 0x3F800000#32

/-- The node an edge's source word names: read signed, clamped into the table. -/
def srcRow (gi : EdgeCol) (e : Fin 500000) : Fin 50000 :=
  ⟨min (gi (ix2 e (0 : Fin 1))).toInt.toNat 49999, by omega⟩

/-- THE NEIGHBOUR SUM of a table at node n, column k: over the edges whose destination word reads n, the
    source node's entry. -/
def aggr {C : Nat} (di gi : EdgeCol) (feat : Tab C) : Tab C := fun n k =>
  ∑ e : Fin 500000, if (di (ix2 e (0 : Fin 1))).toInt = (n.val : ℤ) then feat (srcRow gi e) k else 0

/-- A layer in the DIVIDING form: the neighbour sum divided by the degree, the two linear maps, bias added to the
    first, tanh, dropout by division. -/
def layerDiv (A : Tab 256) (cm : Fin 50000 → EReal) (x : Tab 256) (Wl Wr : Fin 256 → Fin 256 → EReal)
    (b : Fin 256 → EReal) (M : Tab 256) : Tab 256 := fun n j =>
  Ideal.div (Ideal.tanh ((∑ k : Fin 256, Ideal.div (A n k) (cm n) * Wl j k + b j) + ∑ k : Fin 256, x n k * Wr j k)
    * keep (M n j)) keepProb

/-- A layer in the MULTIPLYING form: the neighbour sum times a stored reciprocal degree, the two linear maps
    added first and the bias last, tanh, dropout by the named reciprocal. -/
def layerMul (S : Tab 256) (inv : Fin 50000 → EReal) (x : Tab 256) (Wl Wr : Fin 256 → Fin 256 → EReal)
    (b : Fin 256 → EReal) (M : Tab 256) : Tab 256 := fun n j =>
  Ideal.tanh ((∑ k : Fin 256, (S n k * inv n) * Wl j k + ∑ k : Fin 256, x n k * Wr j k) + b j)
    * keep (M n j) * invKeepProb

/-- A node table projected by a 128-row matrix. -/
def proj (h : Tab 256) (W : Fin 128 → Fin 256 → EReal) : Tab 128 := fun n o => ∑ k : Fin 256, h n k * W o k

/-- The last layer in the DIVIDING form: mean of the rows, then the projection. -/
def lastDiv (A : Tab 256) (cm : Fin 50000 → EReal) (h : Tab 256) (Wl Wr : Fin 128 → Fin 256 → EReal)
    (b : Fin 128 → EReal) : Tab 128 := fun n o =>
  Ideal.tanh ((∑ k : Fin 256, Ideal.div (A n k) (cm n) * Wl o k + b o) + ∑ k : Fin 256, h n k * Wr o k)

/-- The last layer in the PROJECT-FIRST form: the neighbour sum of the projected rows times the stored reciprocal,
    bias, and the node's own projected row. -/
def lastMul (SP : Tab 128) (inv : Fin 50000 → EReal) (PR : Tab 128) (b : Fin 128 → EReal) : Tab 128 := fun n o =>
  Ideal.tanh ((SP n o * inv n + b o) + PR n o)

end Cert.Sage

end
-- ==== Proof.LibScatter.lean ====
/-
  The host's scatter read at one index.

  A scatter whose body adds in a commutative monoid leaves, at each operand index, the operand's element plus the sum of
  the updates that land there, whatever the order of the fold (general lemma, any dimension numbers). For the
  two families of dimension numbers of a histogram (operand [N], indices [K,1], updates [K]) and of a row
  scatter-add (operand [R,C], indices [K,1], updates [K,C]) the landing index is computed in closed form: update
  e lands in row "the e-th index read signed", and is dropped when that is outside the operand.
-/
import Mathlib.Data.BitVec
import Mathlib.Algebra.BigOperators.Fin
import Idealize.ShloMosaic.Lib.ValueIdxRank1

open scoped BigOperators

namespace Cert.LibScatter

open Idealize.ShloMosaic Idealize.ShloMosaic.ValueIdx

/-! ## Any scatter whose body adds in a commutative monoid -/

section General
variable {α : Type} [AddCommMonoid α] {s si u : Shape} {w : Nat}

/-- The scatter's fold over ANY list of update positions, read at operand index i: the start value there plus the
    sum, over the list, of the updates whose landing index is i. -/
theorem foldl_add_apply (d : ScatterDims s si u) (idx : IVec si w) (upd : u.Idx → α) (i : s.Idx) :
    ∀ (l : List (Fin u.numel)) (x : s.Idx → α),
      (l.foldl (fun r n =>
          match d.resultIdx? (u.rowMajor.symm n) idx with
          | some k => fun i' => if i' = k then r k + upd (u.rowMajor.symm n) else r i'
          | none => r) x) i
        = x i + (l.map fun n => if d.resultIdx? (u.rowMajor.symm n) idx = some i then upd (u.rowMajor.symm n) else 0).sum := by
  intro l
  induction l with
  | nil => intro x; simp
  | cons n l ih =>
    intro x
    rw [List.foldl_cons, ih, List.map_cons, List.sum_cons, ← add_assoc]
    congr 1
    cases hk : d.resultIdx? (u.rowMajor.symm n) idx with
    | none => simp
    | some k =>
      by_cases hik : i = k
      · subst hik; simp
      · have : ¬ (some k = some i) := fun h => hik (Option.some.inj h).symm
        simp [hik, this]

/-- A scatter with an adding body, read at operand index i: the operand's element plus the sum of all updates
    whose landing index is i. -/
theorem scatter_add_apply (d : ScatterDims s si u) (x : s.Idx → α) (idx : IVec si w) (upd : u.Idx → α) (i : s.Idx) :
    Host.scatter d (fun a b => a + b) x idx upd i
      = x i + ∑ j : u.Idx, if d.resultIdx? j idx = some i then upd j else 0 := by
  unfold Host.scatter
  refine (foldl_add_apply d idx upd i (List.finRange u.numel) x).trans ?_
  rw [← Fin.sum_univ_def]
  congr 1
  exact Equiv.sum_comp u.rowMajor.symm (fun j => if d.resultIdx? j idx = some i then upd j else 0)

end General

/-! ## Row scatter: operand [R,C], indices [K,1], updates [K,C] -/

section Row

/-- The dimension numbers of a row scatter (every update row added to the operand row its index names): the updates' axis 1 is the window, it goes to
    the operand's axis 1; the operand's axis 0 is indexed by the one component of each index vector. -/
abbrev rowDims (R K C : Nat) (wf : ScatterDims.WF ⟨2, ![R, C]⟩ ⟨2, ![K, 1]⟩ ⟨2, ![K, C]⟩ [1] [0] [0] 1) :
    ScatterDims ⟨2, ![R, C]⟩ ⟨2, ![K, 1]⟩ ⟨2, ![K, C]⟩ where
  updateWindowDims := [1]
  insertedWindowDims := [0]
  scatterDimsToOperandDims := [0]
  indexVectorDim := 1
  wf := wf

variable {R K C w : Nat} (wf : ScatterDims.WF ⟨2, ![R, C]⟩ ⟨2, ![K, 1]⟩ ⟨2, ![K, C]⟩ [1] [0] [0] 1)

/-- On the operand's row axis the window starts at the update's row's index, read signed. -/
theorem rowDims_start0 (j : (⟨2, ![K, C]⟩ : Shape).Idx) (idx : IVec ⟨2, ![K, 1]⟩ w) :
    (rowDims R K C wf).start j idx 0 = (idx (ix2 (j 0) 0)).toInt := by
  unfold ScatterDims.start
  rw [dif_pos (show (0 : Fin 2) ∈ (rowDims R K C wf).scatterDimsToOperandDims from List.mem_singleton.mpr rfl)]
  have hsi : (rowDims R K C wf).siIdx j ⟨List.idxOf (0 : Fin 2) (rowDims R K C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the operand's column axis the window starts at 0. -/
theorem rowDims_start1 (j : (⟨2, ![K, C]⟩ : Shape).Idx) (idx : IVec ⟨2, ![K, 1]⟩ w) :
    (rowDims R K C wf).start j idx 1 = 0 := by
  unfold ScatterDims.start
  rw [dif_neg (show (1 : Fin 2) ∉ (rowDims R K C wf).scatterDimsToOperandDims from
    fun h => Nat.one_ne_zero (congrArg Fin.val (List.mem_singleton.mp h)))]

/-- The operand's axes that are not inserted: the column axis alone. -/
theorem rowDims_sKept : (rowDims R K C wf).sKept = [1] := rfl

/-- The row axis is inserted: no window coordinate. -/
theorem rowDims_window0 (j : (⟨2, ![K, C]⟩ : Shape).Idx) : (rowDims R K C wf).window j 0 = 0 := by
  unfold ScatterDims.window
  rw [dif_neg (show (0 : Fin 2) ∉ (rowDims R K C wf).sKept from
    fun h => Nat.one_ne_zero (congrArg Fin.val (List.mem_singleton.mp (rowDims_sKept wf ▸ h))).symm)]

/-- The column axis carries the update's column. -/
theorem rowDims_window1 (j : (⟨2, ![K, C]⟩ : Shape).Idx) : (rowDims R K C wf).window j 1 = (j 1).val := by
  unfold ScatterDims.window
  rw [dif_pos (show (1 : Fin 2) ∈ (rowDims R K C wf).sKept from rowDims_sKept wf ▸ List.mem_singleton.mpr rfl)]
  rfl

/-- WHERE AN UPDATE LANDS: update (e, c) lands at (row, c), row the e-th index read signed, when that row is in
    the operand; it is dropped otherwise. -/
theorem rowDims_resultIdx? (e : Fin K) (c : Fin C) (idx : IVec ⟨2, ![K, 1]⟩ w) :
    (rowDims R K C wf).resultIdx? (ix2 e c) idx
      = if h : 0 ≤ (idx (ix2 e 0)).toInt ∧ (idx (ix2 e 0)).toInt < (R : ℤ) then
          some (ix2 ⟨(idx (ix2 e 0)).toInt.toNat, by omega⟩ c)
        else none := by
  have h0 : (rowDims R K C wf).start (ix2 e c) idx 0 + ((rowDims R K C wf).window (ix2 e c) 0 : ℤ)
      = (idx (ix2 e 0)).toInt := by
    rw [rowDims_start0, rowDims_window0]; simp; rfl
  have h1 : (rowDims R K C wf).start (ix2 e c) idx 1 + ((rowDims R K C wf).window (ix2 e c) 1 : ℤ) = (c.val : ℤ) := by
    rw [rowDims_start1, rowDims_window1]; simp; rfl
  unfold ScatterDims.resultIdx?
  by_cases h : 0 ≤ (idx (ix2 e 0)).toInt ∧ (idx (ix2 e 0)).toInt < (R : ℤ)
  · have hall : ∀ a : Fin 2, 0 ≤ (rowDims R K C wf).start (ix2 e c) idx a + ((rowDims R K C wf).window (ix2 e c) a : ℤ)
        ∧ (rowDims R K C wf).start (ix2 e c) idx a + ((rowDims R K C wf).window (ix2 e c) a : ℤ)
          < ((⟨2, ![R, C]⟩ : Shape).size a : ℤ) := by
      intro a
      match a with
      | ⟨0, _⟩ =>
        show 0 ≤ (rowDims R K C wf).start (ix2 e c) idx 0 + ((rowDims R K C wf).window (ix2 e c) 0 : ℤ)
          ∧ (rowDims R K C wf).start (ix2 e c) idx 0 + ((rowDims R K C wf).window (ix2 e c) 0 : ℤ) < (R : ℤ)
        rw [h0]; exact h
      | ⟨1, _⟩ =>
        show 0 ≤ (rowDims R K C wf).start (ix2 e c) idx 1 + ((rowDims R K C wf).window (ix2 e c) 1 : ℤ)
          ∧ (rowDims R K C wf).start (ix2 e c) idx 1 + ((rowDims R K C wf).window (ix2 e c) 1 : ℤ) < (C : ℤ)
        rw [h1]; exact ⟨Int.natCast_nonneg _, Int.ofNat_lt.mpr c.isLt⟩
    rw [dif_pos hall, dif_pos h]
    congr 1
    funext a
    refine Fin.ext ?_
    match a with
    | ⟨0, _⟩ => show ((rowDims R K C wf).start (ix2 e c) idx 0 + ((rowDims R K C wf).window (ix2 e c) 0 : ℤ)).toNat = _
                rw [h0]
    | ⟨1, _⟩ => show ((rowDims R K C wf).start (ix2 e c) idx 1 + ((rowDims R K C wf).window (ix2 e c) 1 : ℤ)).toNat = _
                rw [h1]; rfl
  · rw [dif_neg h, dif_neg]
    intro hall
    have := hall 0
    rw [h0] at this
    exact h this

/-- The form sums use: update (e, c) lands at (i, c') exactly when the e-th index reads i and the columns agree. -/
theorem rowDims_resultIdx?_eq_some_iff (e : Fin K) (c c' : Fin C) (i : Fin R) (idx : IVec ⟨2, ![K, 1]⟩ w) :
    (rowDims R K C wf).resultIdx? (ix2 e c) idx = some (ix2 i c')
      ↔ (idx (ix2 e 0)).toInt = (i.val : ℤ) ∧ c = c' := by
  rw [rowDims_resultIdx?]
  by_cases h : 0 ≤ (idx (ix2 e 0)).toInt ∧ (idx (ix2 e 0)).toInt < (R : ℤ)
  · rw [dif_pos h]
    constructor
    · intro heq
      have heq := Option.some.inj heq
      have e0 : (idx (ix2 e 0)).toInt.toNat = i.val := congrArg Fin.val (congrFun heq 0)
      have e1 : c = c' := congrFun heq 1
      exact ⟨by omega, e1⟩
    · rintro ⟨ht, rfl⟩
      congr 2
      exact Fin.ext (by show (idx (ix2 e 0)).toInt.toNat = i.val; omega)
  · rw [dif_neg h]
    constructor
    · intro heq; cases heq
    · rintro ⟨ht, -⟩
      exact absurd ⟨by omega, by have := i.isLt; omega⟩ h

end Row

/-! ## Histogram: operand [N], indices [K,1], updates [K] -/

section Hist

/-- The dimension numbers of a histogram (every update added to the operand element its index names): the updates
    have no window axis; the operand's one axis is inserted and indexed by the one component of each index vector. -/
abbrev histDims (N K : Nat) (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

variable {N K w : Nat} (wf : ScatterDims.WF ⟨1, ![N]⟩ ⟨2, ![K, 1]⟩ ⟨1, ![K]⟩ [] [0] [0] 1)

/-- The window starts at the update's index, read signed. -/
theorem histDims_start0 (j : (⟨1, ![K]⟩ : Shape).Idx) (idx : IVec ⟨2, ![K, 1]⟩ w) :
    (histDims N K wf).start j idx 0 = (idx (ix2 (j 0) 0)).toInt := by
  unfold ScatterDims.start
  rw [dif_pos (show (0 : Fin 1) ∈ (histDims N K wf).scatterDimsToOperandDims from List.mem_singleton.mpr rfl)]
  have hsi : (histDims N K wf).siIdx j ⟨List.idxOf (0 : Fin 1) (histDims N K wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is inserted: no axis is kept, … -/
theorem histDims_sKept : (histDims N K wf).sKept = [] := rfl

/-- … so there is no window coordinate. -/
theorem histDims_window0 (j : (⟨1, ![K]⟩ : Shape).Idx) : (histDims N K wf).window j 0 = 0 := by
  unfold ScatterDims.window
  rw [dif_neg (show (0 : Fin 1) ∉ (histDims N K wf).sKept from fun h => List.not_mem_nil (histDims_sKept wf ▸ h))]

/-- WHERE AN UPDATE LANDS: update e lands at the e-th index read signed, when that is in the operand; it is
    dropped otherwise. -/
theorem histDims_resultIdx? (e : Fin K) (idx : IVec ⟨2, ![K, 1]⟩ w) :
    (histDims N K wf).resultIdx? (ix1 e) idx
      = if h : 0 ≤ (idx (ix2 e 0)).toInt ∧ (idx (ix2 e 0)).toInt < (N : ℤ) then
          some (ix1 ⟨(idx (ix2 e 0)).toInt.toNat, by omega⟩)
        else none := by
  have h0 : (histDims N K wf).start (ix1 e) idx 0 + ((histDims N K wf).window (ix1 e) 0 : ℤ)
      = (idx (ix2 e 0)).toInt := by
    rw [histDims_start0, histDims_window0]; simp; rfl
  unfold ScatterDims.resultIdx?
  by_cases h : 0 ≤ (idx (ix2 e 0)).toInt ∧ (idx (ix2 e 0)).toInt < (N : ℤ)
  · have hall : ∀ a : Fin 1, 0 ≤ (histDims N K wf).start (ix1 e) idx a + ((histDims N K wf).window (ix1 e) a : ℤ)
        ∧ (histDims N K wf).start (ix1 e) idx a + ((histDims N K wf).window (ix1 e) a : ℤ)
          < ((⟨1, ![N]⟩ : Shape).size a : ℤ) := by
      intro a
      match a with
      | ⟨0, _⟩ =>
        show 0 ≤ (histDims N K wf).start (ix1 e) idx 0 + ((histDims N K wf).window (ix1 e) 0 : ℤ)
          ∧ (histDims N K wf).start (ix1 e) idx 0 + ((histDims N K wf).window (ix1 e) 0 : ℤ) < (N : ℤ)
        rw [h0]; exact h
    rw [dif_pos hall, dif_pos h]
    congr 1
    funext a
    refine Fin.ext ?_
    match a with
    | ⟨0, _⟩ => show ((histDims N K wf).start (ix1 e) idx 0 + ((histDims N K wf).window (ix1 e) 0 : ℤ)).toNat = _
                rw [h0]
  · rw [dif_neg h, dif_neg]
    intro hall
    have := hall 0
    rw [h0] at this
    exact h this

/-- The form sums use: update e lands at v exactly when the e-th index reads v. -/
theorem histDims_resultIdx?_eq_some_iff (e : Fin K) (v : Fin N) (idx : IVec ⟨2, ![K, 1]⟩ w) :
    (histDims N K wf).resultIdx? (ix1 e) idx = some (ix1 v) ↔ (idx (ix2 e 0)).toInt = (v.val : ℤ) := by
  rw [histDims_resultIdx?]
  by_cases h : 0 ≤ (idx (ix2 e 0)).toInt ∧ (idx (ix2 e 0)).toInt < (N : ℤ)
  · rw [dif_pos h]
    constructor
    · intro heq
      have heq := Option.some.inj heq
      have e0 : (idx (ix2 e 0)).toInt.toNat = v.val := congrArg Fin.val (congrFun heq 0)
      omega
    · intro ht
      congr 2
      exact Fin.ext (by show (idx (ix2 e 0)).toInt.toNat = v.val; omega)
  · rw [dif_neg h]
    constructor
    · intro heq; cases heq
    · intro ht
      exact absurd ⟨by omega, by have := v.isLt; omega⟩ h

end Hist

/-! ## The two scatters read at an index, as sums over the update rows -/

section Sums

/-- THE ROW SCATTER-ADD AT (i, c), exact arithmetic: the operand's element plus the sum, over the update rows whose
    index reads i, of the row's element in column c. -/
theorem rowDims_scatterAdd_apply {R K C w : Nat} {φ : FTy}
    (wf : ScatterDims.WF ⟨2, ![R, C]⟩ ⟨2, ![K, 1]⟩ ⟨2, ![K, C]⟩ [1] [0] [0] 1)
    (x : FVec Ideal ⟨2, ![R, C]⟩ φ) (idx : IVec ⟨2, ![K, 1]⟩ w) (upd : FVec Ideal ⟨2, ![K, C]⟩ φ) (i : Fin R) (c : Fin C) :
    Host.scatterAdd (rowDims R K C wf) x idx upd (ix2 i c)
      = x (ix2 i c) + ∑ e : Fin K, if (idx (ix2 e 0)).toInt = (i.val : ℤ) then upd (ix2 e c) else 0 := by
  show x (ix2 i c) + ∑ j ∈ Finset.univ.filter (fun j => (rowDims R K C wf).resultIdx? j idx = some (ix2 i c)), upd j = _
  congr 1
  rw [Finset.sum_filter, sum_idx2]
  refine Finset.sum_congr rfl fun e _ => ?_
  simp only [rowDims_resultIdx?_eq_some_iff]
  by_cases ht : (idx (ix2 e 0)).toInt = (i.val : ℤ)
  · simp [ht]
  · simp [ht]

/-- A sum of 32-bit words, each present or absent, is the word of the sum of their values. -/
theorem sum_ite_word {ι : Type} (S : Finset ι) (p : ι → Prop) [DecidablePred p] (f : ι → BitVec 32) :
    (∑ e ∈ S, if p e then f e else 0) = BitVec.ofNat 32 (∑ e ∈ S, if p e then (f e).toNat else 0) := by
  rw [← BitVec.natCast_eq_ofNat, Nat.cast_sum]
  refine Finset.sum_congr rfl fun e _ => ?_
  split_ifs
  · rw [BitVec.natCast_eq_ofNat, BitVec.ofNat_toNat, BitVec.setWidth_eq]
  · simp

/-- THE HISTOGRAM AT v, 32-bit words added with wrap-around: the operand's element plus the word of the sum, over the
    updates whose index reads v, of the update's value. -/
theorem histDims_scatter_apply {N K w : Nat}
    (wf : ScatterDims.WF ⟨1, ![N]⟩ ⟨2, ![K, 1]⟩ ⟨1, ![K]⟩ [] [0] [0] 1)
    (x : IVec ⟨1, ![N]⟩ 32) (idx : IVec ⟨2, ![K, 1]⟩ w) (upd : IVec ⟨1, ![K]⟩ 32) (v : Fin N) :
    Host.scatter (histDims N K wf) IntOp.addi x idx upd (ix1 v)
      = x (ix1 v) + BitVec.ofNat 32 (∑ e : Fin K, if (idx (ix2 e 0)).toInt = (v.val : ℤ) then (upd (ix1 e)).toNat else 0) := by
  have hadd : (IntOp.addi : BitVec 32 → BitVec 32 → BitVec 32) = fun a b => a + b := rfl
  rw [hadd, scatter_add_apply, ← sum_ite_word]
  congr 1
  rw [← Equiv.sum_comp (idxEquiv1 (n := K)).symm]
  refine Finset.sum_congr rfl fun e _ => ?_
  show (if (histDims N K wf).resultIdx? (ix1 e) idx = some (ix1 v) then upd (ix1 e) else 0) = _
  simp only [histDims_resultIdx?_eq_some_iff]

end Sums

end Cert.LibScatter
-- ==== Proof.LibTakeRows.lean ====
/-
  A row take read at an index.  `x[idx]` of a matrix `x : [N, W]` at a vector of row numbers lowers to a
  `stablehlo.gather` whose start indices are laid out as a column `[E, 1]`: offset axis 1, collapsed axis 0,
  start index map `[0]`, index vector axis 1, slices of one whole row.  Result element `(e, k)` is the
  operand at column `k` of the row `idx[e, 0]`, read as a signed integer and clamped into `[0, N − 1]`.
-/
import Idealize.ShloMosaic.Lib.ValueIdx

noncomputable section

namespace Cert.LibTakeRows

open Idealize.ShloMosaic Idealize.ShloMosaic.ValueIdx

variable {α : Type}

/-- The dimension numbers of a row take, for an operand `[N, W]`, start indices `[E, 1]` and a result `[E, W]`;
    their conditions `wf` are decided on a program's literal shapes. -/
abbrev rowDims (N W E : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- THE ROW TAKE READ AT `(e, k)`: column `k` of the row the start index `idx[e, 0]` names, read signed and
    clamped into `[0, N − 1]`. -/
theorem gather_rows_apply {N W E w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (k : Fin W) :
    Host.gather (rowDims N W E wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    -- axis 0 is collapsed and named by the start index map: the clamped start index, no batch or offset part
    show (rowDims N W E wf).start (ix2 e k) idx 0 + (rowDims N W E wf).batchCoord (ix2 e k) 0
      + (rowDims N W E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N W E wf).startIndexMap from List.mem_singleton.mpr rfl)]
    have hsi : (rowDims N W E wf).siIdx (ix2 e k) ⟨List.idxOf (0 : Fin 2) (rowDims N W E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1 is kept whole: start 0 (not in the start index map), no batch part, offset the result's column
    show (rowDims N W E wf).start (ix2 e k) idx 1 + (rowDims N W E wf).batchCoord (ix2 e k) 1
      + (rowDims N W E wf).offCoord (ix2 e k) 1 = _
    rw [GatherDims.batchCoord_eq_zero _ _ _ List.not_mem_nil]
    unfold GatherDims.start
    have h10 : ¬ (1 : Fin 2) = 0 := by decide
    rw [dif_neg (show (1 : Fin 2) ∉ (rowDims N W E wf).startIndexMap from fun h => h10 (List.mem_singleton.mp h))]
    have hk : (1 : Fin 2) ∈ (rowDims N W E wf).sKept :=
      (GatherDims.mem_sKept _ _).mpr ⟨fun h => h10 (List.mem_singleton.mp h), List.not_mem_nil⟩
    unfold GatherDims.offCoord
    rw [dif_pos hk]
    simp only [Nat.zero_add, Nat.add_zero]
    rfl

end Cert.LibTakeRows

end
-- ==== Proof.LibKeepdims.lean ====
/-
  Row-wise reductions with a kept unit axis, read at an index: the column forms a `jnp.mean(x, axis=-1, keepdims=True)`
  inside a kernel body goes through, which the value library's list of layout lemmas does not carry — a vector `[a]`
  cast to a column `[a, 1]`, a column `[a, 1]` broadcast along rows to `[a, b]`, a lane sum of `[a, b]` over its second
  axis read as the sum over that axis's coordinate — and a matrix product `[n, K] × [K, m]` into a zero accumulator
  read as the sum over the contracted coordinate, for any dimension record whose operand indices are the plain ones.
  All statements are over indices built from coordinates of literal `Fin` types (`ix1`, `ix2`).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Idealize.ShloMosaic.Keepdims

open Idealize.ShloMosaic Idealize.ShloMosaic.ValueIdx

variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of `[a, b]` over its second axis, at the ideal values, read at row `p`: the sum over the row. -/
theorem multiReduction_add_rows {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  match ax with
  | ⟨0, _⟩ => rfl
  | ⟨1, _⟩ => rfl

/-- A matrix product `[n, K] × [K, m]` into the zero accumulator, at the ideal values, read at `(p, h)`: the sum over the
    contracted coordinate — for any dimension record contracting the left operand's second axis with the right
    operand's first (the four coordinate facts `hl0 … hr1` are `fun _ _ => rfl` at a literal record). -/
theorem matmul_zero_apply {n K m : ℕ} {φ₁ φ₂ : FTy}
    (d : DotDims (⟨2, ![n, K]⟩ : Shape) (⟨2, ![K, m]⟩ : Shape) (⟨2, ![n, m]⟩ : Shape))
    (hr : d.contr.rank = 1) (hs : d.contr.size ⟨0, by omega⟩ = K)
    (hl0 : ∀ (j : (⟨2, ![n, m]⟩ : Shape).Idx) (k : d.contr.Idx), (d.lhsIdx j k 0).val = (j 0).val)
    (hl1 : ∀ (j : (⟨2, ![n, m]⟩ : Shape).Idx) (k : d.contr.Idx), (d.lhsIdx j k 1).val = (k ⟨0, by omega⟩).val)
    (hr0 : ∀ (j : (⟨2, ![n, m]⟩ : Shape).Idx) (k : d.contr.Idx), (d.rhsIdx j k 0).val = (k ⟨0, by omega⟩).val)
    (hr1 : ∀ (j : (⟨2, ![n, m]⟩ : Shape).Idx) (k : d.contr.Idx), (d.rhsIdx j k 1).val = (j 1).val)
    (prec : Option ContractPrecision) (lhs : FVec Ideal (⟨2, ![n, K]⟩ : Shape) φ₁) (rhs : FVec Ideal (⟨2, ![K, m]⟩ : Shape) φ₂)
    (p : Fin n) (h : Fin m) :
    FloatOps.matmul d prec lhs rhs (constant (⟨2, ![n, m]⟩ : Shape) .f32 0x00000000#32) (ix2 p h)
      = ∑ k : Fin K, lhs (ix2 p k) * rhs (ix2 k h) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p h) ((contrEquiv1 d K hr hs).symm k) = ix2 p k := funext fun ax => Fin.ext (by
    match ax with
    | ⟨0, _⟩ => exact hl0 _ _
    | ⟨1, _⟩ => exact (hl1 _ _).trans hk)
  have er : d.rhsIdx (ix2 p h) ((contrEquiv1 d K hr hs).symm k) = ix2 k h := funext fun ax => Fin.ext (by
    match ax with
    | ⟨0, _⟩ => exact (hr0 _ _).trans hk
    | ⟨1, _⟩ => exact hr1 _ _)
  rw [el, er]

end Idealize.ShloMosaic.Keepdims

end
-- ==== Proof.AggRead.lean ====
/-
  The kernel program's neighbour sums and stored reciprocal degrees read at an entry, when every source word names a node: the in-range mask of the row take is then all ones, the take is the plain gather, and the scatter-add is a sum over the edges whose destination word reads the node.
-/
import proofs.«419730_j49735721288419_2_alg».proof.Proof.KDefs
import proofs.«419730_j49735721288419_2_alg».proof.Proof.Spec
import proofs.«419730_j49735721288419_2_alg».proof.Proof.LibScatter
import proofs.«419730_j49735721288419_2_alg».proof.Proof.LibTakeRows
import proofs.«419730_j49735721288419_2_alg».proof.Proof.LibKeepdims
import Idealize.ShloMosaic.Lib.ValueIdx
import Idealize.ShloMosaic.Lib.ValueIdxRank1
import Idealize.ShloMosaic.Lib.Pipeline.Value
import Idealize.ShloMosaic.Lib.StableHlo.Predicate
import Idealize.ShloMosaic.Lib.Affine
import Idealize.ShloMosaic.PureOps.Reduce
import Idealize.ShloMosaic.PureOps.Ideal.Laws

set_option maxRecDepth 16384

noncomputable section

open scoped BigOperators

namespace Cert.KernelIdeal.AggRead

open Idealize.ShloMosaic Idealize.ShloMosaic.TcCoe Idealize.ShloMosaic.ValueIdx
open Cert.KernelIdeal Cert.KernelIdeal.Facts₀ Cert.KernelIdeal.Facts

variable (EI : IVec S2x500000 32)

/-- A left fold by "and" over one-bit words that are all 1, started at 1, ends at 1. -/
theorem foldl_andi_all_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_all_one f l (fun n hn => h n (List.mem_cons_of_mem _ hn))

/-- A reduction by "and" of a mask that is 1 everywhere, from the initial value 1, is 1 everywhere. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_all_one x _ (fun n _ => hx n)

/-- A word that is not negative is kept by the wrap. -/
theorem srcWrapped_apply (hsrc : ∀ e : Fin 500000, 0 ≤ (KDefs.srcWord EI (ix1 e)).toInt ∧ (KDefs.srcWord EI (ix1 e)).toInt < 50000)
    (e : Fin 500000) : KDefs.srcWrapped EI (ix1 e) = KDefs.srcWord EI (ix1 e) := by
  unfold KDefs.srcWrapped
  rw [select_apply]
  have hc : cmpi .slt (KDefs.srcWord EI) (broadcastInDim S500000 ![] bcast_S_S500000 (constantI S_ 32 0#32)) (ix1 e) = 0#1 := by
    apply eq_zero_of_ne_one
    show ¬ IntOp.cmpi .slt (KDefs.srcWord EI (ix1 e)) 0#32 = 1#1
    rw [IntOp.cmpi_slt]
    have := (hsrc e).1
    simp only [BitVec.toInt_zero]
    omega
  rw [hc, select_zero]

/-- The source column at edge e reads the source word of e. -/
theorem srcCol_apply (hsrc : ∀ e : Fin 500000, 0 ≤ (KDefs.srcWord EI (ix1 e)).toInt ∧ (KDefs.srcWord EI (ix1 e)).toInt < 50000)
    (e : Fin 500000) : KDefs.srcCol EI (ix2 e (0 : Fin 1)) = KDefs.srcWord EI (ix1 e) := by
  unfold KDefs.srcCol
  rw [broadcastInDim_apply _ _ _ _ (ix1 e) (fun a => by match a with | ⟨0, _⟩ => rfl)]
  exact srcWrapped_apply EI hsrc e

/-- Every edge's wrapped source word is a row of the table: the mask is 1. -/
theorem inRange_one (hsrc : ∀ e : Fin 500000, 0 ≤ (KDefs.srcWord EI (ix1 e)).toInt ∧ (KDefs.srcWord EI (ix1 e)).toInt < 50000)
    (e : Fin 500000) : KDefs.inRange EI (ix1 e) = 1#1 := by
  unfold KDefs.inRange
  refine reduce_andi_one _ _ _ _ _ rfl (fun i => ?_)
  rw [eq_ix2 i]
  have h1 : i 1 = (0 : Fin 1) := Fin.ext (Nat.lt_one_iff.mp (idx2_lt1 i))
  rw [h1]
  show IntOp.andi (IntOp.cmpi .sge (KDefs.srcCol EI (ix2 (i 0) 0)) 0#32) (IntOp.cmpi .sle (KDefs.srcCol EI (ix2 (i 0) 0)) 49999#32) = 1#1
  rw [srcCol_apply EI hsrc (i 0), IntOp.andi_eq_one, IntOp.cmpi_sge, IntOp.cmpi_sle]
  have := hsrc (i 0)
  have h0 : (0#32).toInt = 0 := by decide
  have h9 : (49999#32).toInt = 49999 := by decide
  rw [h0, h9]
  omega

/-- The printed dimension records are the row take's and the row scatter's. -/
theorem ga256_eq : gather_S50000x256_S500000x1_S500000x256_1_0_n_n_0_1_1256
    = Cert.LibTakeRows.rowDims 50000 256 500000 gather_S50000x256_S500000x1_S500000x256_1_0_n_n_0_1_1256.wf := rfl
theorem ga128_eq : gather_S50000x128_S500000x1_S500000x128_1_0_n_n_0_1_1128
    = Cert.LibTakeRows.rowDims 50000 128 500000 gather_S50000x128_S500000x1_S500000x128_1_0_n_n_0_1_1128.wf := rfl
theorem sc256_eq : scatter_S50000x256_S500000x1_S500000x256_1_0_0_1
    = Cert.LibScatter.rowDims 50000 500000 256 scatter_S50000x256_S500000x1_S500000x256_1_0_0_1.wf := rfl
theorem sc128_eq : scatter_S50000x128_S500000x1_S500000x128_1_0_0_1
    = Cert.LibScatter.rowDims 50000 500000 128 scatter_S50000x128_S500000x1_S500000x128_1_0_0_1.wf := rfl

/-- THE MASKED ROW TAKE, any column count C: with the mask all ones it is the plain row take, the source node's row. -/
theorem take_apply {C : Nat}
    (hsrc : ∀ e : Fin 500000, 0 ≤ (KDefs.srcWord EI (ix1 e)).toInt ∧ (KDefs.srcWord EI (ix1 e)).toInt < 50000)
    (wf : GatherDims.WF ⟨2, ![50000, C]⟩ ⟨2, ![500000, 1]⟩ ⟨2, ![500000, C]⟩ [1] [0] [] [0] [] 1 ![1, C])
    (hb : S500000.BroadcastsInDim (⟨2, ![500000, C]⟩ : Shape) ![0])
    (hj : S_.BroadcastsInDim (⟨2, ![500000, C]⟩ : Shape) ![])
    (feat : FVec Ideal (⟨2, ![50000, C]⟩ : Shape) .f32) (e : Fin 500000) (k : Fin C) :
    select (broadcastInDim (⟨2, ![500000, C]⟩ : Shape) ![0] hb (KDefs.inRange EI))
      (Host.gather (Cert.LibTakeRows.rowDims 50000 C 500000 wf) feat (KDefs.srcCol EI))
      (broadcastInDim (⟨2, ![500000, C]⟩ : Shape) ![] hj (constant S_ .f32 0x7FC00000#32)) (ix2 e k)
      = feat (ix2 (Cert.Sage.srcRow (KDefs.srcCol EI) e) k) := by
  rw [select_apply,
    broadcastInDim_apply _ hb (KDefs.inRange EI) (ix2 e k) (ix1 e) (fun a => by match a with | ⟨0, _⟩ => rfl),
    inRange_one EI hsrc e, select_one, Cert.LibTakeRows.gather_rows_apply (by decide)]
  rfl

/-- THE ROW SCATTER-ADD OF THE TAKEN ROWS INTO ZEROS, any column count C: the neighbour sum. -/
theorem agg_apply {C : Nat}
    (hsrc : ∀ e : Fin 500000, 0 ≤ (KDefs.srcWord EI (ix1 e)).toInt ∧ (KDefs.srcWord EI (ix1 e)).toInt < 50000)
    (wfs : ScatterDims.WF ⟨2, ![50000, C]⟩ ⟨2, ![500000, 1]⟩ ⟨2, ![500000, C]⟩ [1] [0] [0] 1)
    (hz : S_.BroadcastsInDim (⟨2, ![50000, C]⟩ : Shape) ![])
    (feat : FVec Ideal (⟨2, ![50000, C]⟩ : Shape) .f32) (take : FVec Ideal (⟨2, ![500000, C]⟩ : Shape) .f32)
    (htake : ∀ (e : Fin 500000) (k : Fin C), take (ix2 e k) = feat (ix2 (Cert.Sage.srcRow (KDefs.srcCol EI) e) k))
    (n : Fin 50000) (k : Fin C) :
    Host.scatterAdd (Cert.LibScatter.rowDims 50000 500000 C wfs)
        (broadcastInDim (⟨2, ![50000, C]⟩ : Shape) ![] hz (constant S_ .f32 0x00000000#32)) (KDefs.dstCol EI) take (ix2 n k)
      = Cert.Sage.aggr (KDefs.dstCol EI) (KDefs.srcCol EI) (fun n k => feat (ix2 n k)) n k := by
  rw [Cert.LibScatter.rowDims_scatterAdd_apply]
  have hzero : broadcastInDim (⟨2, ![50000, C]⟩ : Shape) ![] hz (constant (F := Ideal) S_ .f32 0x00000000#32) (ix2 n k) = 0 :=
    Ideal.ofBits_zero_f32
  rw [hzero, zero_add]
  unfold Cert.Sage.aggr
  refine Finset.sum_congr rfl fun e _ => ?_
  rw [htake e k]

/-- THE NEIGHBOUR SUM (256 columns) at node n, column k. -/
theorem agg256_apply (hsrc : ∀ e : Fin 500000, 0 ≤ (KDefs.srcWord EI (ix1 e)).toInt ∧ (KDefs.srcWord EI (ix1 e)).toInt < 50000)
    (feat : FVec Ideal S50000x256 .f32) (n : Fin 50000) (k : Fin 256) :
    KDefs.agg256 EI feat (ix2 n k)
      = Cert.Sage.aggr (KDefs.dstCol EI) (KDefs.srcCol EI) (fun n k => feat (ix2 n k)) n k := by
  unfold KDefs.agg256
  rw [sc256_eq]
  refine agg_apply EI hsrc _ _ feat _ (fun e c => ?_) n k
  unfold KDefs.take256
  rw [ga256_eq]
  exact take_apply EI hsrc _ _ _ feat e c

/-- THE NEIGHBOUR SUM (128 columns) at node n, column o. -/
theorem agg128_apply (hsrc : ∀ e : Fin 500000, 0 ≤ (KDefs.srcWord EI (ix1 e)).toInt ∧ (KDefs.srcWord EI (ix1 e)).toInt < 50000)
    (feat : FVec Ideal S50000x128 .f32) (n : Fin 50000) (o : Fin 128) :
    KDefs.agg128 EI feat (ix2 n o)
      = Cert.Sage.aggr (KDefs.dstCol EI) (KDefs.srcCol EI) (fun n k => feat (ix2 n k)) n o := by
  unfold KDefs.agg128
  rw [sc128_eq]
  refine agg_apply EI hsrc _ _ feat _ (fun e c => ?_) n o
  unfold KDefs.take128
  rw [ga128_eq]
  exact take_apply EI hsrc _ _ _ feat e c

/-- The host's division, pointwise at the ideal values. -/
theorem host_divf_apply {s : Shape} {φ : FTy} (a b : FVec Ideal s φ) (i : s.Idx) : Host.divf a b i = Ideal.div (a i) (b i) := rfl

/-- The splat of the word 0x3F800000 reads the float 1 everywhere. -/
theorem one_splat_apply (i : S50000.Idx) :
    broadcastInDim S50000 ![] bcast_S_S50000 (constant (F := Ideal) S_ .f32 0x3F800000#32) i = Cert.Sage.one := rfl

/-- The stored reciprocal at node n is the float 1 divided by the clamped degree. -/
theorem invDegree_apply (n : Fin 50000) :
    KDefs.invDegree EI (ix2 n (0 : Fin 1)) = Ideal.div Cert.Sage.one (KDefs.degree EI (ix1 n)) := by
  unfold KDefs.invDegree
  rw [Idealize.ShloMosaic.Keepdims.shapeCast_a_a1_apply, host_divf_apply, one_splat_apply]

/-- The clamped degree is at least one. -/
theorem one_le_degree (n : Fin 50000) : Cert.Sage.one ≤ KDefs.degree EI (ix1 n) := by
  unfold KDefs.degree
  rw [maximumf_apply, one_splat_apply]
  exact le_max_right _ _

end Cert.KernelIdeal.AggRead

end
-- ==== Proof.PreFacts.lean ====
/-
  What the precondition says of the inputs: every source word of the edge list names a node, and every entry of the last layer's first matrix is a real number.
-/
import proofs.«419730_j49735721288419_2_alg».proof.Proof.Gen.KernelIdeal
import proofs.«419730_j49735721288419_2_alg».proof.Proof.Gen.Pre_finite_inputs
import proofs.«419730_j49735721288419_2_alg».proof.Defs
import proofs.«419730_j49735721288419_2_alg».proof.Proof.KDefs
import Idealize.ShloMosaic.Lib.ValueIdx
import Idealize.ShloMosaic.Lib.ValueIdxRank1
import Idealize.ShloMosaic.Lib.ReduceAll
import Idealize.ShloMosaic.Lib.StableHlo.Predicate
import Idealize.ShloMosaic.PureOps.Ideal.Laws

set_option maxRecDepth 16384

noncomputable section

open scoped BigOperators

namespace Cert.KernelIdeal.PreFacts

open Idealize.ShloMosaic Idealize.ShloMosaic.TcCoe Idealize.ShloMosaic.ValueIdx Idealize.SL.Sem
open Cert.KernelIdeal

/-- The rank-0 shape has one index. -/
instance subsingleton_rank0 : Subsingleton Cert.Pre_finite_inputs.S_.Idx := ⟨fun a b => funext fun d => d.elim0⟩

/-- A conjunction of two one-bit words that reads 1 has both conjuncts 1. -/
theorem both_of_and (a b : IVec Cert.Pre_finite_inputs.S_ 1) (h : andi a b ix0 = 1#1) : a ix0 = 1#1 ∧ b ix0 = 1#1 :=
  IntOp.andi_eq_one.1 h

/-- The word of positive infinity is the top of the extended reals. -/
theorem inf_word : Ideal.ofBits .f32 0x7F800000#32 = ⊤ := by simp [Ideal.ofBits, Ideal.ieee]

/-- An extended real whose absolute value is below the top is a real number. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

variable (m : (ℓ : Loc nD τ sig) → Buf (Elt Ideal) ℓ)

/-- Under the precondition every source word (row 0 of the edge list) is a node number: 0 ≤ word < 50000, read signed. -/
theorem src_in_range (hpre : Cert.Pre_KernelIdeal m) (c : Dev nD) (e : Fin 500000) :
    0 ≤ (KDefs.srcWord (m ((c.tc : Thread nD τ).loc main_arg1)) (ix1 e)).toInt
      ∧ (KDefs.srcWord (m ((c.tc : Thread nD τ).loc main_arg1)) (ix1 e)).toInt < 50000 := by
  have e0 := congrFun (hpre c) ix0
  obtain ⟨e64, e69⟩ := both_of_and _ _ e0
  obtain ⟨e58, e63⟩ := both_of_and _ _ e64
  have hlt := Host.reduce_andi_all _ _ _ _ ix0 e69 (ix1 e)
  have hge := Host.reduce_andi_all _ _ _ _ ix0 e63 (ix1 e)
  have h1 : (KDefs.srcWord (m ((c.tc : Thread nD τ).loc main_arg1)) (ix1 e)).toInt < (50000#32 : BitVec 32).toInt :=
    IntOp.cmpi_slt.1 hlt
  have h0 : (0#32 : BitVec 32).toInt ≤ (KDefs.srcWord (m ((c.tc : Thread nD τ).loc main_arg1)) (ix1 e)).toInt :=
    IntOp.cmpi_sge.1 hge
  have c1 : (50000#32 : BitVec 32).toInt = 50000 := by decide
  have c0 : (0#32 : BitVec 32).toInt = 0 := by decide
  rw [c1] at h1
  rw [c0] at h0
  exact ⟨h0, h1⟩

/-- Under the precondition the matrix that projects the summed rows in the last layer has real entries. -/
theorem w3l_real (hpre : Cert.Pre_KernelIdeal m) (c : Dev nD) :
    ∃ w : Fin 128 → Fin 256 → ℝ, ∀ (o : Fin 128) (k : Fin 256),
      (m ((c.tc : Thread nD τ).loc main_arg10) : FVec Ideal S128x256 .f32) (ix2 o k) = (w o k : EReal) := by
  have e0 := congrFun (hpre c) ix0
  obtain ⟨e64, e69⟩ := both_of_and _ _ e0
  obtain ⟨e58, e63⟩ := both_of_and _ _ e64
  obtain ⟨e53, e57⟩ := both_of_and _ _ e58
  obtain ⟨e48, e52⟩ := both_of_and _ _ e53
  obtain ⟨e43, e47⟩ := both_of_and _ _ e48
  have hel : ∀ (o : Fin 128) (k : Fin 256), ∃ r : ℝ,
      (m ((c.tc : Thread nD τ).loc main_arg10) : FVec Ideal S128x256 .f32) (ix2 o k) = (r : EReal) := fun o k => by
    have h1 := Host.reduce_andi_all _ _ _ _ ix0 e47 (ix2 o k)
    let W : FVec Ideal S128x256 .f32 := m ((c.tc : Thread nD τ).loc main_arg10)
    let x : EReal := W (ix2 o k)
    have h2 : Ideal.cmp .olt (max x (-x)) (Ideal.ofBits .f32 0x7F800000#32) = 1#1 := h1
    rw [inf_word] at h2
    exact real_of_abs_lt_top x h2
  choose w hw using hel
  exact ⟨w, hw⟩

end Cert.KernelIdeal.PreFacts

end
-- ==== Proof.RefValue.lean ====
/-
  The reference program, stage by stage: the array after each of its three layers, entry by entry, is the dividing form of the layer applied to the array before it.
-/
import proofs.«419730_j49735721288419_2_alg».proof.Proof.Gen.ReferenceIdeal.Read
import proofs.«419730_j49735721288419_2_alg».proof.Proof.Spec
import proofs.«419730_j49735721288419_2_alg».proof.Proof.LibScatter
import proofs.«419730_j49735721288419_2_alg».proof.Proof.LibTakeRows
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx
open Cert.ReferenceIdeal Cert.ReferenceIdeal.Read

variable (x0 : FVec Ideal S50000x256 .f32) (x1 : IVec S2x500000 32) (x2 x3 : FVec Ideal S50000x256 .f32)
  (x4 : FVec Ideal S256x256 .f32) (x5 : FVec Ideal S256 .f32) (x6 x7 : FVec Ideal S256x256 .f32) (x8 : FVec Ideal S256 .f32)
  (x9 : FVec Ideal S256x256 .f32) (x10 : FVec Ideal S128x256 .f32) (x11 : FVec Ideal S128 .f32) (x12 : FVec Ideal S128x256 .f32)

/-- The reference's row scatter and row take carry the dimension numbers of the general row scatter-add and row take. -/
theorem sc_eq : scatter_S50000x256_S500000x1_S500000x256_1_0_0_1
    = Cert.LibScatter.rowDims 50000 500000 256 Facts₀.scatter_S50000x256_S500000x1_S500000x256_1_0_0_1_wf := rfl

theorem ga_eq : gather_S50000x256_S500000x1_S500000x256_1_0_n_n_0_1_1256
    = Cert.LibTakeRows.rowDims 50000 256 500000 Facts₀.gather_S50000x256_S500000x1_S500000x256_1_0_n_n_0_1_1256_wf := rfl

/-! Index identities: at an entry (n, j) the contraction over k reads the left factor at (n, k) and the transposed
    right factor at (k, j), that is the weight at (j, k); a spread row or column reads its one coordinate. -/

theorem lidx24_eq (n : Fin 50000) (j k : Fin 256) : lidx_main_v24 (ix2 n j) k = ix2 n k :=
  funext fun a => Fin.ext (by match a with | ⟨0, _⟩ => rfl | ⟨1, _⟩ => rfl)
theorem ridx24_eq (n : Fin 50000) (j k : Fin 256) : ridx_main_v24 (ix2 n j) k = ix2 k j :=
  funext fun a => Fin.ext (by match a with | ⟨0, _⟩ => rfl | ⟨1, _⟩ => rfl)
theorem idx23_eq (k j : Fin 256) : idx_main_v23 (ix2 k j) = ix2 j k :=
  funext fun a => Fin.ext (by match a with | ⟨0, _⟩ => rfl | ⟨1, _⟩ => rfl)
theorem idx21_eq (n : Fin 50000) (k : Fin 256) : idx_main_v21 (ix2 n k) = ix2 n (0 : Fin 1) :=
  funext fun a => Fin.ext (by match a with | ⟨0, _⟩ => rfl | ⟨1, _⟩ => rfl)
theorem idx20_eq (n : Fin 50000) : idx_main_v20 (ix2 n (0 : Fin 1)) = ix1 n :=
  funext fun a => Fin.ext (by match a with | ⟨0, _⟩ => rfl)
theorem idx26_eq (n : Fin 50000) (j : Fin 256) : idx_main_v26 (ix2 n j) = ix2 (0 : Fin 1) j :=
  funext fun a => Fin.ext (by match a with | ⟨0, _⟩ => rfl | ⟨1, _⟩ => rfl)
theorem idx25_eq (j : Fin 256) : idx_main_v25 (ix2 (0 : Fin 1) j) = ix1 j :=
  funext fun a => Fin.ext (by match a with | ⟨0, _⟩ => rfl)

/-- The clamped degree, spread along a row, read at an entry. -/
theorem deg21 (n : Fin 50000) (k : Fin 256) :
    val_main_v21 (F := Ideal) x1 (ix2 n k) = val_main_v19 (F := Ideal) x1 (ix1 n) := by
  rw [val_main_v21_apply, idx21_eq, val_main_v20_apply, idx20_eq]

/-- The bias, spread along a column, read at an entry. -/
theorem bias26 (b : FVec Ideal S256 .f32) (n : Fin 50000) (j : Fin 256) :
    val_main_v26 (F := Ideal) b (ix2 n j) = b (ix1 j) := by
  rw [val_main_v26_apply, idx26_eq, val_main_v25_apply, idx25_eq]

/-- The neighbour sum the reference forms: scatter-add, into zeros, of the gathered rows. -/
theorem agg13 (n : Fin 50000) (k : Fin 256) :
    val_main_v13 (F := Ideal) x0 x1 (ix2 n k)
      = Cert.Sage.aggr (val_main_v12 (F := Ideal) x1) (val_main_v9 (F := Ideal) x1) (fun n k => x0 (ix2 n k)) n k := by
  unfold val_main_v13 val_main_v10
  rw [sc_eq, Cert.LibScatter.rowDims_scatterAdd_apply, val_main_v11_apply, val_main_cst_apply, Ideal.ofBits_def,
    Ideal.ofBits_zero_f32, zero_add]
  unfold Cert.Sage.aggr
  refine Finset.sum_congr rfl fun e _ => ?_
  rw [ga_eq, Cert.LibTakeRows.gather_rows_apply (by decide)]
  rfl

/-- The product of the mean rows with the transposed first weight, at an entry: a sum over the 256 columns. -/
theorem dot24 (n : Fin 50000) (j : Fin 256) :
    val_main_v24 (F := Ideal) x0 x1 x4 (ix2 n j)
      = ∑ k : Fin 256, val_main_v22 (F := Ideal) x0 x1 (ix2 n k) * x4 (ix2 j k) := by
  rw [val_main_v24_apply]
  refine Finset.sum_congr rfl fun k _ => ?_
  rw [lidx24_eq, ridx24_eq, val_main_v23_apply, idx23_eq]

theorem lidx29_eq (n : Fin 50000) (j k : Fin 256) : lidx_main_v29 (ix2 n j) k = ix2 n k :=
  funext fun a => Fin.ext (by match a with | ⟨0, _⟩ => rfl | ⟨1, _⟩ => rfl)
theorem ridx29_eq (n : Fin 50000) (j k : Fin 256) : ridx_main_v29 (ix2 n j) k = ix2 k j :=
  funext fun a => Fin.ext (by match a with | ⟨0, _⟩ => rfl | ⟨1, _⟩ => rfl)
theorem idx28_eq (k j : Fin 256) : idx_main_v28 (ix2 k j) = ix2 j k :=
  funext fun a => Fin.ext (by match a with | ⟨0, _⟩ => rfl | ⟨1, _⟩ => rfl)

/-- The product of a table with the transposed second weight, at an entry. -/
theorem dot29 (n : Fin 50000) (j : Fin 256) :
    val_main_v29 (F := Ideal) x0 x6 (ix2 n j) = ∑ k : Fin 256, x0 (ix2 n k) * x6 (ix2 j k) := by
  rw [val_main_v29_apply]
  refine Finset.sum_congr rfl fun k _ => ?_
  rw [lidx29_eq, ridx29_eq, val_main_v28_apply, idx28_eq]

/-- The column of destination words the scatters are handed, the column of (wrapped) source words the gathers are
    handed, and each node's in-degree clamped below at one: all three are functions of the edge list alone. -/
abbrev dstCol : Cert.Sage.EdgeCol := val_main_v12 (F := Ideal) x1
abbrev srcCol : Cert.Sage.EdgeCol := val_main_v9 (F := Ideal) x1
abbrev deg : Fin 50000 → EReal := fun n => val_main_v19 (F := Ideal) x1 (ix1 n)

/-- The rows after the first layer. -/
def h1 : Cert.Sage.Tab 256 :=
  Cert.Sage.layerDiv (Cert.Sage.aggr (dstCol x1) (srcCol x1) (fun n k => x0 (ix2 n k))) (deg x1)
    (fun n k => x0 (ix2 n k)) (fun j k => x4 (ix2 j k)) (fun j k => x6 (ix2 j k)) (fun j => x5 (ix1 j)) (fun n k => x2 (ix2 n k))

/-- The rows after the second layer. -/
def h2 : Cert.Sage.Tab 256 :=
  Cert.Sage.layerDiv (Cert.Sage.aggr (dstCol x1) (srcCol x1) (h1 x0 x1 x2 x4 x5 x6)) (deg x1)
    (h1 x0 x1 x2 x4 x5 x6) (fun j k => x7 (ix2 j k)) (fun j k => x9 (ix2 j k)) (fun j => x8 (ix1 j)) (fun n k => x3 (ix2 n k))

/-- The result. -/
def out : Cert.Sage.Tab 128 :=
  Cert.Sage.lastDiv (Cert.Sage.aggr (dstCol x1) (srcCol x1) (h2 x0 x1 x2 x3 x4 x5 x6 x7 x8 x9)) (deg x1)
    (h2 x0 x1 x2 x3 x4 x5 x6 x7 x8 x9) (fun o k => x10 (ix2 o k)) (fun o k => x12 (ix2 o k)) (fun o => x11 (ix1 o))

theorem ref_h1 (n : Fin 50000) (j : Fin 256) :
    val_main_v37 (F := Ideal) x0 x1 x2 x4 x5 x6 (ix2 n j) = h1 x0 x1 x2 x4 x5 x6 n j := by
  rw [val_main_v37_apply, val_main_v35_apply, val_main_v34_apply, val_main_v33_apply, val_main_v31_apply,
    val_main_v30_apply, val_main_v27_apply, dot24, dot29, bias26, val_main_v32_apply, val_main_cst_4_apply,
    val_main_v36_apply, val_main_cst_5_apply]
  simp only [val_main_v22_apply, agg13, deg21]
  unfold h1 Cert.Sage.layerDiv Cert.Sage.keep Cert.Sage.keepProb
  simp only [Ideal.hostDivf_def, Ideal.hostUnary_tanh_def, Ideal.mulf_def, Ideal.addf_def, Ideal.cmpf_def, Ideal.ofBits_def]
  rfl

/-- The second layer is the first layer's operations applied to the first layer's rows, with the second mask, weights and bias. -/
theorem v71_eq : val_main_v71 (F := Ideal) x0 x1 x2 x3 x4 x5 x6 x7 x8 x9
    = val_main_v37 (F := Ideal) (val_main_v37 (F := Ideal) x0 x1 x2 x4 x5 x6) x1 x3 x7 x8 x9 := rfl

theorem tab1_eq : (fun n k => val_main_v37 (F := Ideal) x0 x1 x2 x4 x5 x6 (ix2 n k)) = h1 x0 x1 x2 x4 x5 x6 :=
  funext fun n => funext fun k => ref_h1 x0 x1 x2 x4 x5 x6 n k

theorem ref_h2 (n : Fin 50000) (j : Fin 256) :
    val_main_v71 (F := Ideal) x0 x1 x2 x3 x4 x5 x6 x7 x8 x9 (ix2 n j) = h2 x0 x1 x2 x3 x4 x5 x6 x7 x8 x9 n j := by
  rw [v71_eq, ref_h1]
  unfold h2
  rw [← tab1_eq x0 x1 x2 x4 x5 x6]
  rfl

/-- The third layer's mean rows are the mean-row operations applied to the second layer's rows. -/
theorem v90_eq : val_main_v90 (F := Ideal) x0 x1 x2 x3 x4 x5 x6 x7 x8 x9
    = val_main_v22 (F := Ideal) (val_main_v71 (F := Ideal) x0 x1 x2 x3 x4 x5 x6 x7 x8 x9) x1 := rfl

theorem lidx92_eq (n : Fin 50000) (o : Fin 128) (k : Fin 256) : lidx_main_v92 (ix2 n o) k = ix2 n k :=
  funext fun a => Fin.ext (by match a with | ⟨0, _⟩ => rfl | ⟨1, _⟩ => rfl)
theorem ridx92_eq (n : Fin 50000) (o : Fin 128) (k : Fin 256) : ridx_main_v92 (ix2 n o) k = ix2 k o :=
  funext fun a => Fin.ext (by match a with | ⟨0, _⟩ => rfl | ⟨1, _⟩ => rfl)
theorem idx91_eq (k : Fin 256) (o : Fin 128) : idx_main_v91 (ix2 k o) = ix2 o k :=
  funext fun a => Fin.ext (by match a with | ⟨0, _⟩ => rfl | ⟨1, _⟩ => rfl)
theorem lidx97_eq (n : Fin 50000) (o : Fin 128) (k : Fin 256) : lidx_main_v97 (ix2 n o) k = ix2 n k :=
  funext fun a => Fin.ext (by match a with | ⟨0, _⟩ => rfl | ⟨1, _⟩ => rfl)
theorem ridx97_eq (n : Fin 50000) (o : Fin 128) (k : Fin 256) : ridx_main_v97 (ix2 n o) k = ix2 k o :=
  funext fun a => Fin.ext (by match a with | ⟨0, _⟩ => rfl | ⟨1, _⟩ => rfl)
theorem idx96_eq (k : Fin 256) (o : Fin 128) : idx_main_v96 (ix2 k o) = ix2 o k :=
  funext fun a => Fin.ext (by match a with | ⟨0, _⟩ => rfl | ⟨1, _⟩ => rfl)
theorem idx94_eq (n : Fin 50000) (o : Fin 128) : idx_main_v94 (ix2 n o) = ix2 (0 : Fin 1) o :=
  funext fun a => Fin.ext (by match a with | ⟨0, _⟩ => rfl | ⟨1, _⟩ => rfl)
theorem idx93_eq (o : Fin 128) : idx_main_v93 (ix2 (0 : Fin 1) o) = ix1 o :=
  funext fun a => Fin.ext (by match a with | ⟨0, _⟩ => rfl)

/-- The last bias, spread along a column, read at an entry. -/
theorem bias94 (b : FVec Ideal S128 .f32) (n : Fin 50000) (o : Fin 128) :
    val_main_v94 (F := Ideal) b (ix2 n o) = b (ix1 o) := by
  rw [val_main_v94_apply, idx94_eq, val_main_v93_apply, idx93_eq]

/-- The two products of the last layer (128 output columns), at an entry. -/
theorem dot92 (n : Fin 50000) (o : Fin 128) :
    val_main_v92 (F := Ideal) x0 x1 x2 x3 x4 x5 x6 x7 x8 x9 x10 (ix2 n o)
      = ∑ k : Fin 256, val_main_v22 (F := Ideal) (val_main_v71 (F := Ideal) x0 x1 x2 x3 x4 x5 x6 x7 x8 x9) x1 (ix2 n k)
          * x10 (ix2 o k) := by
  rw [val_main_v92_apply]
  refine Finset.sum_congr rfl fun k _ => ?_
  rw [lidx92_eq, ridx92_eq, val_main_v91_apply, idx91_eq, v90_eq]

theorem dot97 (n : Fin 50000) (o : Fin 128) :
    val_main_v97 (F := Ideal) x0 x1 x2 x3 x4 x5 x6 x7 x8 x9 x12 (ix2 n o)
      = ∑ k : Fin 256, val_main_v71 (F := Ideal) x0 x1 x2 x3 x4 x5 x6 x7 x8 x9 (ix2 n k) * x12 (ix2 o k) := by
  rw [val_main_v97_apply]
  refine Finset.sum_congr rfl fun k _ => ?_
  rw [lidx97_eq, ridx97_eq, val_main_v96_apply, idx96_eq]

theorem tab2_eq : (fun n k => val_main_v71 (F := Ideal) x0 x1 x2 x3 x4 x5 x6 x7 x8 x9 (ix2 n k))
    = h2 x0 x1 x2 x3 x4 x5 x6 x7 x8 x9 :=
  funext fun n => funext fun k => ref_h2 x0 x1 x2 x3 x4 x5 x6 x7 x8 x9 n k

theorem ref_out (n : Fin 50000) (o : Fin 128) :
    val_main_v99 (F := Ideal) x0 x1 x2 x3 x4 x5 x6 x7 x8 x9 x10 x11 x12 (ix2 n o)
      = out x0 x1 x2 x3 x4 x5 x6 x7 x8 x9 x10 x11 x12 n o := by
  rw [val_main_v99_apply, val_main_v98_apply, val_main_v95_apply, dot92, dot97, bias94]
  simp only [val_main_v22_apply, agg13, deg21, tab2_eq, ref_h2]
  unfold out Cert.Sage.lastDiv
  simp only [Ideal.hostDivf_def, Ideal.hostUnary_tanh_def, Ideal.addf_def]

/-- Each node's clamped in-degree is at least one (it is a maximum with the float 1). -/
theorem one_le_deg (n : Fin 50000) : Cert.Sage.one ≤ deg x1 n := by
  show Cert.Sage.one ≤ val_main_v19 (F := Ideal) x1 (ix1 n)
  rw [val_main_v19_apply, Ideal.maximumf_def, val_main_v18_apply, val_main_cst_3_apply]
  exact le_max_right _ _

end Cert.ReferenceIdeal.RefValue

end
-- ==== Proof.Region0.lean ====
/-
  Region 0 (the first layer's launch): the array its write-backs leave, entry by entry, is the multiplying form of a layer applied to the arrays the region finds.
-/
import proofs.«419730_j49735721288419_2_alg».proof.Proof.Gen.KernelIdeal.Frame
import proofs.«419730_j49735721288419_2_alg».proof.Proof.Spec
import proofs.«419730_j49735721288419_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region0

open Idealize.ShloMosaic Idealize.ShloMosaic.TcCoe Idealize.ShloMosaic.ValueIdx Idealize.SL.Sem
open Cert.KernelIdeal Cert.KernelIdeal.Gen

/-! ## The body's arithmetic at one entry of a block -/

/-- A one-bit word widened to 32 bits and read signed is the bit itself. -/
theorem keepBit : ∀ b : BitVec 1, (b.setWidth 32).toInt = (b.toNat : ℤ) := by decide

/-- The named reciprocal of the keep probability is the exact rational 16777216/13421773. -/
theorem invKeep_eq : Named.named (F := Ideal) Cert.KernelIdeal.κ "inv_keep" (φ := .f32) 0x3FA00000#32 = Cert.Sage.invKeepProb :=
  IdealRules.named_const.ideal_named_scalar _ _ _ _ rfl

/-- The transposed weight at (k, q) is the weight at (q, k). -/
theorem wT_apply (w : FVec Ideal S256x256 .bf16) (k q : Fin 256) :
    transpose S256x256 [1, 0] (shapeCast S256x256 w shapeCasts_S256x256_S256x256) transposes_S256x256_p1_0_S256x256 (ix2 k q)
      = w (ix2 q k) := by
  rw [shapeCast_self]
  exact transpose_apply [1, 0] w transposes_S256x256_p1_0_S256x256 (ix2 k q) (ix2 q k) (fun b => match b with
    | ⟨0, _⟩ => rfl
    | ⟨1, _⟩ => rfl)

/-- A row block times a transposed weight, from zero: at (p, q) the sum over k of a(p, k) · w(q, k). -/
theorem mm_apply (a : FVec Ideal S1000x256 .bf16) (w : FVec Ideal S256x256 .bf16) (p : Fin 1000) (q : Fin 256) :
    matmul dot_S1000x256_S256x256_S1000x256_1_0_0_1_n_n none a
        (transpose S256x256 [1, 0] (shapeCast S256x256 w shapeCasts_S256x256_S256x256) transposes_S256x256_p1_0_S256x256)
        (constant S1000x256 .f32 0x00000000#32) (ix2 p q)
      = ∑ k : Fin 256, a (ix2 p k) * w (ix2 q k) := by
  refine (Keepdims.matmul_zero_apply dot_S1000x256_S256x256_S1000x256_1_0_0_1_n_n rfl rfl (fun _ _ => rfl) (fun _ _ => rfl)
    (fun _ _ => rfl) (fun _ _ => rfl) none a _ p q).trans ?_
  exact Finset.sum_congr rfl fun k _ => congrArg (a (ix2 p k) * ·) (wT_apply w k q)

/-- The comparison with the threshold, widened and read as a number, is the keep indicator. -/
theorem keep_apply (u : EReal) :
    FloatOps.sitofp (F := Ideal) .f32 ((FloatOps.cmpf (F := Ideal) (φ := .f32) .ogt u (Scalar.ofBits (F := Ideal) .f32 0x3E4CCCCD#32)).setWidth 32)
      = Cert.Sage.keep u := by
  show (((((Ideal.cmp .ogt u (Ideal.ofBits .f32 0x3E4CCCCD#32)).setWidth 32).toInt : ℝ)) : EReal) = _
  rw [keepBit]
  rfl

/-- The neighbour sum times the stored reciprocal degree, the column spread along the row. -/
theorem mean_apply (x0 : FVec Ideal S1000x256 .f32) (x1 : FVec Ideal S1000x1 .f32) (p : Fin 1000) (k : Fin 256) :
    truncf .bf16 (mulf (shapeCast S1000x256 x0 shapeCasts_S1000x256_S1000x256)
        (broadcastTo S1000x256 (shapeCast S1000x1 x1 shapeCasts_S1000x1_S1000x1) broadcasts_S1000x1_S1000x256))
        bitsLt_bf16_f32 (ix2 p k)
      = x0 (ix2 p k) * x1 (ix2 p (0 : Fin 1)) := by
  rw [shapeCast_self, shapeCast_self]
  show x0 (ix2 p k) * broadcastTo S1000x256 x1 broadcasts_S1000x1_S1000x256 (ix2 p k) = _
  rw [Keepdims.broadcastTo_a1_ab_apply]

/-- The bias row spread down the block. -/
theorem bias_apply (x4 : FVec Ideal S1x256 .f32) (p : Fin 1000) (q : Fin 256) :
    broadcastTo S1000x256 (shapeCast S1x256 x4 shapeCasts_S1x256_S1x256) broadcasts_S1x256_S1000x256 (ix2 p q)
      = x4 (ix2 (0 : Fin 1) q) := by
  rw [shapeCast_self]
  exact broadcastTo_1b_ab_apply x4 broadcasts_S1x256_S1000x256 p q

/-- THE BODY AT ONE ENTRY: tanh of the two linear maps plus the bias, times the keep indicator, times the reciprocal keep probability. -/
theorem pay_apply (x0 : FVec Ideal S1000x256 .f32) (x1 : FVec Ideal S1000x1 .f32) (x2 : FVec Ideal S1000x256 .f32)
    (x3 : FVec Ideal S256x256 .bf16) (x5 : FVec Ideal S256x256 .bf16) (x4 : FVec Ideal S1x256 .f32) (x6 : FVec Ideal S1000x256 .f32)
    (p : Fin 1000) (q : Fin 256) :
    k0_pay1 (F := Ideal) x0 x1 x2 x3 x5 x4 x6 (ix2 p q)
      = Ideal.tanh ((∑ k : Fin 256, (x0 (ix2 p k) * x1 (ix2 p (0 : Fin 1))) * x3 (ix2 q k)
            + ∑ k : Fin 256, x2 (ix2 p k) * x5 (ix2 q k)) + x4 (ix2 (0 : Fin 1) q))
          * Cert.Sage.keep (x6 (ix2 p q)) * Cert.Sage.invKeepProb := by
  unfold k0_pay1
  refine congrArg₂ (· * ·) (congrArg₂ (· * ·) ?_ (keep_apply _)) invKeep_eq
  refine congrArg Ideal.tanh ?_
  refine congrArg₂ (· + ·) (congrArg₂ (· + ·) ?_ ?_) (bias_apply x4 p q)
  · exact (mm_apply _ x3 p q).trans (Finset.sum_congr rfl fun k _ => congrArg (· * x3 (ix2 q k)) (mean_apply x0 x1 p k))
  · exact mm_apply _ x5 p q

/-! ## From blocks to the array -/

variable (V : (c : Dev nD) → (b : Ref sig .tc) → Buf (Elt Ideal) ((c : Thread nD τ).loc b))

/-- The arrays region 0 finds, each at its literal type. -/
abbrev aSum (c : Dev nD) : FVec Ideal S50000x256 .f32 := V c main_v25
abbrev aInv (c : Dev nD) : FVec Ideal S50000x1 .f32 := V c main_v12
abbrev aX (c : Dev nD) : FVec Ideal S50000x256 .f32 := V c main_arg0
abbrev aWl (c : Dev nD) : FVec Ideal S256x256 .bf16 := V c main_v13
abbrev aB (c : Dev nD) : FVec Ideal S1x256 .f32 := V c main_v19
abbrev aWr (c : Dev nD) : FVec Ideal S256x256 .bf16 := V c main_v14
abbrev aM (c : Dev nD) : FVec Ideal S50000x256 .f32 := V c main_arg2

/-- The output array after the region, as a function on literal indices. -/
abbrev outArr (c : Dev nD) : FVec Ideal S50000x256 .f32 := (dat0 (F := Ideal) V c).arrAt 7 cfg0.N

/-- The blocks a grid point reads, each at its literal type. -/
abbrev bSum (c : Dev nD) (t : Fin cfg0.N) : FVec Ideal S1000x256 .f32 := iblk0 (F := Ideal) V c 0 t
abbrev bInv (c : Dev nD) (t : Fin cfg0.N) : FVec Ideal S1000x1 .f32 := iblk0 (F := Ideal) V c 1 t
abbrev bX (c : Dev nD) (t : Fin cfg0.N) : FVec Ideal S1000x256 .f32 := iblk0 (F := Ideal) V c 2 t
abbrev bWl (c : Dev nD) (t : Fin cfg0.N) : FVec Ideal S256x256 .bf16 := iblk0 (F := Ideal) V c 3 t
abbrev bB (c : Dev nD) (t : Fin cfg0.N) : FVec Ideal S1x256 .f32 := iblk0 (F := Ideal) V c 4 t
abbrev bWr (c : Dev nD) (t : Fin cfg0.N) : FVec Ideal S256x256 .bf16 := iblk0 (F := Ideal) V c 5 t
abbrev bM (c : Dev nD) (t : Fin cfg0.N) : FVec Ideal S1000x256 .f32 := iblk0 (F := Ideal) V c 6 t

/-- The origin, spelt both ways. -/
theorem hz : (![0, 0] : Fin 2 → Nat) = fun _ => 0 := funext fun a => by
  match a with
  | ⟨0, _⟩ => rfl
  | ⟨1, _⟩ => rfl

/-- The block index maps over the grid: the row-blocked windows sit at block row t, the weights and the bias at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Each block read at an entry is its array read at the entry the block's position gives: row 1000·t + p for the row-blocked arrays, the same entry for the weights and the bias. -/
theorem bSum_apply (c : Dev nD) (t : Fin cfg0.N) (p : Fin 1000) (k : Fin 256) (n : Fin 50000)
    (hn : n.val = 1000 * t.val + p.val) : bSum V c t (ix2 p k) = aSum V c (ix2 n k) := by
  obtain ⟨e0, e1, -⟩ := idx_facts t
  show V c main_v25 (((cfg0.win 0).blk t).view.emb (ix2 p k)) = V c main_v25 (ix2 n k)
  refine congrArg (V c main_v25) (funext fun a => Fin.ext ?_)
  match a with
  | ⟨0, _⟩ => show win0_0.index t (0 : Fin 2) * 1000 + 1 * p.val = n.val; omega
  | ⟨1, _⟩ => show win0_0.index t (1 : Fin 2) * 256 + 1 * k.val = k.val; omega

theorem bInv_apply (c : Dev nD) (t : Fin cfg0.N) (p : Fin 1000) (n : Fin 50000)
    (hn : n.val = 1000 * t.val + p.val) : bInv V c t (ix2 p (0 : Fin 1)) = aInv V c (ix2 n (0 : Fin 1)) := by
  obtain ⟨-, -, e0, e1, -⟩ := idx_facts t
  show V c main_v12 (((cfg0.win 1).blk t).view.emb (ix2 p (0 : Fin 1))) = V c main_v12 (ix2 n (0 : Fin 1))
  refine congrArg (V c main_v12) (funext fun a => Fin.ext ?_)
  match a with
  | ⟨0, _⟩ => show win0_1.index t (0 : Fin 2) * 1000 + 1 * p.val = n.val; omega
  | ⟨1, _⟩ => show win0_1.index t (1 : Fin 2) * 1 + 1 * 0 = 0; omega

theorem bX_apply (c : Dev nD) (t : Fin cfg0.N) (p : Fin 1000) (k : Fin 256) (n : Fin 50000)
    (hn : n.val = 1000 * t.val + p.val) : bX V c t (ix2 p k) = aX V c (ix2 n k) := by
  obtain ⟨-, -, -, -, e0, e1, -⟩ := idx_facts t
  show V c main_arg0 (((cfg0.win 2).blk t).view.emb (ix2 p k)) = V c main_arg0 (ix2 n k)
  refine congrArg (V c main_arg0) (funext fun a => Fin.ext ?_)
  match a with
  | ⟨0, _⟩ => show win0_2.index t (0 : Fin 2) * 1000 + 1 * p.val = n.val; omega
  | ⟨1, _⟩ => show win0_2.index t (1 : Fin 2) * 256 + 1 * k.val = k.val; omega

theorem bWl_apply (c : Dev nD) (t : Fin cfg0.N) (q k : Fin 256) : bWl V c t (ix2 q k) = aWl V c (ix2 q k) := by
  obtain ⟨-, -, -, -, -, -, e0, e1, -⟩ := idx_facts t
  show V c main_v13 (((cfg0.win 3).blk t).view.emb (ix2 q k)) = V c main_v13 (ix2 q k)
  refine congrArg (V c main_v13) (funext fun a => Fin.ext ?_)
  match a with
  | ⟨0, _⟩ => show win0_3.index t (0 : Fin 2) * 256 + 1 * q.val = q.val; omega
  | ⟨1, _⟩ => show win0_3.index t (1 : Fin 2) * 256 + 1 * k.val = k.val; omega

theorem bB_apply (c : Dev nD) (t : Fin cfg0.N) (q : Fin 256) : bB V c t (ix2 (0 : Fin 1) q) = aB V c (ix2 (0 : Fin 1) q) := by
  obtain ⟨-, -, -, -, -, -, -, -, e0, e1, -⟩ := idx_facts t
  show V c main_v19 (((cfg0.win 4).blk t).view.emb (ix2 (0 : Fin 1) q)) = V c main_v19 (ix2 (0 : Fin 1) q)
  refine congrArg (V c main_v19) (funext fun a => Fin.ext ?_)
  match a with
  | ⟨0, _⟩ => show win0_4.index t (0 : Fin 2) * 1 + 1 * 0 = 0; omega
  | ⟨1, _⟩ => show win0_4.index t (1 : Fin 2) * 256 + 1 * q.val = q.val; omega

theorem bWr_apply (c : Dev nD) (t : Fin cfg0.N) (q k : Fin 256) : bWr V c t (ix2 q k) = aWr V c (ix2 q k) := by
  obtain ⟨-, -, -, -, -, -, -, -, -, -, e0, e1, -⟩ := idx_facts t
  show V c main_v14 (((cfg0.win 5).blk t).view.emb (ix2 q k)) = V c main_v14 (ix2 q k)
  refine congrArg (V c main_v14) (funext fun a => Fin.ext ?_)
  match a with
  | ⟨0, _⟩ => show win0_5.index t (0 : Fin 2) * 256 + 1 * q.val = q.val; omega
  | ⟨1, _⟩ => show win0_5.index t (1 : Fin 2) * 256 + 1 * k.val = k.val; omega

theorem bM_apply (c : Dev nD) (t : Fin cfg0.N) (p : Fin 1000) (k : Fin 256) (n : Fin 50000)
    (hn : n.val = 1000 * t.val + p.val) : bM V c t (ix2 p k) = aM V c (ix2 n k) := by
  obtain ⟨-, -, -, -, -, -, -, -, -, -, -, -, e0, e1, -⟩ := idx_facts t
  show V c main_arg2 (((cfg0.win 6).blk t).view.emb (ix2 p k)) = V c main_arg2 (ix2 n k)
  refine congrArg (V c main_arg2) (funext fun a => Fin.ext ?_)
  match a with
  | ⟨0, _⟩ => show win0_6.index t (0 : Fin 2) * 1000 + 1 * p.val = n.val; omega
  | ⟨1, _⟩ => show win0_6.index t (1 : Fin 2) * 256 + 1 * k.val = k.val; omega

/-- The layer, as one function on the whole output array's indices. -/
abbrev G (c : Dev nD) : FVec Ideal S50000x256 .f32 := fun i =>
  Cert.Sage.layerMul (fun n k => aSum V c (ix2 n k)) (fun n => aInv V c (ix2 n (0 : Fin 1)))
    (fun n k => aX V c (ix2 n k)) (fun j k => aWl V c (ix2 j k)) (fun j k => aWr V c (ix2 j k))
    (fun j => aB V c (ix2 (0 : Fin 1) j)) (fun n k => aM V c (ix2 n k)) (i 0) (i 1)

/-- The blocks' arithmetic at row p of block t is the layer at row 1000·t + p. -/
theorem block_layer (c : Dev nD) (t : Fin cfg0.N) (p : Fin 1000) (q : Fin 256) (n : Fin 50000)
    (hn : n.val = 1000 * t.val + p.val) :
    Ideal.tanh ((∑ k : Fin 256, (bSum V c t (ix2 p k) * bInv V c t (ix2 p (0 : Fin 1))) * bWl V c t (ix2 q k)
          + ∑ k : Fin 256, bX V c t (ix2 p k) * bWr V c t (ix2 q k)) + bB V c t (ix2 (0 : Fin 1) q))
        * Cert.Sage.keep (bM V c t (ix2 p q)) * Cert.Sage.invKeepProb
      = G V c (ix2 n q) :=
  congrArg₂ (· * ·) (congrArg₂ (· * ·) (congrArg Ideal.tanh (congrArg₂ (· + ·) (congrArg₂ (· + ·)
      (Finset.sum_congr rfl fun k _ => congrArg₂ (· * ·)
        (congrArg₂ (· * ·) (bSum_apply V c t p k n hn) (bInv_apply V c t p n hn)) (bWl_apply V c t q k))
      (Finset.sum_congr rfl fun k _ => congrArg₂ (· * ·) (bX_apply V c t p k n hn) (bWr_apply V c t q k)))
      (bB_apply V c t q))) (congrArg Cert.Sage.keep (bM_apply V c t p q n hn))) rfl

/-- What point t writes back is block t of the layer. -/
theorem flushed_eq (c : Dev nD) (t : Fin cfg0.N) :
    (dat0 (F := Ideal) V c).flushed 7 t = ((cfg0.win 7).blk t).view.read (Elt Ideal) (G V c) := by
  show (cfg0.win 7).cut (grid0.coords t) ((dat0 (F := Ideal) V c).after 7 t) = _
  rw [after0_7]
  unfold out0_7
  rw [View.canon_unit_zero hz]
  simp only [View.ld_unit_zero (S := S1000x256) hz, View.ld_unit_zero (S := S1000x1) hz,
    View.ld_unit_zero (S := S256x256) hz, View.ld_unit_zero (S := S1x256) hz]
  funext j
  obtain ⟨p, q, rfl⟩ : ∃ (p : Fin 1000) (q : Fin 256), j = ix2 p q := ⟨j 0, j 1, eq_ix2 j⟩
  have hN : cfg0.N = 50 := N_0
  have hp : p.val < 1000 := p.isLt
  have ht : t.val < cfg0.N := t.isLt
  obtain ⟨n, hn⟩ : ∃ n : Fin 50000, n.val = 1000 * t.val + p.val := ⟨⟨1000 * t.val + p.val, by omega⟩, rfl⟩
  have hemb : ((cfg0.win 7).blk t).view.emb (ix2 p q) = ix2 n q := by
    obtain ⟨-, -, -, -, -, -, -, -, -, -, -, -, -, -, e0, e1⟩ := idx_facts t
    funext a; apply Fin.ext
    match a with
    | ⟨0, _⟩ => show win0_7.index t (0 : Fin 2) * 1000 + 1 * p.val = n.val; omega
    | ⟨1, _⟩ => show win0_7.index t (1 : Fin 2) * 256 + 1 * q.val = q.val; omega
  show k0_pay1 (F := Ideal) (bSum V c t) (bInv V c t) (bX V c t) (bWl V c t) (bWr V c t) (bB V c t) (bM V c t) (ix2 p q)
    = G V c (((cfg0.win 7).blk t).view.emb (ix2 p q))
  rw [hemb]
  exact (pay_apply (bSum V c t) (bInv V c t) (bX V c t) (bWl V c t) (bWr V c t) (bB V c t) (bM V c t) p q).trans
    (block_layer V c t p q n hn)

/-- An index of the output array is in point t's block iff each coordinate is in the block's range on its axis. -/
theorem mem_blk (t : Fin cfg0.N) (i : S50000x256.Idx) :
    i ∈ ((cfg0.win 7).blk t).view.set ↔ ∀ a : Fin 2, win0_7.index t a * S1000x256.size a ≤ (i a).val
      ∧ (i a).val < win0_7.index t a * S1000x256.size a + S1000x256.size a := by
  show i ∈ ((View.whole main_v26).slice (win0_7.rect t)).set ↔ _
  rw [View.set_slice_whole, Rect.mem_set_unit]
  exact Iff.rfl

/-- Row r of the output is written by the point r / 1000. -/
theorem cover (i : S50000x256.Idx) :
    ∃ t : Fin cfg0.N, (cfg0.win 7).flush t = true ∧ i ∈ ((cfg0.win 7).blk t).view.set := by
  have hi0 : (i 0).val < 50000 := (i 0).isLt
  have hi1 : (i 1).val < 256 := (i 1).isLt
  have hN : cfg0.N = 50 := N_0
  obtain ⟨t, ht⟩ : ∃ t : Fin cfg0.N, t.val = (i 0).val / 1000 := ⟨⟨(i 0).val / 1000, by omega⟩, rfl⟩
  refine ⟨t, flush0_7 t, ?_⟩
  rw [mem_blk]
  obtain ⟨-, -, -, -, -, -, -, -, -, -, -, -, -, -, e0, e1⟩ := idx_facts t
  intro a
  match a with
  | ⟨0, _⟩ =>
    show win0_7.index t (0 : Fin 2) * 1000 ≤ (i 0).val ∧ (i 0).val < win0_7.index t (0 : Fin 2) * 1000 + 1000
    omega
  | ⟨1, _⟩ =>
    show win0_7.index t (1 : Fin 2) * 256 ≤ (i 1).val ∧ (i 1).val < win0_7.index t (1 : Fin 2) * 256 + 256
    omega

/-- The output array after the region is the layer of the arrays the region finds. -/
theorem final (c : Dev nD) : outArr V c = G V c :=
  (dat0 (F := Ideal) V c).arrAt_eq_of_cover 7 (G V c) (fun t _ => flushed_eq V c t) cover

theorem final0 (c : Dev nD) (n : Fin 50000) (j : Fin 256) :
    outArr V c (ix2 n j)
      = Cert.Sage.layerMul (fun n k => aSum V c (ix2 n k)) (fun n => aInv V c (ix2 n (0 : Fin 1)))
          (fun n k => aX V c (ix2 n k)) (fun j k => aWl V c (ix2 j k)) (fun j k => aWr V c (ix2 j k))
          (fun j => aB V c (ix2 (0 : Fin 1) j)) (fun n k => aM V c (ix2 n k)) n j :=
  congrFun (final V c) (ix2 n j)

end Cert.KernelIdeal.Region0

end
-- ==== Proof.Region1.lean ====
/-
  Region 1 (the second layer's launch, which also projects the new rows by the two matrices of the last layer): the two arrays its write-backs leave, entry by entry.

  A grid point t holds rows 1000·t … 1000·t + 999 of the neighbour sums, the reciprocal degrees, the first layer's rows and
  the mask, and the whole of the weights and the bias.  From them it forms the block of second-layer rows
  tanh((S·inv)·Wlᵀ + h·Wrᵀ + b) · keep(M) · (1/keepProb), and stores the block's two products with the transposed
  128-row matrices.  Read entry by entry, the block of second-layer rows is rows 1000·t … of the whole second-layer table,
  so each stored block is block t of the projected table; the fifty blocks tile the array (row r lies in block r / 1000),
  so each array ends as the whole projected table.
-/
import proofs.«419730_j49735721288419_2_alg».proof.Proof.Gen.KernelIdeal.Frame
import proofs.«419730_j49735721288419_2_alg».proof.Proof.Spec
import proofs.«419730_j49735721288419_2_alg».proof.Proof.LibKeepdims
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws
import Idealize.ShloMosaic.PureOps.IdealRules

set_option maxRecDepth 16384

noncomputable section

open scoped BigOperators

namespace Cert.KernelIdeal.Region1

open Idealize.ShloMosaic Idealize.ShloMosaic.TcCoe Idealize.ShloMosaic.ValueIdx Idealize.SL.Sem
open Cert.KernelIdeal Cert.KernelIdeal.Gen

/-! ## The body's arithmetic, entry by entry -/

/-- The named reciprocal of the keep probability is the exact rational the table gives it. -/
theorem inv_keep_eq : Named.named (F := Ideal) Cert.KernelIdeal.κ "inv_keep" (φ := .f32) 0x3FA00000#32 = Cert.Sage.invKeepProb :=
  IdealRules.named_const.ideal_named_scalar _ _ _ _ rfl

/-- A one-bit comparison result widened to a word and converted signed is the keep indicator. -/
theorem keep_eq (u : Ideal .f32) :
    (FloatOps.sitofp .f32 ((FloatOps.cmpf .ogt u (Scalar.ofBits .f32 0x3E4CCCCD#32 : Ideal .f32)).setWidth 32) : Ideal .f32) = Cert.Sage.keep u := by
  show (((((Ideal.cmp .ogt u (Ideal.ofBits .f32 0x3E4CCCCD#32)).setWidth 32).toInt : ℝ)) : EReal) = _
  rw [toInt_setWidth_bit]
  unfold Cert.Sage.keep
  norm_cast

/-- Where the 256-wide product reads its operands: the left one at (row, k), the right one at (k, column). -/
theorem dl0 (j : S1000x256.Idx) (k : dot_S1000x256_S256x256_S1000x256_1_0_0_1_n_n.contr.Idx) :
    (dot_S1000x256_S256x256_S1000x256_1_0_0_1_n_n.lhsIdx j k 0).val = (j 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem dl1 (j : S1000x256.Idx) (k : dot_S1000x256_S256x256_S1000x256_1_0_0_1_n_n.contr.Idx) :
    (dot_S1000x256_S256x256_S1000x256_1_0_0_1_n_n.lhsIdx j k 1).val = (k ⟨0, by decide⟩).val :=
  dot_S1000x256_S256x256_S1000x256_1_0_0_1_n_n.lhsIdx_val_of_single rfl j k
theorem dr0 (j : S1000x256.Idx) (k : dot_S1000x256_S256x256_S1000x256_1_0_0_1_n_n.contr.Idx) :
    (dot_S1000x256_S256x256_S1000x256_1_0_0_1_n_n.rhsIdx j k 0).val = (k ⟨0, by decide⟩).val :=
  dot_S1000x256_S256x256_S1000x256_1_0_0_1_n_n.rhsIdx_val_of_single rfl j k
theorem dr1 (j : S1000x256.Idx) (k : dot_S1000x256_S256x256_S1000x256_1_0_0_1_n_n.contr.Idx) :
    (dot_S1000x256_S256x256_S1000x256_1_0_0_1_n_n.rhsIdx j k 1).val = (j 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

/-- The 256-wide product into the zero accumulator, read at an entry. -/
theorem mm256 {φ₁ φ₂ : FTy} (lhs : FVec Ideal S1000x256 φ₁) (rhs : FVec Ideal S256x256 φ₂) (p : Fin 1000) (q : Fin 256) :
    matmul dot_S1000x256_S256x256_S1000x256_1_0_0_1_n_n none lhs rhs (constant S1000x256 .f32 0x00000000#32) (ix2 p q)
      = ∑ k : Fin 256, lhs (ix2 p k) * rhs (ix2 k q) :=
  Keepdims.matmul_zero_apply dot_S1000x256_S256x256_S1000x256_1_0_0_1_n_n rfl rfl dl0 dl1 dr0 dr1 none lhs rhs p q

/-- The square weight transposed, read at an entry. -/
theorem tr256 (x : FVec Ideal S256x256 .bf16) (k q : Fin 256) :
    transpose S256x256 [1, 0] x transposes_S256x256_p1_0_S256x256 (ix2 k q) = x (ix2 q k) :=
  transpose_ix2_apply x _ k q

/-- The projection matrix transposed, read at an entry. -/
theorem tr128 (x : FVec Ideal S128x256 .bf16) (k : Fin 256) (o : Fin 128) :
    transpose S256x128 [1, 0] x transposes_S128x256_p1_0_S256x128 (ix2 k o) = x (ix2 o k) :=
  transpose_ix2_apply x _ k o

/-- tanh acts entry by entry. -/
theorem tanh_apply' {s : Shape} {φ : FTy} (a : FVec Ideal s φ) (i : s.Idx) : tanh a i = Ideal.tanh (a i) := rfl

/-- The second layer's block of rows, entry by entry, from the blocks the point reads. -/
theorem hidden_blk (x0 : Vec Ideal S1000x256 .f32) (x1 : Vec Ideal S1000x1 .f32) (x2 : Vec Ideal S1000x256 .f32)
    (x3 : Vec Ideal S256x256 .bf16) (x5 : Vec Ideal S256x256 .bf16) (x4 : Vec Ideal S1x256 .f32) (x6 : Vec Ideal S1000x256 .f32)
    (p : Fin 1000) (q : Fin 256) :
    k1_pay2 (F := Ideal) x0 x1 x2 x3 x5 x4 x6 (ix2 p q) =
      Ideal.tanh ((∑ k : Fin 256, (x0 (ix2 p k) * x1 (ix2 p (0 : Fin 1))) * x3 (ix2 q k) + ∑ k : Fin 256, x2 (ix2 p k) * x5 (ix2 q k))
        + x4 (ix2 (0 : Fin 1) q)) * Cert.Sage.keep (x6 (ix2 p q)) * Cert.Sage.invKeepProb := by
  unfold k1_pay2
  simp only [shapeCast_self]
  rw [truncf_apply, mulf_apply, mulf_apply, broadcast_apply, inv_keep_eq, tanh_apply', sitofp_apply, extui_apply, cmpf_apply,
    broadcast_apply, keep_eq, addf_apply, addf_apply, mm256, mm256, broadcastTo_1b_ab_apply]
  simp only [truncf_apply, mulf_apply, Keepdims.broadcastTo_a1_ab_apply]
  have h3 : ∀ k : Fin 256, transpose S256x256 [1, 0] x3 transposes_S256x256_p1_0_S256x256 (ix2 k q) = x3 (ix2 q k) := fun k => tr256 x3 k q
  have h5 : ∀ k : Fin 256, transpose S256x256 [1, 0] x5 transposes_S256x256_p1_0_S256x256 (ix2 k q) = x5 (ix2 q k) := fun k => tr256 x5 k q
  simp only [h3, h5]

/-- Where the 256-to-128 product reads its operands: the left one at (row, k), the right one at (k, column). -/
theorem el0 (j : S1000x128.Idx) (k : dot_S1000x256_S256x128_S1000x128_1_0_0_1_n_n.contr.Idx) :
    (dot_S1000x256_S256x128_S1000x128_1_0_0_1_n_n.lhsIdx j k 0).val = (j 0).val := by
  unfold DotDims.lhsIdx
  rw [dif_neg (show ¬(0 : Fin S1000x256.rank) ∈ dot_S1000x256_S256x128_S1000x128_1_0_0_1_n_n.lhsBatch by decide), dif_pos (show (0 : Fin S1000x256.rank) ∈ dot_S1000x256_S256x128_S1000x128_1_0_0_1_n_n.lhsNonContracting by decide)]
  rfl
theorem el1 (j : S1000x128.Idx) (k : dot_S1000x256_S256x128_S1000x128_1_0_0_1_n_n.contr.Idx) :
    (dot_S1000x256_S256x128_S1000x128_1_0_0_1_n_n.lhsIdx j k 1).val = (k ⟨0, by decide⟩).val :=
  dot_S1000x256_S256x128_S1000x128_1_0_0_1_n_n.lhsIdx_val_of_single rfl j k
theorem er0 (j : S1000x128.Idx) (k : dot_S1000x256_S256x128_S1000x128_1_0_0_1_n_n.contr.Idx) :
    (dot_S1000x256_S256x128_S1000x128_1_0_0_1_n_n.rhsIdx j k 0).val = (k ⟨0, by decide⟩).val :=
  dot_S1000x256_S256x128_S1000x128_1_0_0_1_n_n.rhsIdx_val_of_single rfl j k
theorem er1 (j : S1000x128.Idx) (k : dot_S1000x256_S256x128_S1000x128_1_0_0_1_n_n.contr.Idx) :
    (dot_S1000x256_S256x128_S1000x128_1_0_0_1_n_n.rhsIdx j k 1).val = (j 1).val := by
  unfold DotDims.rhsIdx
  rw [dif_neg (show ¬(1 : Fin S256x128.rank) ∈ dot_S1000x256_S256x128_S1000x128_1_0_0_1_n_n.rhsBatch by decide), dif_pos (show (1 : Fin S256x128.rank) ∈ dot_S1000x256_S256x128_S1000x128_1_0_0_1_n_n.rhsNonContracting by decide)]
  rfl

/-- The 256-to-128 product into the zero accumulator, read at an entry. -/
theorem mm128 {φ₁ φ₂ : FTy} (lhs : FVec Ideal S1000x256 φ₁) (rhs : FVec Ideal S256x128 φ₂) (p : Fin 1000) (o : Fin 128) :
    matmul dot_S1000x256_S256x128_S1000x128_1_0_0_1_n_n none lhs rhs (constant S1000x128 .f32 0x00000000#32) (ix2 p o)
      = ∑ k : Fin 256, lhs (ix2 p k) * rhs (ix2 k o) :=
  Keepdims.matmul_zero_apply dot_S1000x256_S256x128_S1000x128_1_0_0_1_n_n rfl rfl el0 el1 er0 er1 none lhs rhs p o

/-- A block of rows projected by a 128-row matrix (the matrix enters transposed), entry by entry. -/
theorem proj_blk (h : FVec Ideal S1000x256 .bf16) (w : Vec Ideal S128x256 .bf16) (p : Fin 1000) (o : Fin 128) :
    k1_pay1 (F := Ideal) h w (ix2 p o) = ∑ k : Fin 256, h (ix2 p k) * w (ix2 o k) := by
  unfold k1_pay1
  simp only [shapeCast_self]
  rw [mm128]
  have hw : ∀ k : Fin 256, transpose S256x128 [1, 0] w transposes_S128x256_p1_0_S256x128 (ix2 k o) = w (ix2 o k) := fun k => tr128 w k o
  simp only [hw]

/-- The same for the projection that the first part of the body makes. -/
theorem proj_blk' (x0 : Vec Ideal S1000x256 .f32) (x1 : Vec Ideal S1000x1 .f32) (x2 : Vec Ideal S1000x256 .f32)
    (x3 : Vec Ideal S256x256 .bf16) (x5 : Vec Ideal S256x256 .bf16) (x4 : Vec Ideal S1x256 .f32) (x6 : Vec Ideal S1000x256 .f32)
    (w : Vec Ideal S128x256 .bf16) (p : Fin 1000) (o : Fin 128) :
    k1_pay3 (F := Ideal) x0 x1 x2 x3 x5 x4 x6 w (ix2 p o)
      = ∑ k : Fin 256, k1_pay2 (F := Ideal) x0 x1 x2 x3 x5 x4 x6 (ix2 p k) * w (ix2 o k) := by
  unfold k1_pay3
  simp only [shapeCast_self]
  rw [mm128]
  have hw : ∀ k : Fin 256, transpose S256x128 [1, 0] w transposes_S128x256_p1_0_S256x128 (ix2 k o) = w (ix2 o k) := fun k => tr128 w k o
  simp only [hw]

/-! ## The region's arrays -/

variable (V : (c : Dev nD) → (b : Ref sig .tc) → Buf (Elt Ideal) ((c : Thread nD τ).loc b))

/-- The arrays region 1 finds, each at its literal type. -/
abbrev aSum (c : Dev nD) : FVec Ideal S50000x256 .f32 := V c main_v30
abbrev aInv (c : Dev nD) : FVec Ideal S50000x1 .f32 := V c main_v12
abbrev aH (c : Dev nD) : FVec Ideal S50000x256 .f32 := V c main_v26
abbrev aWl (c : Dev nD) : FVec Ideal S256x256 .bf16 := V c main_v15
abbrev aB (c : Dev nD) : FVec Ideal S1x256 .f32 := V c main_v20
abbrev aWr (c : Dev nD) : FVec Ideal S256x256 .bf16 := V c main_v16
abbrev aM (c : Dev nD) : FVec Ideal S50000x256 .f32 := V c main_arg3
abbrev aW3l (c : Dev nD) : FVec Ideal S128x256 .bf16 := V c main_v17
abbrev aW3r (c : Dev nD) : FVec Ideal S128x256 .bf16 := V c main_v18

/-- The two output arrays after the region. -/
abbrev outPl (c : Dev nD) : FVec Ideal S50000x128 .f32 := (dat1 (F := Ideal) V c).arrAt 9 cfg1.N
abbrev outPr (c : Dev nD) : FVec Ideal S50000x128 .f32 := (dat1 (F := Ideal) V c).arrAt 10 cfg1.N

/-- The second layer's rows, which the region computes block by block and never stores. -/
def hidden (c : Dev nD) : Cert.Sage.Tab 256 :=
  Cert.Sage.layerMul (fun n k => aSum V c (ix2 n k)) (fun n => aInv V c (ix2 n (0 : Fin 1)))
    (fun n k => aH V c (ix2 n k)) (fun j k => aWl V c (ix2 j k)) (fun j k => aWr V c (ix2 j k))
    (fun j => aB V c (ix2 (0 : Fin 1) j)) (fun n k => aM V c (ix2 n k))

/-! ## From blocks to the arrays -/

theorem hz : (![0, 0] : Fin 2 → Nat) = fun _ => 0 := funext fun a => by fin_cases a <;> rfl

/-! The index maps over the grid: a row-blocked window's block index at point t is (t, 0); the weights' and the bias's is (0, 0). -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)
theorem idx1_9 : ∀ t : Fin cfg1.N, win1_9.index t (0 : Fin 2) = t.val ∧ win1_9.index t (1 : Fin 2) = 0 :=
  (by decide +kernel : ∀ t : Fin grid1.N, _)
theorem idx1_10 : ∀ t : Fin cfg1.N, win1_10.index t (0 : Fin 2) = t.val ∧ win1_10.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)

/-! Point t's block of a row-blocked window is rows 1000·t … 1000·t + 999 of its array; the weights' and the bias's
    one block is the whole array. -/

theorem blkSum_apply (c : Dev nD) (t : Fin cfg1.N) (x : S1000x256.Idx) (k : S50000x256.Idx)
    (hk0 : (k 0).val = 1000 * t.val + (x 0).val) (hk1 : (k 1).val = (x 1).val) :
    (iblk1 V c 0 t : Vec Ideal S1000x256 .f32) x = aSum V c k := by
  obtain ⟨e0, e1⟩ := idx1_0 t
  unfold iblk1
  rw [View.read_apply]
  show V c main_v30 _ = V c main_v30 _
  congr 1
  funext a
  apply Fin.ext
  match a with
  | ⟨0, _⟩ => show win1_0.index t (0 : Fin 2) * 1000 + 1 * (x 0).val = (k 0).val; rw [e0, hk0]; omega
  | ⟨1, _⟩ => show win1_0.index t (1 : Fin 2) * 256 + 1 * (x 1).val = (k 1).val; rw [e1, hk1]; omega

theorem blkInv_apply (c : Dev nD) (t : Fin cfg1.N) (x : S1000x1.Idx) (k : S50000x1.Idx)
    (hk0 : (k 0).val = 1000 * t.val + (x 0).val) (hk1 : (k 1).val = (x 1).val) :
    (iblk1 V c 1 t : Vec Ideal S1000x1 .f32) x = aInv V c k := by
  obtain ⟨e0, e1⟩ := idx1_1 t
  unfold iblk1
  rw [View.read_apply]
  show V c main_v12 _ = V c main_v12 _
  congr 1
  funext a
  apply Fin.ext
  match a with
  | ⟨0, _⟩ => show win1_1.index t (0 : Fin 2) * 1000 + 1 * (x 0).val = (k 0).val; rw [e0, hk0]; omega
  | ⟨1, _⟩ => show win1_1.index t (1 : Fin 2) * 1 + 1 * (x 1).val = (k 1).val; rw [e1, hk1]; omega

theorem blkH_apply (c : Dev nD) (t : Fin cfg1.N) (x : S1000x256.Idx) (k : S50000x256.Idx)
    (hk0 : (k 0).val = 1000 * t.val + (x 0).val) (hk1 : (k 1).val = (x 1).val) :
    (iblk1 V c 2 t : Vec Ideal S1000x256 .f32) x = aH V c k := by
  obtain ⟨e0, e1⟩ := idx1_2 t
  unfold iblk1
  rw [View.read_apply]
  show V c main_v26 _ = V c main_v26 _
  congr 1
  funext a
  apply Fin.ext
  match a with
  | ⟨0, _⟩ => show win1_2.index t (0 : Fin 2) * 1000 + 1 * (x 0).val = (k 0).val; rw [e0, hk0]; omega
  | ⟨1, _⟩ => show win1_2.index t (1 : Fin 2) * 256 + 1 * (x 1).val = (k 1).val; rw [e1, hk1]; omega

theorem blkM_apply (c : Dev nD) (t : Fin cfg1.N) (x : S1000x256.Idx) (k : S50000x256.Idx)
    (hk0 : (k 0).val = 1000 * t.val + (x 0).val) (hk1 : (k 1).val = (x 1).val) :
    (iblk1 V c 6 t : Vec Ideal S1000x256 .f32) x = aM V c k := by
  obtain ⟨e0, e1⟩ := idx1_6 t
  unfold iblk1
  rw [View.read_apply]
  show V c main_arg3 _ = V c main_arg3 _
  congr 1
  funext a
  apply Fin.ext
  match a with
  | ⟨0, _⟩ => show win1_6.index t (0 : Fin 2) * 1000 + 1 * (x 0).val = (k 0).val; rw [e0, hk0]; omega
  | ⟨1, _⟩ => show win1_6.index t (1 : Fin 2) * 256 + 1 * (x 1).val = (k 1).val; rw [e1, hk1]; omega

theorem blkWl_apply (c : Dev nD) (t : Fin cfg1.N) (x : S256x256.Idx) :
    (iblk1 V c 3 t : Vec Ideal S256x256 .bf16) x = aWl V c x := by
  obtain ⟨e0, e1⟩ := idx1_3 t
  unfold iblk1
  rw [View.read_apply]
  show V c main_v15 _ = V c main_v15 _
  congr 1
  funext a
  apply Fin.ext
  match a with
  | ⟨0, _⟩ => show win1_3.index t (0 : Fin 2) * 256 + 1 * (x 0).val = (x 0).val; rw [e0]; omega
  | ⟨1, _⟩ => show win1_3.index t (1 : Fin 2) * 256 + 1 * (x 1).val = (x 1).val; rw [e1]; omega

theorem blkB_apply (c : Dev nD) (t : Fin cfg1.N) (x : S1x256.Idx) :
    (iblk1 V c 4 t : Vec Ideal S1x256 .f32) x = aB V c x := by
  obtain ⟨e0, e1⟩ := idx1_4 t
  unfold iblk1
  rw [View.read_apply]
  show V c main_v20 _ = V c main_v20 _
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 256 + 1 * (x 1).val = (x 1).val; rw [e1]; omega

theorem blkWr_apply (c : Dev nD) (t : Fin cfg1.N) (x : S256x256.Idx) :
    (iblk1 V c 5 t : Vec Ideal S256x256 .bf16) x = aWr V c x := by
  obtain ⟨e0, e1⟩ := idx1_5 t
  unfold iblk1
  rw [View.read_apply]
  show V c main_v16 _ = V c main_v16 _
  congr 1
  funext a
  apply Fin.ext
  match a with
  | ⟨0, _⟩ => show win1_5.index t (0 : Fin 2) * 256 + 1 * (x 0).val = (x 0).val; rw [e0]; omega
  | ⟨1, _⟩ => show win1_5.index t (1 : Fin 2) * 256 + 1 * (x 1).val = (x 1).val; rw [e1]; omega

theorem blkW3l_apply (c : Dev nD) (t : Fin cfg1.N) (x : S128x256.Idx) :
    (iblk1 V c 7 t : Vec Ideal S128x256 .bf16) x = aW3l V c x := by
  obtain ⟨e0, e1⟩ := idx1_7 t
  unfold iblk1
  rw [View.read_apply]
  show V c main_v17 _ = V c main_v17 _
  congr 1
  funext a
  apply Fin.ext
  match a with
  | ⟨0, _⟩ => show win1_7.index t (0 : Fin 2) * 128 + 1 * (x 0).val = (x 0).val; rw [e0]; omega
  | ⟨1, _⟩ => show win1_7.index t (1 : Fin 2) * 256 + 1 * (x 1).val = (x 1).val; rw [e1]; omega

theorem blkW3r_apply (c : Dev nD) (t : Fin cfg1.N) (x : S128x256.Idx) :
    (iblk1 V c 8 t : Vec Ideal S128x256 .bf16) x = aW3r V c x := by
  obtain ⟨e0, e1⟩ := idx1_8 t
  unfold iblk1
  rw [View.read_apply]
  show V c main_v18 _ = V c main_v18 _
  congr 1
  funext a
  apply Fin.ext
  match a with
  | ⟨0, _⟩ => show win1_8.index t (0 : Fin 2) * 128 + 1 * (x 0).val = (x 0).val; rw [e0]; omega
  | ⟨1, _⟩ => show win1_8.index t (1 : Fin 2) * 256 + 1 * (x 1).val = (x 1).val; rw [e1]; omega

/-- The body's block of second-layer rows at point t is rows 1000·t … of the whole table. -/
theorem hidden_point (c : Dev nD) (t : Fin cfg1.N) (p : Fin 1000) (q : Fin 256) (n : Fin 50000) (hn : n.val = 1000 * t.val + p.val) :
    k1_pay2 (F := Ideal) (iblk1 V c 0 t) (iblk1 V c 1 t) (iblk1 V c 2 t) (iblk1 V c 3 t) (iblk1 V c 5 t) (iblk1 V c 4 t) (iblk1 V c 6 t) (ix2 p q)
      = hidden V c n q := by
  refine (hidden_blk (iblk1 V c 0 t) (iblk1 V c 1 t) (iblk1 V c 2 t) (iblk1 V c 3 t) (iblk1 V c 5 t) (iblk1 V c 4 t) (iblk1 V c 6 t) p q).trans ?_
  have h0 : ∀ k : Fin 256, (iblk1 V c 0 t : Vec Ideal S1000x256 .f32) (ix2 p k) = aSum V c (ix2 n k) := fun k => blkSum_apply V c t _ _ hn rfl
  have h1 : (iblk1 V c 1 t : Vec Ideal S1000x1 .f32) (ix2 p (0 : Fin 1)) = aInv V c (ix2 n (0 : Fin 1)) := blkInv_apply V c t _ _ hn rfl
  have h2 : ∀ k : Fin 256, (iblk1 V c 2 t : Vec Ideal S1000x256 .f32) (ix2 p k) = aH V c (ix2 n k) := fun k => blkH_apply V c t _ _ hn rfl
  have h3 : ∀ k : Fin 256, (iblk1 V c 3 t : Vec Ideal S256x256 .bf16) (ix2 q k) = aWl V c (ix2 q k) := fun k => blkWl_apply V c t _
  have h4 : (iblk1 V c 4 t : Vec Ideal S1x256 .f32) (ix2 (0 : Fin 1) q) = aB V c (ix2 (0 : Fin 1) q) := blkB_apply V c t _
  have h5 : ∀ k : Fin 256, (iblk1 V c 5 t : Vec Ideal S256x256 .bf16) (ix2 q k) = aWr V c (ix2 q k) := fun k => blkWr_apply V c t _
  have h6 : (iblk1 V c 6 t : Vec Ideal S1000x256 .f32) (ix2 p q) = aM V c (ix2 n q) := blkM_apply V c t _ _ hn rfl
  unfold hidden Cert.Sage.layerMul
  simp only [h0, h1, h2, h3, h4, h5, h6]

/-- The projected table as one function of the array's index. -/
def GPl (c : Dev nD) : S50000x128.Idx → EReal := fun i =>
  Cert.Sage.proj (hidden V c) (fun o k => aW3l V c (ix2 o k)) (i 0) (i 1)

/-- An entry of the block the body stores at point t is the table's entry 1000·t rows further down. -/
theorem pointPl (c : Dev nD) (t : Fin cfg1.N) (j : S1000x128.Idx) (i : S50000x128.Idx)
    (h0 : (i 0).val = 1000 * t.val + (j 0).val) (h1 : (i 1).val = (j 1).val) :
    k1_pay3 (F := Ideal) (iblk1 V c 0 t) (iblk1 V c 1 t) (iblk1 V c 2 t) (iblk1 V c 3 t) (iblk1 V c 5 t) (iblk1 V c 4 t) (iblk1 V c 6 t) (iblk1 V c 7 t) j = GPl V c i := by
  obtain ⟨p, o, rfl⟩ : ∃ (p : Fin 1000) (o : Fin 128), j = ix2 p o := ⟨j 0, j 1, eq_ix2 j⟩
  refine (proj_blk' (iblk1 V c 0 t) (iblk1 V c 1 t) (iblk1 V c 2 t) (iblk1 V c 3 t) (iblk1 V c 5 t) (iblk1 V c 4 t) (iblk1 V c 6 t) (iblk1 V c 7 t) p o).trans ?_
  unfold GPl Cert.Sage.proj
  have hi1 : i 1 = o := Fin.ext h1
  refine Finset.sum_congr rfl fun k _ => ?_
  rw [hidden_point V c t p k (i 0) h0, blkW3l_apply V c t (ix2 o k), hi1]

/-- What point t writes back is block t of the projected table. -/
theorem flushedPl_eq (c : Dev nD) (t : Fin cfg1.N) :
    (dat1 (F := Ideal) V c).flushed 9 t = ((cfg1.win 9).blk t).view.read (Elt Ideal) (GPl V c) := by
  show (cfg1.win 9).cut (grid1.coords t) ((dat1 (F := Ideal) V c).after 9 t) = _
  rw [after1_9]
  unfold out1_9
  rw [View.canon_unit_zero hz]
  simp only [View.ld_unit_zero (S := S1000x256) hz, View.ld_unit_zero (S := S1000x1) hz, View.ld_unit_zero (S := S256x256) hz,
    View.ld_unit_zero (S := S1x256) hz, View.ld_unit_zero (S := S128x256) hz]
  funext j
  obtain ⟨e0, e1⟩ := idx1_9 t
  refine pointPl V c t j (((cfg1.win 9).blk t).view.emb j) ?_ ?_
  · show win1_9.index t (0 : Fin 2) * 1000 + 1 * (j 0).val = 1000 * t.val + (j 0).val
    rw [e0]; omega
  · show win1_9.index t (1 : Fin 2) * 128 + 1 * (j 1).val = (j 1).val
    rw [e1]; omega

/-- An index of the array is in point t's block iff each coordinate is in the block's range on its axis. -/
theorem mem_blkPl (t : Fin cfg1.N) (i : S50000x128.Idx) :
    i ∈ ((cfg1.win 9).blk t).view.set ↔ ∀ a : Fin 2, win1_9.index t a * S1000x128.size a ≤ (i a).val ∧ (i a).val < win1_9.index t a * S1000x128.size a + S1000x128.size a := by
  show i ∈ ((View.whole main_v31_0).slice (win1_9.rect t)).set ↔ _
  rw [View.set_slice_whole, Rect.mem_set_unit]
  exact Iff.rfl

/-- Row r of the array is in the block of point r / 1000. -/
theorem coverPl (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  have hN : grid1.N = 50 := N_1
  have ht : (i 0).val / 1000 < cfg1.N := by show _ < grid1.N; rw [hN]; omega
  obtain ⟨e0, e1⟩ := idx1_9 ⟨(i 0).val / 1000, ht⟩
  refine ⟨⟨(i 0).val / 1000, ht⟩, flush1_9 _, ?_⟩
  rw [mem_blkPl]
  intro a
  match a with
  | ⟨0, _⟩ =>
    show win1_9.index ⟨(i 0).val / 1000, ht⟩ (0 : Fin 2) * 1000 ≤ (i 0).val ∧ (i 0).val < win1_9.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win1_9.index ⟨(i 0).val / 1000, ht⟩ (1 : Fin 2) * 128 ≤ (i 1).val ∧ (i 1).val < win1_9.index ⟨(i 0).val / 1000, ht⟩ (1 : Fin 2) * 128 + 128
    rw [e1]; omega

/-- The array after the region is the projected table. -/
theorem arrayPl (c : Dev nD) : (dat1 (F := Ideal) V c).arrAt 9 cfg1.N = GPl V c :=
  (dat1 (F := Ideal) V c).arrAt_eq_of_cover 9 (GPl V c) (fun t _ => flushedPl_eq V c t) coverPl

theorem final1_pl (c : Dev nD) (n : Fin 50000) (o : Fin 128) :
    outPl V c (ix2 n o) = Cert.Sage.proj (hidden V c) (fun o k => aW3l V c (ix2 o k)) n o :=
  congrFun (arrayPl V c) (ix2 n o)

/-- The projected table as one function of the array's index. -/
def GPr (c : Dev nD) : S50000x128.Idx → EReal := fun i =>
  Cert.Sage.proj (hidden V c) (fun o k => aW3r V c (ix2 o k)) (i 0) (i 1)

/-- An entry of the block the body stores at point t is the table's entry 1000·t rows further down. -/
theorem pointPr (c : Dev nD) (t : Fin cfg1.N) (j : S1000x128.Idx) (i : S50000x128.Idx)
    (h0 : (i 0).val = 1000 * t.val + (j 0).val) (h1 : (i 1).val = (j 1).val) :
    k1_pay1 (F := Ideal) (k1_pay2 (F := Ideal) (iblk1 V c 0 t) (iblk1 V c 1 t) (iblk1 V c 2 t) (iblk1 V c 3 t) (iblk1 V c 5 t) (iblk1 V c 4 t) (iblk1 V c 6 t)) (iblk1 V c 8 t) j = GPr V c i := by
  obtain ⟨p, o, rfl⟩ : ∃ (p : Fin 1000) (o : Fin 128), j = ix2 p o := ⟨j 0, j 1, eq_ix2 j⟩
  refine (proj_blk (k1_pay2 (F := Ideal) (iblk1 V c 0 t) (iblk1 V c 1 t) (iblk1 V c 2 t) (iblk1 V c 3 t) (iblk1 V c 5 t) (iblk1 V c 4 t) (iblk1 V c 6 t)) (iblk1 V c 8 t) p o).trans ?_
  unfold GPr Cert.Sage.proj
  have hi1 : i 1 = o := Fin.ext h1
  refine Finset.sum_congr rfl fun k _ => ?_
  rw [hidden_point V c t p k (i 0) h0, blkW3r_apply V c t (ix2 o k), hi1]

/-- What point t writes back is block t of the projected table. -/
theorem flushedPr_eq (c : Dev nD) (t : Fin cfg1.N) :
    (dat1 (F := Ideal) V c).flushed 10 t = ((cfg1.win 10).blk t).view.read (Elt Ideal) (GPr V c) := by
  show (cfg1.win 10).cut (grid1.coords t) ((dat1 (F := Ideal) V c).after 10 t) = _
  rw [after1_10]
  unfold out1_10
  rw [View.canon_unit_zero hz]
  simp only [View.ld_unit_zero (S := S1000x256) hz, View.ld_unit_zero (S := S1000x1) hz, View.ld_unit_zero (S := S256x256) hz,
    View.ld_unit_zero (S := S1x256) hz, View.ld_unit_zero (S := S128x256) hz]
  funext j
  obtain ⟨e0, e1⟩ := idx1_10 t
  refine pointPr V c t j (((cfg1.win 10).blk t).view.emb j) ?_ ?_
  · show win1_10.index t (0 : Fin 2) * 1000 + 1 * (j 0).val = 1000 * t.val + (j 0).val
    rw [e0]; omega
  · show win1_10.index t (1 : Fin 2) * 128 + 1 * (j 1).val = (j 1).val
    rw [e1]; omega

/-- An index of the array is in point t's block iff each coordinate is in the block's range on its axis. -/
theorem mem_blkPr (t : Fin cfg1.N) (i : S50000x128.Idx) :
    i ∈ ((cfg1.win 10).blk t).view.set ↔ ∀ a : Fin 2, win1_10.index t a * S1000x128.size a ≤ (i a).val ∧ (i a).val < win1_10.index t a * S1000x128.size a + S1000x128.size a := by
  show i ∈ ((View.whole main_v31_1).slice (win1_10.rect t)).set ↔ _
  rw [View.set_slice_whole, Rect.mem_set_unit]
  exact Iff.rfl

/-- Row r of the array is in the block of point r / 1000. -/
theorem coverPr (i : S50000x128.Idx) :
    ∃ t : Fin cfg1.N, (cfg1.win 10).flush t = true ∧ i ∈ ((cfg1.win 10).blk t).view.set := by
  have hi0 : (i 0).val < 50000 := (i 0).isLt
  have hi1 : (i 1).val < 128 := (i 1).isLt
  have hN : grid1.N = 50 := N_1
  have ht : (i 0).val / 1000 < cfg1.N := by show _ < grid1.N; rw [hN]; omega
  obtain ⟨e0, e1⟩ := idx1_10 ⟨(i 0).val / 1000, ht⟩
  refine ⟨⟨(i 0).val / 1000, ht⟩, flush1_10 _, ?_⟩
  rw [mem_blkPr]
  intro a
  match a with
  | ⟨0, _⟩ =>
    show win1_10.index ⟨(i 0).val / 1000, ht⟩ (0 : Fin 2) * 1000 ≤ (i 0).val ∧ (i 0).val < win1_10.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win1_10.index ⟨(i 0).val / 1000, ht⟩ (1 : Fin 2) * 128 ≤ (i 1).val ∧ (i 1).val < win1_10.index ⟨(i 0).val / 1000, ht⟩ (1 : Fin 2) * 128 + 128
    rw [e1]; omega

/-- The array after the region is the projected table. -/
theorem arrayPr (c : Dev nD) : (dat1 (F := Ideal) V c).arrAt 10 cfg1.N = GPr V c :=
  (dat1 (F := Ideal) V c).arrAt_eq_of_cover 10 (GPr V c) (fun t _ => flushedPr_eq V c t) coverPr

theorem final1_pr (c : Dev nD) (n : Fin 50000) (o : Fin 128) :
    outPr V c (ix2 n o) = Cert.Sage.proj (hidden V c) (fun o k => aW3r V c (ix2 o k)) n o :=
  congrFun (arrayPr V c) (ix2 n o)

end Cert.KernelIdeal.Region1

end
-- ==== Proof.LibBroadcastCol.lean ====
import Idealize.ShloMosaic.Lib.Pipeline.Value
import Idealize.ShloMosaic.Lib.ValueIdx

namespace Idealize.ShloMosaic.ValueIdx

open Idealize.ShloMosaic

variable {α : Type}

/-- ONE COLUMN BROADCAST OVER MANY (a keepdims column against a matrix: `vector.broadcast` of `[a, 1]` to `[a, b]`):
    the result reads, at `(p, c)`, the operand's one column at row `p`, whatever the extents `a` and `b`. The companion of the
    library's row form `broadcastTo_1b_ab_apply`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Region2.lean ====
/-
  Region 2 (the last launch): the array its write-backs leave, entry by entry, is the project-first form of the last layer applied to the arrays the region finds.
-/
import proofs.«419730_j49735721288419_2_alg».proof.Proof.Gen.KernelIdeal.Frame
import proofs.«419730_j49735721288419_2_alg».proof.Proof.Spec
import proofs.«419730_j49735721288419_2_alg».proof.Proof.LibBroadcastCol
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region2

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The arrays region 2 finds, each at its literal type. -/
abbrev aSum (c : Dev nD) : FVec Ideal S50000x128 .f32 := V c main_v35
abbrev aInv (c : Dev nD) : FVec Ideal S50000x1 .f32 := V c main_v12
abbrev aPr (c : Dev nD) : FVec Ideal S50000x128 .f32 := V c main_v31_1
abbrev aB (c : Dev nD) : FVec Ideal S1x128 .f32 := V c main_v21

/-- The output array after the region. -/
abbrev outArr (c : Dev nD) : FVec Ideal S50000x128 .f32 := (dat2 (F := Ideal) V c).arrAt 4 cfg2.N

/-- The body's arithmetic at one entry of the block: the row's sum times the row's stored reciprocal, plus the
    column's bias, plus the node's own projected entry, under tanh. -/
theorem pay2_apply (x0 : Vec Ideal S1000x128 .f32) (x1 : Vec Ideal S1000x1 .f32) (x3 : Vec Ideal S1x128 .f32)
    (x2 : Vec Ideal S1000x128 .f32) (p : Fin 1000) (q : Fin 128) :
    k2_pay1 (F := Ideal) x0 x1 x3 x2 (ix2 p q)
      = Ideal.tanh ((x0 (ix2 p q) * x1 (ix2 p (0 : Fin 1)) + x3 (ix2 (0 : Fin 1) q)) + x2 (ix2 p q)) := by
  unfold k2_pay1
  simp only [shapeCast_self]
  show Ideal.tanh ((x0 (ix2 p q) * broadcastTo S1000x128 x1 broadcasts_S1000x1_S1000x128 (ix2 p q)
      + broadcastTo S1000x128 x3 broadcasts_S1x128_S1000x128 (ix2 p q)) + x2 (ix2 p q)) = _
  rw [broadcastTo_a1_ab_apply, broadcastTo_1b_ab_apply]

/-- The row and the column of an entry of the whole table. -/
abbrev row2 (i : S50000x128.Idx) : Fin 50000 := ⟨(i 0).val, idx2_lt0 i⟩
abbrev col2 (i : S50000x128.Idx) : Fin 128 := ⟨(i 1).val, idx2_lt1 i⟩

/-- The whole output table as one function of the four tables the region finds. -/
def G2 (a0 : FVec Ideal S50000x128 .f32) (a1 : FVec Ideal S50000x1 .f32) (a2 : FVec Ideal S50000x128 .f32)
    (a3 : FVec Ideal S1x128 .f32) : FVec Ideal S50000x128 .f32 := fun i =>
  Ideal.tanh ((a0 i * a1 (ix2 (row2 i) (0 : Fin 1)) + a3 (ix2 (0 : Fin 1) (col2 i))) + a2 i)

/-- An entry of a block's result is the whole-table function at the entry's place, once each block entry read is the
    table entry at that place. -/
theorem pay2_eq_G2 (x0 : Vec Ideal S1000x128 .f32) (x1 : Vec Ideal S1000x1 .f32) (x2 : Vec Ideal S1000x128 .f32)
    (x3 : Vec Ideal S1x128 .f32) (a0 : FVec Ideal S50000x128 .f32) (a1 : FVec Ideal S50000x1 .f32)
    (a2 : FVec Ideal S50000x128 .f32) (a3 : FVec Ideal S1x128 .f32) (p : Fin 1000) (q : Fin 128) (i : S50000x128.Idx)
    (h0 : x0 (ix2 p q) = a0 i) (h1 : x1 (ix2 p (0 : Fin 1)) = a1 (ix2 (row2 i) (0 : Fin 1)))
    (h2 : x2 (ix2 p q) = a2 i) (h3 : x3 (ix2 (0 : Fin 1) q) = a3 (ix2 (0 : Fin 1) (col2 i))) :
    k2_pay1 (F := Ideal) x0 x1 x3 x2 (ix2 p q) = G2 a0 a1 a2 a3 i := by
  rw [pay2_apply, h0, h1, h2, h3]
  rfl

theorem zero_offsets2 : (![0, 0] : Fin 2 → Nat) = fun _ => 0 := funext fun a => by fin_cases a <;> rfl

/-- The block indices over the grid: the three row-blocked inputs move with the output (block t of the rows, the one
    block of columns), the bias stays at its one block. -/
theorem index_facts2 : ∀ t : Fin cfg2.N,
    win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = win2_4.index t (0 : Fin 2) ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What grid point t writes back is block t of the whole-table function. -/
theorem flushed2_eq (c : Dev nD) (t : Fin cfg2.N) :
    (dat2 (F := Ideal) V c).flushed 4 t
      = ((cfg2.win 4).blk t).view.read (Elt Ideal) (G2 (aSum V c) (aInv V c) (aPr V c) (aB V c)) := by
  show (cfg2.win 4).cut (grid2.coords t) ((dat2 (F := Ideal) V c).after 4 t) = _
  rw [after2_4]
  unfold out2_4
  rw [View.canon_unit_zero zero_offsets2]
  simp only [View.ld_unit_zero (S := S1000x128) zero_offsets2, View.ld_unit_zero (S := S1000x1) zero_offsets2,
    View.ld_unit_zero (S := S1x128) zero_offsets2]
  obtain ⟨e00, e01, e10, e11, e20, e21, e30, e31, e40, e41⟩ := index_facts2 t
  funext j
  obtain ⟨p, q, rfl⟩ : ∃ (p : Fin 1000) (q : Fin 128), j = ix2 p q := ⟨j 0, j 1, eq_ix2 j⟩
  refine pay2_eq_G2 _ _ _ _ (aSum V c) (aInv V c) (aPr V c) (aB V c) p q (((cfg2.win 4).blk t).view.emb (ix2 p q)) ?_ ?_ ?_ ?_
  · show V c main_v35 (((cfg2.win 0).blk t).view.emb (ix2 p q)) = V c main_v35 (((cfg2.win 4).blk t).view.emb (ix2 p q))
    refine congrArg (V c main_v35) (funext fun a => Fin.ext ?_)
    match a with
    | ⟨0, _⟩ => show win2_0.index t (0 : Fin 2) * 1000 + 1 * p.val = win2_4.index t (0 : Fin 2) * 1000 + 1 * p.val; omega
    | ⟨1, _⟩ => show win2_0.index t (1 : Fin 2) * 128 + 1 * q.val = win2_4.index t (1 : Fin 2) * 128 + 1 * q.val; omega
  · show V c main_v12 (((cfg2.win 1).blk t).view.emb (ix2 p (0 : Fin 1)))
      = V c main_v12 (ix2 (row2 (((cfg2.win 4).blk t).view.emb (ix2 p q))) (0 : Fin 1))
    refine congrArg (V c main_v12) (funext fun a => Fin.ext ?_)
    match a with
    | ⟨0, _⟩ => show win2_1.index t (0 : Fin 2) * 1000 + 1 * p.val = win2_4.index t (0 : Fin 2) * 1000 + 1 * p.val; omega
    | ⟨1, _⟩ => show win2_1.index t (1 : Fin 2) * 1 + 1 * 0 = 0; omega
  · show V c main_v31_1 (((cfg2.win 2).blk t).view.emb (ix2 p q)) = V c main_v31_1 (((cfg2.win 4).blk t).view.emb (ix2 p q))
    refine congrArg (V c main_v31_1) (funext fun a => Fin.ext ?_)
    match a with
    | ⟨0, _⟩ => show win2_2.index t (0 : Fin 2) * 1000 + 1 * p.val = win2_4.index t (0 : Fin 2) * 1000 + 1 * p.val; omega
    | ⟨1, _⟩ => show win2_2.index t (1 : Fin 2) * 128 + 1 * q.val = win2_4.index t (1 : Fin 2) * 128 + 1 * q.val; omega
  · show V c main_v21 (((cfg2.win 3).blk t).view.emb (ix2 (0 : Fin 1) q))
      = V c main_v21 (ix2 (0 : Fin 1) (col2 (((cfg2.win 4).blk t).view.emb (ix2 p q))))
    refine congrArg (V c main_v21) (funext fun a => Fin.ext ?_)
    match a with
    | ⟨0, _⟩ => show win2_3.index t (0 : Fin 2) * 1 + 1 * 0 = 0; omega
    | ⟨1, _⟩ => show win2_3.index t (1 : Fin 2) * 128 + 1 * q.val = win2_4.index t (1 : Fin 2) * 128 + 1 * q.val; omega

/-- An entry of the table is in point t's block iff each coordinate is in the block's range on its axis. -/
theorem mem_blk2 (t : Fin cfg2.N) (i : S50000x128.Idx) :
    i ∈ ((cfg2.win 4).blk t).view.set ↔ ∀ a : Fin 2, win2_4.index t a * S1000x128.size a ≤ (i a).val
      ∧ (i a).val < win2_4.index t a * S1000x128.size a + S1000x128.size a := by
  show i ∈ ((View.whole main_v36).slice (win2_4.rect t)).set ↔ _
  rw [View.set_slice_whole, Rect.mem_set_unit]
  exact Iff.rfl

/-- Every row is some point's: row r lies in the block of point r / 1000. -/
theorem cover2 (i : S50000x128.Idx) :
    ∃ t : Fin cfg2.N, (cfg2.win 4).flush t = true ∧ i ∈ ((cfg2.win 4).blk t).view.set := by
  have hi0 : (i 0).val < 50000 := idx2_lt0 i
  have hi1 : (i 1).val < 128 := idx2_lt1 i
  have hN : cfg2.N = 50 := N_2
  let t : Fin cfg2.N := ⟨(i 0).val / 1000, by rw [hN]; omega⟩
  obtain ⟨e00, e01, e10, e11, e20, e21, e30, e31, e40, e41⟩ := index_facts2 t
  have ht : t.val = (i 0).val / 1000 := rfl
  refine ⟨t, flush2_4 t, ?_⟩
  rw [mem_blk2]
  intro a
  match a with
  | ⟨0, _⟩ =>
    show win2_4.index t (0 : Fin 2) * 1000 ≤ (i 0).val ∧ (i 0).val < win2_4.index t (0 : Fin 2) * 1000 + 1000
    omega
  | ⟨1, _⟩ =>
    show win2_4.index t (1 : Fin 2) * 128 ≤ (i 1).val ∧ (i 1).val < win2_4.index t (1 : Fin 2) * 128 + 128
    omega

/-- The output table after the region is the whole-table function of the tables the region finds. -/
theorem outArr2_eq (c : Dev nD) : outArr V c = G2 (aSum V c) (aInv V c) (aPr V c) (aB V c) :=
  (dat2 (F := Ideal) V c).arrAt_eq_of_cover 4 (G2 (aSum V c) (aInv V c) (aPr V c) (aB V c))
    (fun t _ => flushed2_eq V c t) cover2

theorem final2 (c : Dev nD) (n : Fin 50000) (o : Fin 128) :
    outArr V c (ix2 n o)
      = Cert.Sage.lastMul (fun n k => aSum V c (ix2 n k)) (fun n => aInv V c (ix2 n (0 : Fin 1)))
          (fun n k => aPr V c (ix2 n k)) (fun o => aB V c (ix2 (0 : Fin 1) o)) n o := by
  rw [outArr2_eq]
  rfl

end Cert.KernelIdeal.Region2

end
-- ==== Proof.Algebra.lean ====
/-
  The two arrangements of a layer agree, and so do the two arrangements of the last layer.
  A layer: multiplying the neighbour sum by the stored reciprocal of the clamped degree is dividing by the degree
  (the degree is at least one, so it is not zero); the bias may be added before or after the second product;
  dividing by the keep probability is multiplying by its named reciprocal.
  The last layer: projecting every row first and summing the projected rows afterwards gives the projection of the
  summed rows, because every entry involved is a real number (the rows are tanh values times 0 or 1 times a real
  constant, the matrix entries are finite, and the reciprocal of a degree that is at least one is real), so the
  sums may be exchanged and the factors moved across them.
-/
import proofs.«419730_j49735721288419_2_alg».proof.Proof.Spec
import Mathlib.Algebra.BigOperators.Ring.Finset
import Mathlib.Tactic.Ring
import Mathlib.Tactic.NormNum

noncomputable section

open scoped BigOperators

namespace Cert.Sage

open Idealize.ShloMosaic Idealize.ShloMosaic.ValueIdx

/-- The float 1 denotes 1. -/
theorem one_eq : one = 1 := by
  unfold one
  simp [Ideal.ofBits, Ideal.ieee, -EReal.coe_mul]; norm_num

/-- The keep probability's word denotes 13421773 / 2^24. -/
theorem keepProb_eq : keepProb = ((13421773 / 16777216 : ℝ) : EReal) := by
  unfold keepProb
  simp [Ideal.ofBits, Ideal.ieee, -EReal.coe_mul]; norm_num

/-- Dividing by the keep probability is multiplying by its reciprocal. -/
theorem div_keepProb (t : EReal) : Ideal.div t keepProb = t * invKeepProb := by
  rw [keepProb_eq, Ideal.div_coe (by norm_num)]
  unfold invKeepProb
  congr 2
  norm_num

/-- Dividing by an extended real that is at least one is multiplying by a real number (its reciprocal, or 0 when it is
    infinite). -/
theorem div_eq_mul_real {c : EReal} (hc : 1 ≤ c) : ∃ r : ℝ, ∀ a : EReal, Ideal.div a c = a * (r : EReal) := by
  induction c using EReal.rec with
  | bot => exact absurd (le_bot_iff.mp hc) (by rw [← EReal.coe_one]; exact EReal.coe_ne_bot 1)
  | coe x =>
    have hx : (1 : ℝ) ≤ x := by exact_mod_cast hc
    exact ⟨1 / x, fun a => Ideal.div_coe (ne_of_gt (by linarith)) a⟩
  | top =>
    refine ⟨0, fun a => ?_⟩
    unfold Ideal.div
    rw [if_neg (by simp), EReal.inv_top]
    simp

/-- THE TWO FORMS OF A LAYER AGREE. -/
theorem layer_eq (S x : Tab 256) (inv cm : Fin 50000 → EReal) (Wl Wr : Fin 256 → Fin 256 → EReal)
    (b : Fin 256 → EReal) (M : Tab 256)
    (hcm : ∀ n, one ≤ cm n) (hinv : ∀ n, inv n = Ideal.div one (cm n)) :
    layerMul S inv x Wl Wr b M = layerDiv S cm x Wl Wr b M := by
  funext n j
  obtain ⟨r, hr⟩ := div_eq_mul_real (c := cm n) (by rw [← one_eq]; exact hcm n)
  have h1 : ∀ k, S n k * inv n = Ideal.div (S n k) (cm n) := fun k => by
    rw [hinv, hr, hr, one_eq, one_mul]
  unfold layerMul layerDiv
  rw [div_keepProb]
  simp only [h1]
  rw [add_right_comm]

/-- A cast of a finite sum of reals is the sum of the casts. -/
theorem coe_sum {ι : Type} (s : Finset ι) (f : ι → ℝ) : ((∑ i ∈ s, f i : ℝ) : EReal) = ∑ i ∈ s, (f i : EReal) := by
  classical
  refine Finset.induction_on s (by simp) ?_
  intro a t ha ih
  rw [Finset.sum_insert ha, Finset.sum_insert ha, EReal.coe_add, ih]

theorem coe_ite (p : Prop) [Decidable p] (x : ℝ) : (if p then (x : EReal) else 0) = ((if p then x else 0 : ℝ) : EReal) := by
  split_ifs <;> simp

/-- Over the reals: a masked sum over edges of a row's projection, scaled, is the projection of the masked, scaled
    sums of the row's entries. -/
theorem real_key {ι κ : Type} [Fintype ι] [Fintype κ] (P : ι → Prop) [DecidablePred P] (a : ι → κ → ℝ) (w : κ → ℝ) (r : ℝ) :
    (∑ e, if P e then ∑ k, a e k * w k else 0) * r = ∑ k, ((∑ e, if P e then a e k else 0) * r) * w k := by
  rw [Finset.sum_mul]
  simp only [Finset.sum_mul]
  conv_rhs => rw [Finset.sum_comm]
  refine Finset.sum_congr rfl fun e _ => ?_
  split_ifs with hp
  · rw [Finset.sum_mul]
    exact Finset.sum_congr rfl fun k _ => by ring
  · simp

/-- THE TWO FORMS OF THE LAST LAYER AGREE, for real rows and a real matrix. -/
theorem last_eq (di gi : EdgeCol) (h : Tab 256) (inv cm : Fin 50000 → EReal) (Wl Wr : Fin 128 → Fin 256 → EReal)
    (b : Fin 128 → EReal)
    (hh : ∃ hr : Fin 50000 → Fin 256 → ℝ, ∀ n k, h n k = (hr n k : EReal))
    (hW : ∃ wr : Fin 128 → Fin 256 → ℝ, ∀ o k, Wl o k = (wr o k : EReal))
    (hcm : ∀ n, one ≤ cm n) (hinv : ∀ n, inv n = Ideal.div one (cm n)) :
    lastMul (aggr di gi (proj h Wl)) inv (proj h Wr) b = lastDiv (aggr di gi h) cm h Wl Wr b := by
  funext n o
  obtain ⟨r, hr⟩ := div_eq_mul_real (c := cm n) (by rw [← one_eq]; exact hcm n)
  obtain ⟨hr', hh'⟩ := hh
  obtain ⟨wr, hW'⟩ := hW
  have hinv' : inv n = (r : EReal) := by rw [hinv, hr, one_eq, one_mul]
  have key : aggr di gi (proj h Wl) n o * inv n = ∑ k : Fin 256, Ideal.div (aggr di gi h n k) (cm n) * Wl o k := by
    rw [hinv']
    simp only [hr, aggr, proj, hh', hW']
    simp only [← EReal.coe_mul, ← coe_sum, coe_ite]
    exact congrArg _ (real_key _ _ _ _)
  unfold lastMul lastDiv
  rw [key]
  rfl

/-- A layer's rows are real numbers: tanh is real everywhere, the keep indicator is 0 or 1, the keep probability a
    nonzero real. -/
theorem layerDiv_real (A : Tab 256) (cm : Fin 50000 → EReal) (x : Tab 256) (Wl Wr : Fin 256 → Fin 256 → EReal)
    (b : Fin 256 → EReal) (M : Tab 256) :
    ∃ hr : Fin 50000 → Fin 256 → ℝ, ∀ n k, layerDiv A cm x Wl Wr b M n k = (hr n k : EReal) := by
  have htanh : ∀ z : EReal, ∃ t : ℝ, Ideal.tanh z = (t : EReal) := fun z => by
    induction z using EReal.rec with
    | bot => exact ⟨-1, by simp⟩
    | coe x => exact ⟨Real.tanh x, rfl⟩
    | top => exact ⟨1, by simp⟩
  choose t ht using htanh
  refine ⟨fun n k => t ((∑ k' : Fin 256, Ideal.div (A n k') (cm n) * Wl k k' + b k) + ∑ k' : Fin 256, x n k' * Wr k k')
      * ((Ideal.cmp .ogt (M n k) (Ideal.ofBits .f32 0x3E4CCCCD#32)).toNat : ℝ) * (16777216 / 13421773 : ℝ), fun n k => ?_⟩
  unfold layerDiv
  rw [div_keepProb, ht]
  unfold keep invKeepProb
  simp only [EReal.coe_mul]

end Cert.Sage

end
-- ==== Proof.Bridge.lean ====
/-
  The kernel program's result is the reference's result.  The result array is what the last region's write-backs
  leave; each region's output is its layer applied to the arrays it finds; those arrays are the host stretches'
  neighbour sums and reciprocal degrees of the arguments and of the earlier regions' outputs; under the precondition
  the neighbour sums are sums over the edges whose destination word reads the node.  Layer by layer the multiplying
  form is the dividing form, and for the last layer projecting before summing is summing before projecting.
-/
import proofs.«419730_j49735721288419_2_alg».proof.Proof.RunValue
import proofs.«419730_j49735721288419_2_alg».proof.Proof.Entry
import proofs.«419730_j49735721288419_2_alg».proof.Proof.AggRead
import proofs.«419730_j49735721288419_2_alg».proof.Proof.PreFacts
import proofs.«419730_j49735721288419_2_alg».proof.Proof.RefValue
import proofs.«419730_j49735721288419_2_alg».proof.Proof.Region0
import proofs.«419730_j49735721288419_2_alg».proof.Proof.Region1
import proofs.«419730_j49735721288419_2_alg».proof.Proof.Region2
import proofs.«419730_j49735721288419_2_alg».proof.Proof.Algebra
import Idealize.ShloMosaic.Lib.Pipeline.Value

set_option maxRecDepth 16384

noncomputable section

open scoped BigOperators

namespace Cert.Proof.Bridge

open Idealize.ShloMosaic Idealize.ShloMosaic.TcCoe Idealize.ShloMosaic.ValueIdx Idealize.SL.Sem
open Cert.KernelIdeal Cert.KernelIdeal.Gen

/-- A rank-2 array as a curried table, a rank-1 array as a function of its coordinate. -/
def cur {a b : Nat} (f : (⟨2, ![a, b]⟩ : Shape).Idx → EReal) : Fin a → Fin b → EReal := fun p q => f (ix2 p q)
def vec {a : Nat} (f : (⟨1, ![a]⟩ : Shape).Idx → EReal) : Fin a → EReal := fun p => f (ix1 p)

/-- A vector cast to a row reads, at (0, j), the vector at j. -/
theorem row_cast {a : Nat} (x : (⟨1, ![a]⟩ : Shape).Idx → EReal) (h : (⟨1, ![a]⟩ : Shape).ShapeCasts ⟨2, ![1, a]⟩) (j : Fin a) :
    shapeCast ⟨2, ![1, a]⟩ x h (ix2 (0 : Fin 1) j) = x (ix1 j) :=
  (shapeCast_addUnit_apply ![a] x h (ix2 (0 : Fin 1) j)).trans
    (congrArg x (funext fun d => by match d with | ⟨0, _⟩ => rfl))

variable (m : (ℓ : Loc nD τ sig) → Buf (Elt Ideal) ℓ) (ρ : Dev nD → PrngReg) (c : Dev nD)

/-- The edge columns, the clamped degree and its stored reciprocal, as the kernel program's host stretches compute them. -/
def di : Cert.Sage.EdgeCol := KDefs.dstCol (Entry.aEI m c)
def gi : Cert.Sage.EdgeCol := KDefs.srcCol (Entry.aEI m c)
def cmK : Fin 50000 → EReal := fun n => KDefs.degree (Entry.aEI m c) (ix1 n)
def invK : Fin 50000 → EReal := fun n => KDefs.invDegree (Entry.aEI m c) (ix2 n (0 : Fin 1))

theorem hcm (n : Fin 50000) : Cert.Sage.one ≤ cmK m c n := AggRead.one_le_degree _ n
theorem hinv (n : Fin 50000) : invK m c n = Ideal.div Cert.Sage.one (cmK m c n) := AggRead.invDegree_apply _ n

/-- The rows after each layer, in the dividing form, over the kernel program's own edge columns and degree. -/
def H1 : Cert.Sage.Tab 256 :=
  Cert.Sage.layerDiv (Cert.Sage.aggr (di m c) (gi m c) (cur (Entry.aX m c))) (cmK m c) (cur (Entry.aX m c))
    (cur (Entry.aW1l m c)) (cur (Entry.aW1r m c)) (vec (Entry.aB1 m c)) (cur (Entry.aM1 m c))
def H2 : Cert.Sage.Tab 256 :=
  Cert.Sage.layerDiv (Cert.Sage.aggr (di m c) (gi m c) (H1 m c)) (cmK m c) (H1 m c)
    (cur (Entry.aW2l m c)) (cur (Entry.aW2r m c)) (vec (Entry.aB2 m c)) (cur (Entry.aM2 m c))
def OUT : Cert.Sage.Tab 128 :=
  Cert.Sage.lastDiv (Cert.Sage.aggr (di m c) (gi m c) (H2 m c)) (cmK m c) (H2 m c)
    (cur (Entry.aW3l m c)) (cur (Entry.aW3r m c)) (vec (Entry.aB3 m c))

variable (hpre : Cert.Pre_KernelIdeal m)
include hpre

/-- Region 0 leaves the first layer's rows. -/
theorem rows1_eq : cur (Entry.rows1 m ρ c) = H1 m c := by
  have hsrc := PreFacts.src_in_range m hpre c
  have hS : (fun n k => Region0.aSum (V3 (F := Ideal) m ρ) c (ix2 n k))
      = Cert.Sage.aggr (di m c) (gi m c) (cur (Entry.aX m c)) := by
    funext n k
    show (V3 (F := Ideal) m ρ c main_v25 : FVec Ideal S50000x256 .f32) (ix2 n k) = _
    rw [Entry.e3_sum]
    exact AggRead.agg256_apply _ hsrc _ n k
  have hI : (fun n => Region0.aInv (V3 (F := Ideal) m ρ) c (ix2 n (0 : Fin 1))) = invK m c := by
    funext n
    show (V3 (F := Ideal) m ρ c main_v12 : FVec Ideal S50000x1 .f32) (ix2 n (0 : Fin 1)) = _
    rw [Entry.e3_inv]; rfl
  have hX : (fun n k => Region0.aX (V3 (F := Ideal) m ρ) c (ix2 n k)) = cur (Entry.aX m c) := by
    funext n k
    show (V3 (F := Ideal) m ρ c main_arg0 : FVec Ideal S50000x256 .f32) (ix2 n k) = _
    rw [Entry.e3_x]; rfl
  have hWl : (fun j k => Region0.aWl (V3 (F := Ideal) m ρ) c (ix2 j k)) = cur (Entry.aW1l m c) := by
    funext j k
    show (V3 (F := Ideal) m ρ c main_v13 : FVec Ideal S256x256 .bf16) (ix2 j k) = _
    rw [Entry.e3_wl]; rfl
  have hWr : (fun j k => Region0.aWr (V3 (F := Ideal) m ρ) c (ix2 j k)) = cur (Entry.aW1r m c) := by
    funext j k
    show (V3 (F := Ideal) m ρ c main_v14 : FVec Ideal S256x256 .bf16) (ix2 j k) = _
    rw [Entry.e3_wr]; rfl
  have hB : (fun j => Region0.aB (V3 (F := Ideal) m ρ) c (ix2 (0 : Fin 1) j)) = vec (Entry.aB1 m c) := by
    funext j
    show (V3 (F := Ideal) m ρ c main_v19 : FVec Ideal S1x256 .f32) (ix2 (0 : Fin 1) j) = _
    rw [Entry.e3_b]; exact row_cast _ _ j
  have hM : (fun n k => Region0.aM (V3 (F := Ideal) m ρ) c (ix2 n k)) = cur (Entry.aM1 m c) := by
    funext n k
    show (V3 (F := Ideal) m ρ c main_arg2 : FVec Ideal S50000x256 .f32) (ix2 n k) = _
    rw [Entry.e3_m]; rfl
  funext n j
  show Region0.outArr (V3 (F := Ideal) m ρ) c (ix2 n j) = _
  rw [Region0.final0, hS, hI, hX, hWl, hWr, hB, hM]
  exact congrFun (congrFun (Cert.Sage.layer_eq _ _ _ _ _ _ _ _ (hcm m c) (hinv m c)) n) j

/-- Region 1 computes the second layer's rows (and stores only their two projections). -/
theorem hidden_eq : Region1.hidden (V6 (F := Ideal) m ρ) c = H2 m c := by
  have hsrc := PreFacts.src_in_range m hpre c
  have hR := rows1_eq m ρ c hpre
  have hS : (fun n k => Region1.aSum (V6 (F := Ideal) m ρ) c (ix2 n k))
      = Cert.Sage.aggr (di m c) (gi m c) (H1 m c) := by
    funext n k
    show (V6 (F := Ideal) m ρ c main_v30 : FVec Ideal S50000x256 .f32) (ix2 n k) = _
    rw [Entry.e6_sum, AggRead.agg256_apply _ hsrc _ n k]
    exact congrFun (congrFun (congrArg (Cert.Sage.aggr (di m c) (gi m c)) hR) n) k
  have hI : (fun n => Region1.aInv (V6 (F := Ideal) m ρ) c (ix2 n (0 : Fin 1))) = invK m c := by
    funext n
    show (V6 (F := Ideal) m ρ c main_v12 : FVec Ideal S50000x1 .f32) (ix2 n (0 : Fin 1)) = _
    rw [Entry.e6_inv]; rfl
  have hX : (fun n k => Region1.aH (V6 (F := Ideal) m ρ) c (ix2 n k)) = H1 m c := by
    funext n k
    show (V6 (F := Ideal) m ρ c main_v26 : FVec Ideal S50000x256 .f32) (ix2 n k) = _
    rw [Entry.e6_h]
    exact congrFun (congrFun hR n) k
  have hWl : (fun j k => Region1.aWl (V6 (F := Ideal) m ρ) c (ix2 j k)) = cur (Entry.aW2l m c) := by
    funext j k
    show (V6 (F := Ideal) m ρ c main_v15 : FVec Ideal S256x256 .bf16) (ix2 j k) = _
    rw [Entry.e6_wl]; rfl
  have hWr : (fun j k => Region1.aWr (V6 (F := Ideal) m ρ) c (ix2 j k)) = cur (Entry.aW2r m c) := by
    funext j k
    show (V6 (F := Ideal) m ρ c main_v16 : FVec Ideal S256x256 .bf16) (ix2 j k) = _
    rw [Entry.e6_wr]; rfl
  have hB : (fun j => Region1.aB (V6 (F := Ideal) m ρ) c (ix2 (0 : Fin 1) j)) = vec (Entry.aB2 m c) := by
    funext j
    show (V6 (F := Ideal) m ρ c main_v20 : FVec Ideal S1x256 .f32) (ix2 (0 : Fin 1) j) = _
    rw [Entry.e6_b]; exact row_cast _ _ j
  have hM : (fun n k => Region1.aM (V6 (F := Ideal) m ρ) c (ix2 n k)) = cur (Entry.aM2 m c) := by
    funext n k
    show (V6 (F := Ideal) m ρ c main_arg3 : FVec Ideal S50000x256 .f32) (ix2 n k) = _
    rw [Entry.e6_m]; rfl
  unfold Region1.hidden
  rw [hS, hI, hX, hWl, hWr, hB, hM]
  exact Cert.Sage.layer_eq _ _ _ _ _ _ _ _ (hcm m c) (hinv m c)

/-- The two projected tables region 1 leaves. -/
theorem projL_eq : cur (Entry.projL m ρ c) = Cert.Sage.proj (H2 m c) (cur (Entry.aW3l m c)) := by
  have hW : (fun o k => Region1.aW3l (V6 (F := Ideal) m ρ) c (ix2 o k)) = cur (Entry.aW3l m c) := by
    funext o k
    show (V6 (F := Ideal) m ρ c main_v17 : FVec Ideal S128x256 .bf16) (ix2 o k) = _
    rw [Entry.e6_w3l]; rfl
  funext n o
  show Region1.outPl (V6 (F := Ideal) m ρ) c (ix2 n o) = _
  rw [Region1.final1_pl, hidden_eq m ρ c hpre, hW]

theorem projR_eq : cur (Entry.projR m ρ c) = Cert.Sage.proj (H2 m c) (cur (Entry.aW3r m c)) := by
  have hW : (fun o k => Region1.aW3r (V6 (F := Ideal) m ρ) c (ix2 o k)) = cur (Entry.aW3r m c) := by
    funext o k
    show (V6 (F := Ideal) m ρ c main_v18 : FVec Ideal S128x256 .bf16) (ix2 o k) = _
    rw [Entry.e6_w3r]; rfl
  funext n o
  show Region1.outPr (V6 (F := Ideal) m ρ) c (ix2 n o) = _
  rw [Region1.final1_pr, hidden_eq m ρ c hpre, hW]

/-- THE KERNEL PROGRAM'S RESULT, entry by entry: the last layer in the dividing form. -/
theorem result_eq (n : Fin 50000) (o : Fin 128) :
    (W10 (F := Ideal) m ρ c (Proc.devRef .tc main_v36) : FVec Ideal S50000x128 .f32) (ix2 n o) = OUT m c n o := by
  have hsrc := PreFacts.src_in_range m hpre c
  have hS : (fun n k => Region2.aSum (V9 (F := Ideal) m ρ) c (ix2 n k))
      = Cert.Sage.aggr (di m c) (gi m c) (Cert.Sage.proj (H2 m c) (cur (Entry.aW3l m c))) := by
    funext n k
    show (V9 (F := Ideal) m ρ c main_v35 : FVec Ideal S50000x128 .f32) (ix2 n k) = _
    rw [Entry.e9_sum, AggRead.agg128_apply _ hsrc _ n k]
    exact congrFun (congrFun (congrArg (Cert.Sage.aggr (di m c) (gi m c)) (projL_eq m ρ c hpre)) n) k
  have hI : (fun n => Region2.aInv (V9 (F := Ideal) m ρ) c (ix2 n (0 : Fin 1))) = invK m c := by
    funext n
    show (V9 (F := Ideal) m ρ c main_v12 : FVec Ideal S50000x1 .f32) (ix2 n (0 : Fin 1)) = _
    rw [Entry.e9_inv]; rfl
  have hP : (fun n k => Region2.aPr (V9 (F := Ideal) m ρ) c (ix2 n k))
      = Cert.Sage.proj (H2 m c) (cur (Entry.aW3r m c)) := by
    funext n k
    show (V9 (F := Ideal) m ρ c main_v31_1 : FVec Ideal S50000x128 .f32) (ix2 n k) = _
    rw [Entry.e9_pr]
    exact congrFun (congrFun (projR_eq m ρ c hpre) n) k
  have hB : (fun o => Region2.aB (V9 (F := Ideal) m ρ) c (ix2 (0 : Fin 1) o)) = vec (Entry.aB3 m c) := by
    funext o
    show (V9 (F := Ideal) m ρ c main_v21 : FVec Ideal S1x128 .f32) (ix2 (0 : Fin 1) o) = _
    rw [Entry.e9_b]; exact row_cast _ _ o
  rw [Entry.result_eq]
  show Region2.outArr (V9 (F := Ideal) m ρ) c (ix2 n o) = _
  rw [Region2.final2, hS, hI, hP, hB]
  have hreal := Cert.Sage.layerDiv_real (Cert.Sage.aggr (di m c) (gi m c) (H1 m c)) (cmK m c) (H1 m c)
    (cur (Entry.aW2l m c)) (cur (Entry.aW2r m c)) (vec (Entry.aB2 m c)) (cur (Entry.aM2 m c))
  obtain ⟨w, hw⟩ := PreFacts.w3l_real m hpre c
  exact congrFun (congrFun (Cert.Sage.last_eq (di m c) (gi m c) (H2 m c) (invK m c) (cmK m c) (cur (Entry.aW3l m c))
    (cur (Entry.aW3r m c)) (vec (Entry.aB3 m c)) hreal ⟨w, fun o k => hw o k⟩ (hcm m c) (hinv m c)) n) o

end Cert.Proof.Bridge

end
-- ==== Proof.lean ====
/-
  The certificate of the three-layer neighbour-mean network against its reference.
  Frames: the two kernel programs' frames are their launches over the three regions; the reference's frame is its
  run with the result dropped.  The idealization names one constant, the reciprocal of the keep probability
  (1.25 in the kernel, which at exact arithmetic must be the reciprocal of the float 0.8 the reference divides by),
  twice (once per dropout).  Equality of results: the kernel program's result array, entry by entry, is the last
  layer in the dividing form over its own edge columns and degrees, and the reference's staged result is the same
  expression, the edge columns and degrees being the same terms of the edge list.
-/
import proofs.«419730_j49735721288419_2_alg».proof.Defs
import proofs.«419730_j49735721288419_2_alg».proof.Proof.Gen.Kernel
import proofs.«419730_j49735721288419_2_alg».proof.Proof.Gen.Kernel.Skeleton
import proofs.«419730_j49735721288419_2_alg».proof.Proof.Gen.Kernel.Launch
import proofs.«419730_j49735721288419_2_alg».proof.Proof.Gen.Kernel.Points
import proofs.«419730_j49735721288419_2_alg».proof.Proof.Gen.Kernel.Frame
import proofs.«419730_j49735721288419_2_alg».proof.Proof.Gen.KernelIdeal
import proofs.«419730_j49735721288419_2_alg».proof.Proof.Gen.KernelIdeal.Skeleton
import proofs.«419730_j49735721288419_2_alg».proof.Proof.Gen.KernelIdeal.Launch
import proofs.«419730_j49735721288419_2_alg».proof.Proof.Gen.KernelIdeal.Points
import proofs.«419730_j49735721288419_2_alg».proof.Proof.Gen.KernelIdeal.Frame
import proofs.«419730_j49735721288419_2_alg».proof.Proof.Gen.ReferenceIdeal
import proofs.«419730_j49735721288419_2_alg».proof.Proof.Gen.ReferenceIdeal.Run
import proofs.«419730_j49735721288419_2_alg».proof.Proof.Gen.ReferenceIdeal.Read
import proofs.«419730_j49735721288419_2_alg».proof.Proof.Gen.Pre_finite_inputs
import proofs.«419730_j49735721288419_2_alg».proof.Proof.Bridge
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The two programs' edge columns and clamped degrees are the same terms of the edge list. -/
theorem di_eq (m : (ℓ : Loc Cert.KernelIdeal.nD Cert.KernelIdeal.τ Cert.KernelIdeal.sig) → Buf (Elt Ideal) ℓ) (c : Dev Cert.KernelIdeal.nD) :
    Bridge.di m c = Cert.ReferenceIdeal.RefValue.dstCol (Cert.KernelIdeal.Entry.aEI m c) := rfl
theorem gi_eq (m : (ℓ : Loc Cert.KernelIdeal.nD Cert.KernelIdeal.τ Cert.KernelIdeal.sig) → Buf (Elt Ideal) ℓ) (c : Dev Cert.KernelIdeal.nD) :
    Bridge.gi m c = Cert.ReferenceIdeal.RefValue.srcCol (Cert.KernelIdeal.Entry.aEI m c) := rfl
theorem cm_eq (m : (ℓ : Loc Cert.KernelIdeal.nD Cert.KernelIdeal.τ Cert.KernelIdeal.sig) → Buf (Elt Ideal) ℓ) (c : Dev Cert.KernelIdeal.nD) :
    Bridge.cmK m c = Cert.ReferenceIdeal.RefValue.deg (Cert.KernelIdeal.Entry.aEI m c) := rfl

/-- The reference's staged result over the kernel program's arguments is the kernel side's dividing form. -/
theorem out_eq (m : (ℓ : Loc Cert.KernelIdeal.nD Cert.KernelIdeal.τ Cert.KernelIdeal.sig) → Buf (Elt Ideal) ℓ) (c : Dev Cert.KernelIdeal.nD) :
    Cert.ReferenceIdeal.RefValue.out (Cert.KernelIdeal.Entry.aX m c) (Cert.KernelIdeal.Entry.aEI m c) (Cert.KernelIdeal.Entry.aM1 m c)
      (Cert.KernelIdeal.Entry.aM2 m c) (Cert.KernelIdeal.Entry.aW1l m c) (Cert.KernelIdeal.Entry.aB1 m c) (Cert.KernelIdeal.Entry.aW1r m c)
      (Cert.KernelIdeal.Entry.aW2l m c) (Cert.KernelIdeal.Entry.aB2 m c) (Cert.KernelIdeal.Entry.aW2r m c) (Cert.KernelIdeal.Entry.aW3l m c)
      (Cert.KernelIdeal.Entry.aB3 m c) (Cert.KernelIdeal.Entry.aW3r m c) = Bridge.OUT m c := by
  unfold Cert.ReferenceIdeal.RefValue.out Cert.ReferenceIdeal.RefValue.h2 Cert.ReferenceIdeal.RefValue.h1 Bridge.OUT Bridge.H2 Bridge.H1
  rw [di_eq, gi_eq, cm_eq]
  rfl

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ledger's two entries (one per dropout): the table gives the name the reciprocal of the keep probability. -/
theorem preserves : Cert.preserves_Kernel_KernelIdeal :=
  ⟨IdealRules.named_const.statement Cert.KernelIdeal.κ "inv_keep" .f32 0x3FA00000#32 ((16777216 / 13421773 : ℝ) : EReal) rfl,
   IdealRules.named_const.statement Cert.KernelIdeal.κ "inv_keep" .f32 0x3FA00000#32 ((16777216 / 13421773 : ℝ) : EReal) rfl⟩

/-- From memories that agree on the arguments both programs end with the same result array. -/
theorem algebraic : Cert.algebraic_KernelIdeal_ReferenceIdeal := by
  intro m ρ m' ρ' hpre hagree
  refine ⟨fun c => Cert.KernelIdeal.Gen.W10 (F := Ideal) m ρ c (Proc.devRef .tc Cert.KernelIdeal.main_v36),
    Cert.KernelIdeal.RunValue.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v99_eq]
  obtain ⟨h0, h1, h2, h3, h4, h5, h6, h7, h8, h9, h10, h11, h12⟩ := hagree c
  rw [h0, h1, h2, h3, h4, h5, h6, h7, h8, h9, h10, h11, h12]
  funext i
  obtain ⟨n, o, rfl⟩ : ∃ (n : Fin 50000) (o : Fin 128), i = ix2 n o := ⟨i 0, i 1, eq_ix2 i⟩
  refine (Cert.ReferenceIdeal.RefValue.ref_out _ _ _ _ _ _ _ _ _ _ _ _ _ n o).trans ?_
  refine (congrFun (congrFun (out_eq m c) n) o).trans ?_
  exact (Bridge.result_eq m ρ c hpre n o).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
